-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S16x1x1 : Shape := ⟨3, ![16, 1, 1]⟩
abbrev S512x256 : Shape := ⟨2, ![512, 256]⟩
abbrev S1x1x1 : Shape := ⟨3, ![1, 1, 1]⟩
abbrev S256x512 : Shape := ⟨2, ![256, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S_ : Shape := ⟨0, ![]⟩

abbrev nBuf : Space → Nat
  | .hbm => 21
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S16x1x1, .f32⟩
  | .hbm, ⟨3, _⟩ => ⟨S_, .f32⟩
  | .hbm, ⟨4, _⟩ => ⟨S_, .f32⟩
  | .hbm, ⟨5, _⟩ => ⟨S16x1x1, .f32⟩
  | .hbm, ⟨6, _⟩ => ⟨S_, .f32⟩
  | .hbm, ⟨7, _⟩ => ⟨S_, .f32⟩
  | .hbm, ⟨8, _⟩ => ⟨S16x1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S1x1x1, .f32⟩
  | .local _ .vmem, ⟨19, _⟩ => ⟨S1x1x1, .f32⟩
  | .local _ .vmem, ⟨20, _⟩ => ⟨S1x1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v44 : BitVec 1 := Scalar.cmpi .eq arg1 c15_i32
  let v45 : BitVec 32 := Scalar.extui v44
  let c0_i32_21 : BitVec 32 := 0#32
  let v46 : BitVec 1 := Scalar.cmpi .ne v45 c0_i32_21
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v44 : BitVec 1 := Scalar.cmpi .eq arg1 c15_i32
  let v45 : BitVec 32 := Scalar.extui v44
  let c0_i32_21 : BitVec 32 := 0#32
  let v46 : BitVec 1 := Scalar.cmpi .ne v45 c0_i32_21
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![16, 16], ![false, false]⟩

def k2_cond2 (i : grid2.Coords) : BitVec 1 :=
  let arg1 : BitVec 32 := BitVec.ofNat 32 (i 1).val
  let c15_i32 : BitVec 32 := 15#32
  let v44 : BitVec 1 := Scalar.cmpi .eq arg1 c15_i32
  let v45 : BitVec 32 := Scalar.extui v44
  let c0_i32_21 : BitVec 32 := 0#32
  let v46 : BitVec 1 := Scalar.cmpi .ne v45 c0_i32_21
  v46

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S512x256_S512x256_0_0 : ∀ a, (![0, 0] : Fin 2 → Nat) a + S512x256.size a ≤ S512x256.size a
  h_S512x256 : 0 < S512x256.numel
  transposes_S512x256_p1_0_S256x512 : S512x256.Transposes [1, 0] S256x512
  reduces_S512x256_S512 : S512x256.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  reduces_S512x1_S1 : S512x1.Reduces [0] S1
  shapeCasts_S1_S1x1 : S1.ShapeCasts S1x1
  shapeCasts_S1x1_S1x1x1 : S1x1.ShapeCasts S1x1x1
  reducesTo_S16x1x1_S_d0_1_2 : S16x1x1.ReducesTo [0, 1, 2] S_
  h_S_ : 0 < S_.numel
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .f32 = 32 ∨ (Rect.block (s := S8192x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S8192x256.size a
  hwx1_1 : ∀ i : grid1.Coords, EltTy.bits .f32 = 32 ∨ (Rect.block (s := S8192x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S16x1x1.size a
  hwx1_2 : ∀ i : grid1.Coords, EltTy.bits .f32 = 32 ∨ (Rect.block (s := S16x1x1) S1x1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S8192x256.size a
  hwx2_0 : ∀ i : grid2.Coords, EltTy.bits .f32 = 32 ∨ (Rect.block (s := S8192x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S8192x256.size a
  hwx2_1 : ∀ i : grid2.Coords, EltTy.bits .f32 = 32 ∨ (Rect.block (s := S8192x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1.size a ≤ S16x1x1.size a
  hwx2_2 : ∀ i : grid2.Coords, EltTy.bits .f32 = 32 ∨ (Rect.block (s := S16x1x1) S1x1x1.size (cc2_transform_2 i) (hinb2_2 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 135
  | .vmem => 0
  | .smem => 0
  | _ => 0

abbrev hbmTy0_0 (i : Nat) : BufTy := match i % 128 with
  | 0 => ⟨S8192x256, .f32⟩
  | 1 => ⟨S8192x256, .f32⟩
  | 2 => ⟨S8192x256, .f32⟩
  | 3 => ⟨S_, .f32⟩
  | 4 => ⟨S8192, .f32⟩
  | 5 => ⟨S8192x1, .f32⟩
  | 6 => ⟨S8192x256, .f32⟩
  | 7 => ⟨S_, .f32⟩
  | 8 => ⟨S8192, .f32⟩
  | 9 => ⟨S1x8192, .f32⟩
  | 10 => ⟨S8192x8192, .f32⟩
  | 11 => ⟨S8192x8192, .f32⟩
  | 12 => ⟨S8192x8192, .f32⟩
  | 13 => ⟨S256x8192, .f32⟩
  | 14 => ⟨S8192x8192, .f32⟩
  | 15 => ⟨S_, .f32⟩
  | 16 => ⟨S8192x8192, .f32⟩
  | 17 => ⟨S8192x8192, .f32⟩
  | 18 => ⟨S8192x8192, .f32⟩
  | 19 => ⟨S_, .f32⟩
  | 20 => ⟨S8192x8192, .f32⟩
  | 21 => ⟨S8192x8192, .f32⟩
  | 22 => ⟨S_, .f32⟩
  | 23 => ⟨S8192x8192, .f32⟩
  | 24 => ⟨S8192x8192, .i1⟩
  | 25 => ⟨S_, .f32⟩
  | 26 => ⟨S_, .f32⟩
  | 27 => ⟨S8192x8192, .f32⟩
  | 28 => ⟨S8192x8192, .f32⟩
  | 29 => ⟨S_, .f32⟩
  | 30 => ⟨S8192x8192, .f32⟩
  | 31 => ⟨S8192x8192, .i1⟩
  | 32 => ⟨S8192x8192, .f32⟩
  | 33 => ⟨S_, .f32⟩
  | 34 => ⟨S_, .f32⟩
  | 35 => ⟨S8192x8192, .f32⟩
  | 36 => ⟨S8192x8192, .f32⟩
  | 37 => ⟨S8192x256, .f32⟩
  | 38 => ⟨S_, .f32⟩
  | 39 => ⟨S8192, .f32⟩
  | 40 => ⟨S8192x1, .f32⟩
  | 41 => ⟨S8192x256, .f32⟩
  | 42 => ⟨S_, .f32⟩
  | 43 => ⟨S8192, .f32⟩
  | 44 => ⟨S1x8192, .f32⟩
  | 45 => ⟨S8192x8192, .f32⟩
  | 46 => ⟨S8192x8192, .f32⟩
  | 47 => ⟨S8192x8192, .f32⟩
  | 48 => ⟨S256x8192, .f32⟩
  | 49 => ⟨S8192x8192, .f32⟩
  | 50 => ⟨S_, .f32⟩
  | 51 => ⟨S8192x8192, .f32⟩
  | 52 => ⟨S8192x8192, .f32⟩
  | 53 => ⟨S8192x8192, .f32⟩
  | 54 => ⟨S_, .f32⟩
  | 55 => ⟨S8192x8192, .f32⟩
  | 56 => ⟨S8192x8192, .f32⟩
  | 57 => ⟨S_, .f32⟩
  | 58 => ⟨S8192x8192, .f32⟩
  | 59 => ⟨S8192x8192, .i1⟩
  | 60 => ⟨S_, .f32⟩
  | 61 => ⟨S_, .f32⟩
  | 62 => ⟨S8192x8192, .f32⟩
  | 63 => ⟨S8192x8192, .f32⟩
  | 64 => ⟨S_, .f32⟩
  | 65 => ⟨S8192x8192, .f32⟩
  | 66 => ⟨S8192x8192, .i1⟩
  | 67 => ⟨S8192x8192, .f32⟩
  | 68 => ⟨S_, .f32⟩
  | 69 => ⟨S_, .f32⟩
  | 70 => ⟨S8192x8192, .f32⟩
  | 71 => ⟨S8192x8192, .f32⟩
  | 72 => ⟨S8192x256, .f32⟩
  | 73 => ⟨S_, .f32⟩
  | 74 => ⟨S8192, .f32⟩
  | 75 => ⟨S8192x1, .f32⟩
  | 76 => ⟨S8192x256, .f32⟩
  | 77 => ⟨S_, .f32⟩
  | 78 => ⟨S8192, .f32⟩
  | 79 => ⟨S1x8192, .f32⟩
  | 80 => ⟨S8192x8192, .f32⟩
  | 81 => ⟨S8192x8192, .f32⟩
  | 82 => ⟨S8192x8192, .f32⟩
  | 83 => ⟨S256x8192, .f32⟩
  | 84 => ⟨S8192x8192, .f32⟩
  | 85 => ⟨S_, .f32⟩
  | 86 => ⟨S8192x8192, .f32⟩
  | 87 => ⟨S8192x8192, .f32⟩
  | 88 => ⟨S8192x8192, .f32⟩
  | 89 => ⟨S_, .f32⟩
  | 90 => ⟨S8192x8192, .f32⟩
  | 91 => ⟨S8192x8192, .f32⟩
  | 92 => ⟨S_, .f32⟩
  | 93 => ⟨S8192x8192, .f32⟩
  | 94 => ⟨S8192x8192, .i1⟩
  | 95 => ⟨S_, .f32⟩
  | 96 => ⟨S_, .f32⟩
  | 97 => ⟨S8192x8192, .f32⟩
  | 98 => ⟨S8192x8192, .f32⟩
  | 99 => ⟨S_, .f32⟩
  | 100 => ⟨S8192x8192, .f32⟩
  | 101 => ⟨S8192x8192, .i1⟩
  | 102 => ⟨S8192x8192, .f32⟩
  | 103 => ⟨S_, .f32⟩
  | 104 => ⟨S_, .f32⟩
  | 105 => ⟨S8192x8192, .f32⟩
  | 106 => ⟨S8192x8192, .f32⟩
  | 107 => ⟨S_, .f32⟩
  | 108 => ⟨S8192x8192, .f32⟩
  | 109 => ⟨S8192x8192, .f32⟩
  | 110 => ⟨S8192x8192, .f32⟩
  | 111 => ⟨S_, .f32⟩
  | 112 => ⟨S8192x8192, .f32⟩
  | 113 => ⟨S8192x8192, .f32⟩
  | 114 => ⟨S8192x8192, .f32⟩
  | 115 => ⟨S_, .f32⟩
  | 116 => ⟨S8192x8192, .f32⟩
  | 117 => ⟨S8192x8192, .f32⟩
  | 118 => ⟨S8192x8192, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8192x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_call2_v0 : Ref sig .tc := ⟨.hbm, 61, rfl⟩
abbrev main_call2_v1 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_14 : Ref sig .tc := ⟨.hbm, 68, rfl⟩
abbrev main_call3_v0 : Ref sig .tc := ⟨.hbm, 69, rfl⟩
abbrev main_call3_v1 : Ref sig .tc := ⟨.hbm, 70, rfl⟩
abbrev main_v45 : Ref sig .tc := ⟨.hbm, 71, rfl⟩
abbrev main_v46 : Ref sig .tc := ⟨.hbm, 72, rfl⟩
abbrev main_cst_15 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_16 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_17 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_18 : Ref sig .tc := ⟨.hbm, 89, rfl⟩
abbrev main_v60 : Ref sig .tc := ⟨.hbm, 90, rfl⟩
abbrev main_v61 : Ref sig .tc := ⟨.hbm, 91, rfl⟩
abbrev main_cst_19 : Ref sig .tc := ⟨.hbm, 92, rfl⟩
abbrev main_v62 : Ref sig .tc := ⟨.hbm, 93, rfl⟩
abbrev main_v63 : Ref sig .tc := ⟨.hbm, 94, rfl⟩
abbrev main_cst_20 : Ref sig .tc := ⟨.hbm, 95, rfl⟩
abbrev main_call4_v0 : Ref sig .tc := ⟨.hbm, 96, rfl⟩
abbrev main_call4_v1 : Ref sig .tc := ⟨.hbm, 97, rfl⟩
abbrev main_v64 : Ref sig .tc := ⟨.hbm, 98, rfl⟩
abbrev main_cst_21 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_22 : Ref sig .tc := ⟨.hbm, 103, rfl⟩
abbrev main_call5_v0 : Ref sig .tc := ⟨.hbm, 104, rfl⟩
abbrev main_call5_v1 : Ref sig .tc := ⟨.hbm, 105, rfl⟩
abbrev main_v68 : Ref sig .tc := ⟨.hbm, 106, rfl⟩
abbrev main_cst_23 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_24 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_25 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_26 : Ref sig .tc := ⟨.hbm, 119, rfl⟩
abbrev main_v78 : Ref sig .tc := ⟨.hbm, 120, rfl⟩
abbrev main_cst_27 : Ref sig .tc := ⟨.hbm, 121, rfl⟩
abbrev main_v79 : Ref sig .tc := ⟨.hbm, 122, rfl⟩
abbrev main_cst_28 : Ref sig .tc := ⟨.hbm, 123, rfl⟩
abbrev main_v80 : Ref sig .tc := ⟨.hbm, 124, rfl⟩
abbrev main_cst_29 : Ref sig .tc := ⟨.hbm, 125, rfl⟩
abbrev main_v81 : Ref sig .tc := ⟨.hbm, 126, rfl⟩
abbrev main_v82 : Ref sig .tc := ⟨.hbm, 127, rfl⟩
abbrev main_cst_30 : Ref sig .tc := ⟨.hbm, 128, rfl⟩
abbrev main_v83 : Ref sig .tc := ⟨.hbm, 129, rfl⟩
abbrev main_cst_31 : Ref sig .tc := ⟨.hbm, 130, rfl⟩
abbrev main_v84 : Ref sig .tc := ⟨.hbm, 131, rfl⟩
abbrev main_cst_32 : Ref sig .tc := ⟨.hbm, 132, rfl⟩
abbrev main_v85 : Ref sig .tc := ⟨.hbm, 133, rfl⟩
abbrev main_v86 : Ref sig .tc := ⟨.hbm, 134, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.LibWholeRect.lean ====
/-
  Two facts about the rectangle that spans a whole buffer (offset zero on every axis, the buffer's own extents):
  a store through it, standing first in a list of stores, covers every index of the buffer; and the literal
  zero offsets of ranks two and three are the constant-zero function the library's lemmas about that rectangle
  are stated over.
-/
import Idealize.ShloMosaic.Lib.Pipeline.FrameBody
import Idealize.ShloMosaic.Lib.Pipeline.Value

namespace Cert.WholeRect

open Idealize.ShloMosaic

/-- The rank-3 zero offset is the constant-zero function. -/
theorem hz3 : (![0, 0, 0] : Fin 3 → Nat) = fun _ => 0 := by funext a; fin_cases a <;> rfl

/-- The rank-2 zero offset is the constant-zero function. -/
theorem hz2 : (![0, 0] : Fin 2 → Nat) = fun _ => 0 := by funext a; fin_cases a <;> rfl

/-- A store through the whole-buffer rectangle, standing first in a list of stores, covers every index. -/
theorem cover_whole {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self .., by show y ∈ (Rect.whole S).set; rw [Rect.set_whole]; exact Finset.mem_univ y⟩

end Cert.WholeRect
-- ==== Proof.Kernel.Point0.lean ====
/-
  One grid point of the pairwise-sum kernel of pallas_call 0, run on any four whole VMEM buffers: the two
  input tiles `a`, `b` (512×256 each), the output cell and the accumulator cell (1×1×1 each). The body
  computes the tile's sum s(a, b) = Σ_{p,q} exp(−dist(a_p, b_q)) (the payload `k0_pay3`), adds it to the
  accumulator (`k0_pay1`) — after zeroing it (`k0_pay2`) when the column coordinate j is 0 — and copies
  the accumulator to the output cell when j is the last column. Three cases of (j = 0, j = 15) occur on a
  16-column grid; in each the inputs come back unchanged, the accumulator holds the new partial sum, and the
  output cell is either untouched or holds that same sum.
-/
import proofs.«105586_j19189913878688_1_alg».proof.Proof.Gen.Kernel.Launch
import proofs.«105586_j19189913878688_1_alg».proof.Proof.Gen.Kernel.Skeleton
import proofs.«105586_j19189913878688_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«105586_j19189913878688_1_alg».proof.Proof.LibWholeRect

set_option maxRecDepth 16384

noncomputable section

namespace Cert.Kernel.Tile

open Cert.Kernel Cert.Kernel.Gen Cert.WholeRect
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point lies in the first column of the grid (j = 0): the accumulator is zeroed before the tile's sum is added. -/
abbrev first0 (i : grid0.Coords) : Prop := (Scalar.cmpi .ne (Scalar.extui (Scalar.cmpi .eq (BitVec.ofNat 32 (i 1).val) 0#32)) 0#32) = 1#1
/-- The point lies in the last column (j = 15): the accumulator is copied to the output cell. -/
abbrev last0 (i : grid0.Coords) : Prop := k0_cond2 i = 1#1

set_option maxHeartbeats 1000000 in
/-- An inner column (0 < j < 15): the accumulator goes from `xs` to `xs + s(a, b)`; the output cell is untouched. -/
theorem run0_mid (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : ¬first0 i) (hc1 : ¬last0 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k0_pay1 (k0_pay3 x0 x1) xs)) -∗ K ⟨⟩))
      ⊢ wp frame (wpE (defs₀ (F := F)) Variants.none c none) E (cc0__mmd_sum_kernel i arg2 harg2 arg3 harg3 arg4 harg4 arg5 harg5) K := by
  simp only [cc0__mmd_sum_kernel_eq_skeleton]; unfold cc0__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr; · ipureintro; exact hfo
    iexact HO
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

set_option maxHeartbeats 1000000 in
/-- The first column: the accumulator is reset, so it ends at `0 + s(a, b)` whatever it held; the output cell is untouched. -/
theorem run0_first (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : first0 i) (hc1 : ¬last0 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k0_pay1 (k0_pay3 x0 x1) k0_pay2)) -∗ K ⟨⟩))
      ⊢ wp frame (wpE (defs₀ (F := F)) Variants.none c none) E (cc0__mmd_sum_kernel i arg2 harg2 arg3 harg3 arg4 harg4 arg5 harg5) K := by
  simp only [cc0__mmd_sum_kernel_eq_skeleton]; unfold cc0__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    exact hfo
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

set_option maxHeartbeats 1000000 in
/-- The last column: the accumulator goes to `xs + s(a, b)` and the output cell receives the same value. -/
theorem run0_last (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : ¬first0 i) (hc1 : last0 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare (k0_pay1 (k0_pay3 x0 x1) xs) ∗ owns (c : Thread nD τ) arg5 fullShare (k0_pay1 (k0_pay3 x0 x1) xs)) -∗ K ⟨⟩))
      ⊢ wp frame (wpE (defs₀ (F := F)) Variants.none c none) E (cc0__mmd_sum_kernel i arg2 harg2 arg3 harg3 arg4 harg4 arg5 harg5) K := by
  simp only [cc0__mmd_sum_kernel_eq_skeleton]; unfold cc0__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    sl_unfold_words
    rw [View.read_writes_eq_canon _ _ _ (cover_whole hz3 _ _ _), View.canon_cons_unit_zero hz3]
    simp only [View.readAt_eq_ld, View.readCov_unit_zero (S := S1x1x1) _ hz3, harg5.read_unread, harg2.read_unread, harg3.read_unread, View.ld_unit_zero (S := S1x1x1) hz3, View.ld_unit_zero (S := S512x256) hz2]
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

end Cert.Kernel.Tile

end
-- ==== Proof.Kernel.Data0.lean ====
/-
  The proof data of pallas_call 0 and its body obligation, at any contents `V` the unscoped buffers hold when
  the region is entered. The grid is 16 × 16, walked row by row: point t is row i = t / 16, column j = t % 16.
  At point t the body is handed block i of the first operand (`ablk`) and block j of the second (`bblk`), each
  512 rows of 256, whether or not the pipeline fetched them there (an unfetched block's index has not moved).
  The accumulator cell after point t holds `acc t`: the tile's sum added to zero in column 0, to `acc (t − 1)`
  elsewhere — so at the end of a row it is the row's sixteen tile sums added up. The output cell receives it in
  column 15, where the pipeline writes it back to entry i of the result; in the other columns the body does not
  touch the output cell. The invariant between points is the accumulator at `acc (t − 1)` (at anything before
  the first point), the core's other scoped buffers at anything, and the generator register.
-/
import proofs.«105586_j19189913878688_1_alg».proof.Proof.Kernel.Point0

set_option maxRecDepth 16384

noncomputable section

namespace Cert.Kernel.Tile

open Cert.Kernel Cert.Kernel.Gen Cert.WholeRect
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The columns, decided over the grid -/

/-- The first column is the points ≡ 0 (mod 16). -/
theorem first0_iff : ∀ t : Fin cfg0.N, first0 (grid0.coords t) ↔ t.val % 16 = 0 :=
  (by decide +kernel : ∀ t : Fin grid0.N, first0 (grid0.coords t) ↔ t.val % 16 = 0)
/-- The last column is the points ≡ 15 (mod 16). -/
theorem last0_iff : ∀ t : Fin cfg0.N, last0 (grid0.coords t) ↔ t.val % 16 = 15 :=
  (by decide +kernel : ∀ t : Fin grid0.N, last0 (grid0.coords t) ↔ t.val % 16 = 15)
/-- Off the last column the output window is idle and its block is not written back. -/
theorem out0_idle : ∀ t : Fin cfg0.N, ¬last0 (grid0.coords t) → cfg0.idle 2 (grid0.coords t) = true := by decide +kernel
theorem out0_noFlush : ∀ t : Fin cfg0.N, ¬last0 (grid0.coords t) → (cfg0.win 2).flush t = false := by decide +kernel
/-- In the last column it is live. -/
theorem out0_live : ∀ t : Fin cfg0.N, last0 (grid0.coords t) → cfg0.idle 2 (grid0.coords t) = false := by decide +kernel

/-! ## The input blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's block at point `t` (rows 512·(t / 16) …), at its literal type. -/
abbrev ablk0 (c : Dev nD) (t : Fin cfg0.N) : Vec F S512x256 .f32 := iblk0 V c 0 t
/-- The second operand's block at point `t` (rows 512·(t % 16) …), at its literal type. -/
abbrev bblk0 (c : Dev nD) (t : Fin cfg0.N) : Vec F S512x256 .f32 := iblk0 V c 1 t

/-! ## The accumulator, point by point -/

/-- What the accumulator cell holds after point `n`: the tile's sum added to zero in column 0 and to what the
    point before left elsewhere. -/
def acc0 (c : Dev nD) : (n : ℕ) → n < cfg0.N → Vec F S1x1x1 .f32
  | 0, h => k0_pay1 (k0_pay3 (ablk0 V c ⟨0, h⟩) (bblk0 V c ⟨0, h⟩)) k0_pay2
  | n + 1, h => k0_pay1 (k0_pay3 (ablk0 V c ⟨n + 1, h⟩) (bblk0 V c ⟨n + 1, h⟩))
      (if (n + 1) % 16 = 0 then k0_pay2 else acc0 c n (Nat.lt_of_succ_lt h))

/-- In column 0 the sum restarts from zero. -/
theorem acc0_first (c : Dev nD) (t : Fin cfg0.N) (h0 : t.val % 16 = 0) :
    acc0 V c t.val t.isLt = k0_pay1 (k0_pay3 (ablk0 V c t) (bblk0 V c t)) k0_pay2 := by
  obtain ⟨n, hn⟩ := t
  cases n with
  | zero => rfl
  | succ n => show k0_pay1 _ (if (n + 1) % 16 = 0 then _ else _) = _; rw [if_pos h0]

/-- Elsewhere it continues from the point before. -/
theorem acc0_next (c : Dev nD) (t : Fin cfg0.N) (h0 : t.val % 16 ≠ 0) (k : ℕ) (hk : k < cfg0.N) (e : t.val = k + 1) :
    acc0 V c t.val t.isLt = k0_pay1 (k0_pay3 (ablk0 V c t) (bblk0 V c t)) (acc0 V c k hk) := by
  obtain ⟨n, hn⟩ := t
  subst e
  show k0_pay1 _ (if (k + 1) % 16 = 0 then _ else _) = _; rw [if_neg h0]

/-! ## The invariant -/

/-- The core's scoped buffers other than this call's staging buffers and its accumulator cell. -/
abbrev others0 : Finset (Ref sig .tc) :=
  (((Finset.univ.filter fun b : Ref sig .tc => b.isScoped) \ Finset.univ.image (Pipeline.stageRef spec0)).erase cc0_scratch0)

/-- Between points: the accumulator at what the point before left (at anything before the first point), the other
    scoped buffers at anything, the generator register at some state. -/
def Phi0 (c : Dev nD) (n : ℕ) : sProp 𝕄 :=
  iprop((∃ f, ⌜∀ (k : ℕ) (hk : k < cfg0.N), n = k + 1 → f = acc0 V c k hk⌝ ∗ owns (c : Thread nD τ) (Memref.whole cc0_scratch0 : Memref sig .tc .vmem S1x1x1 .f32) fullShare f)
    ∗ (bigSep others0 fun b => iprop(∃ f : Buf (Elt F) ((c : Thread nD τ).loc b), ((c : Thread nD τ).loc b) ↦{fullShare} f))
    ∗ ∃ r, prngReg c r)

/-- The scoped buffers no window stages are the accumulator cell at something and the others. -/
theorem scopedRest0_split (c : Dev nD) :
    (Pipeline.scopedRest (Ix := Unit) (Name := ℕ) (U := UR sig nD τ) (Lvl := ℕ) (Val := Elt F) spec0 c : sProp 𝕄)
      = iprop((∃ f, owns (c : Thread nD τ) (Memref.whole cc0_scratch0 : Memref sig .tc .vmem S1x1x1 .f32) fullShare f)
        ∗ bigSep others0 fun b => iprop(∃ f : Buf (Elt F) ((c : Thread nD τ).loc b), ((c : Thread nD τ).loc b) ↦{fullShare} f)) := by
  unfold Pipeline.scopedRest
  rw [bigSep_erase (i := cc0_scratch0) (by decide)]
  simp only [owns_whole]
  rfl

/-! ## The proof data -/

/-- Pallas_call 0's proof data on core `c`: the arrays as the region finds them; after the body each input's
    buffer at its block and the output cell at the accumulator's value; the invariant above; nothing owed. An
    input array two windows read is held half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- Each input's current staging buffer holds its block at every point, fetched there or not: an unfetched
    window's block index has not moved since the point before, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation -/

/-- The body at any point, by the column: the inputs' buffers hold their blocks, the accumulator what the point
    before left; the case's run applies, and what it leaves is the next point's invariant. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ (dat0 V c).leavesExact 2 t)) := by
  unfold bodyAt0
  simp only [before0_0, before0_1]
  rw [show (dat0 V c).Φ t.succ = Phi0 V c (t.val + 1) from rfl,
    show (dat0 V c).Φ t.castSucc = Phi0 V c t.val from rfl,
    show (dat0 V c).owesAt () t.succ = (dat0 V c).owesAt () t.castSucc from rfl,
    after0_0, after0_1]
  unfold Phi0
  iintro ⟨⟨⟨%f, %hf, HS⟩, HR, HP⟩, Ho, ⟨%d0, H0⟩, ⟨%d1, H1⟩, ⟨%d2, H2⟩⟩
  by_cases hl : last0 (grid0.coords t)
  · -- the last column: the output cell receives the row's sum
    have h15 := (last0_iff t).mp hl
    have hnf : ¬first0 (grid0.coords t) := fun h => by have := (first0_iff t).mp h; omega
    have h0 : t.val % 16 ≠ 0 := by omega
    obtain ⟨k, hk⟩ : ∃ k, t.val = k + 1 := ⟨t.val - 1, by omega⟩
    have hkN : k < cfg0.N := by have := t.isLt; omega
    obtain rfl := hf k hkN hk
    rw [show (dat0 V c).leavesExact 2 t = owns (c : Thread nD τ) (st0_2 t) fullShare ((dat0 V c).after 2 t) from by
      unfold Dat.leavesExact; rw [out0_live t hl], after0_2, acc0_next V c t h0 k hkN hk]
    iapply (run0_last c (grid0.coords t) _ _ _ _ _ _ _ _ hnf hl (ablk0 V c t) (bblk0 V c t) _ (acc0 V c k hkN) Set.univ _)
    isplitl [H0]; · iexact H0
    isplitl [H1]; · iexact H1
    isplitl [H2]; · iexact H2
    isplitl [HS]; · iexact HS
    iintro ⟨H0, H1, H2, HS⟩
    isplitl [HS HR HP]
    · isplitl [HS]
      · iexists _; isplitr; swap; (· iexact HS)
        ipureintro; intro k' hk' e'
        obtain rfl : k' = t.val := (Nat.succ.inj e').symm
        exact (acc0_next V c t h0 k hkN hk).symm
      isplitl [HR]; · iexact HR
      iexact HP
    isplitl [Ho]; · iexact Ho
    isplitl [H0]; · iexact H0
    isplitl [H1]; · iexact H1
    iexact H2
  · -- an earlier column: the output cell is handed back as found
    rw [(dat0 V c).leavesExact_idle 2 t (out0_idle t hl) (out0_noFlush t hl)]
    by_cases hfst : first0 (grid0.coords t)
    · have h0 := (first0_iff t).mp hfst
      iapply (run0_first c (grid0.coords t) _ _ _ _ _ _ _ _ hfst hl (ablk0 V c t) (bblk0 V c t) _ f Set.univ _)
      isplitl [H0]; · iexact H0
      isplitl [H1]; · iexact H1
      isplitl [H2]; · iexact H2
      isplitl [HS]; · iexact HS
      iintro ⟨H0, H1, H2, HS⟩
      isplitl [HS HR HP]
      · isplitl [HS]
        · iexists _; isplitr; swap; (· iexact HS)
          ipureintro; intro k' hk' e'
          obtain rfl : k' = t.val := (Nat.succ.inj e').symm
          exact (acc0_first V c t h0).symm
        isplitl [HR]; · iexact HR
        iexact HP
      isplitl [Ho]; · iexact Ho
      isplitl [H0]; · iexact H0
      isplitl [H1]; · iexact H1
      iexists d2; iexact H2
    · have h0 : t.val % 16 ≠ 0 := fun h => hfst ((first0_iff t).mpr h)
      obtain ⟨k, hk⟩ : ∃ k, t.val = k + 1 := ⟨t.val - 1, by have := t.isLt; omega⟩
      have hkN : k < cfg0.N := by have := t.isLt; omega
      obtain rfl := hf k hkN hk
      iapply (run0_mid c (grid0.coords t) _ _ _ _ _ _ _ _ hfst hl (ablk0 V c t) (bblk0 V c t) _ (acc0 V c k hkN) Set.univ _)
      isplitl [H0]; · iexact H0
      isplitl [H1]; · iexact H1
      isplitl [H2]; · iexact H2
      isplitl [HS]; · iexact HS
      iintro ⟨H0, H1, H2, HS⟩
      isplitl [HS HR HP]
      · isplitl [HS]
        · iexists _; isplitr; swap; (· iexact HS)
          ipureintro; intro k' hk' e'
          obtain rfl : k' = t.val := (Nat.succ.inj e').symm
          exact (acc0_next V c t h0 k hkN hk).symm
        isplitl [HR]; · iexact HR
        iexact HP
      isplitl [Ho]; · iexact Ho
      isplitl [H0]; · iexact H0
      isplitl [H1]; · iexact H1
      iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Tile

end
-- ==== Proof.Kernel.Point1.lean ====
/-
  One grid point of the pairwise-sum kernel of pallas_call 1, run on any four whole VMEM buffers: the two
  input tiles `a`, `b` (512×256 each), the output cell and the accumulator cell (1×1×1 each). The body
  computes the tile's sum s(a, b) = Σ_{p,q} exp(−dist(a_p, b_q)) (the payload `k1_pay3`), adds it to the
  accumulator (`k1_pay1`) — after zeroing it (`k1_pay2`) when the column coordinate j is 0 — and copies
  the accumulator to the output cell when j is the last column. Three cases of (j = 0, j = 15) occur on a
  16-column grid; in each the inputs come back unchanged, the accumulator holds the new partial sum, and the
  output cell is either untouched or holds that same sum.
-/
import proofs.«105586_j19189913878688_1_alg».proof.Proof.Gen.Kernel.Launch
import proofs.«105586_j19189913878688_1_alg».proof.Proof.Gen.Kernel.Skeleton
import proofs.«105586_j19189913878688_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«105586_j19189913878688_1_alg».proof.Proof.LibWholeRect

set_option maxRecDepth 16384

noncomputable section

namespace Cert.Kernel.Tile

open Cert.Kernel Cert.Kernel.Gen Cert.WholeRect
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point lies in the first column of the grid (j = 0): the accumulator is zeroed before the tile's sum is added. -/
abbrev first1 (i : grid1.Coords) : Prop := (Scalar.cmpi .ne (Scalar.extui (Scalar.cmpi .eq (BitVec.ofNat 32 (i 1).val) 0#32)) 0#32) = 1#1
/-- The point lies in the last column (j = 15): the accumulator is copied to the output cell. -/
abbrev last1 (i : grid1.Coords) : Prop := k1_cond2 i = 1#1

set_option maxHeartbeats 1000000 in
/-- An inner column (0 < j < 15): the accumulator goes from `xs` to `xs + s(a, b)`; the output cell is untouched. -/
theorem run1_mid (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : ¬first1 i) (hc1 : ¬last1 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k1_pay1 (k1_pay3 x0 x1) xs)) -∗ K ⟨⟩))
      ⊢ wp frame (wpE (defs₀ (F := F)) Variants.none c none) E (cc1__mmd_sum_kernel i arg2 harg2 arg3 harg3 arg4 harg4 arg5 harg5) K := by
  simp only [cc1__mmd_sum_kernel_eq_skeleton]; unfold cc1__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr; · ipureintro; exact hfo
    iexact HO
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

set_option maxHeartbeats 1000000 in
/-- The first column: the accumulator is reset, so it ends at `0 + s(a, b)` whatever it held; the output cell is untouched. -/
theorem run1_first (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : first1 i) (hc1 : ¬last1 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k1_pay1 (k1_pay3 x0 x1) k1_pay2)) -∗ K ⟨⟩))
      ⊢ wp frame (wpE (defs₀ (F := F)) Variants.none c none) E (cc1__mmd_sum_kernel i arg2 harg2 arg3 harg3 arg4 harg4 arg5 harg5) K := by
  simp only [cc1__mmd_sum_kernel_eq_skeleton]; unfold cc1__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    exact hfo
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

set_option maxHeartbeats 1000000 in
/-- The last column: the accumulator goes to `xs + s(a, b)` and the output cell receives the same value. -/
theorem run1_last (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : ¬first1 i) (hc1 : last1 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare (k1_pay1 (k1_pay3 x0 x1) xs) ∗ owns (c : Thread nD τ) arg5 fullShare (k1_pay1 (k1_pay3 x0 x1) xs)) -∗ K ⟨⟩))
      ⊢ wp frame (wpE (defs₀ (F := F)) Variants.none c none) E (cc1__mmd_sum_kernel i arg2 harg2 arg3 harg3 arg4 harg4 arg5 harg5) K := by
  simp only [cc1__mmd_sum_kernel_eq_skeleton]; unfold cc1__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    sl_unfold_words
    rw [View.read_writes_eq_canon _ _ _ (cover_whole hz3 _ _ _), View.canon_cons_unit_zero hz3]
    simp only [View.readAt_eq_ld, View.readCov_unit_zero (S := S1x1x1) _ hz3, harg5.read_unread, harg2.read_unread, harg3.read_unread, View.ld_unit_zero (S := S1x1x1) hz3, View.ld_unit_zero (S := S512x256) hz2]
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

end Cert.Kernel.Tile

end
-- ==== Proof.Kernel.Data1.lean ====
/-
  The proof data of pallas_call 1 and its body obligation, at any contents `V` the unscoped buffers hold when
  the region is entered. The grid is 16 × 16, walked row by row: point t is row i = t / 16, column j = t % 16.
  At point t the body is handed block i of the first operand (`ablk`) and block j of the second (`bblk`), each
  512 rows of 256, whether or not the pipeline fetched them there (an unfetched block's index has not moved).
  The accumulator cell after point t holds `acc t`: the tile's sum added to zero in column 0, to `acc (t − 1)`
  elsewhere — so at the end of a row it is the row's sixteen tile sums added up. The output cell receives it in
  column 15, where the pipeline writes it back to entry i of the result; in the other columns the body does not
  touch the output cell. The invariant between points is the accumulator at `acc (t − 1)` (at anything before
  the first point), the core's other scoped buffers at anything, and the generator register.
-/
import proofs.«105586_j19189913878688_1_alg».proof.Proof.Kernel.Point1

set_option maxRecDepth 16384

noncomputable section

namespace Cert.Kernel.Tile

open Cert.Kernel Cert.Kernel.Gen Cert.WholeRect
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The columns, decided over the grid -/

/-- The first column is the points ≡ 0 (mod 16). -/
theorem first1_iff : ∀ t : Fin cfg1.N, first1 (grid1.coords t) ↔ t.val % 16 = 0 :=
  (by decide +kernel : ∀ t : Fin grid1.N, first1 (grid1.coords t) ↔ t.val % 16 = 0)
/-- The last column is the points ≡ 15 (mod 16). -/
theorem last1_iff : ∀ t : Fin cfg1.N, last1 (grid1.coords t) ↔ t.val % 16 = 15 :=
  (by decide +kernel : ∀ t : Fin grid1.N, last1 (grid1.coords t) ↔ t.val % 16 = 15)
/-- Off the last column the output window is idle and its block is not written back. -/
theorem out1_idle : ∀ t : Fin cfg1.N, ¬last1 (grid1.coords t) → cfg1.idle 2 (grid1.coords t) = true := by decide +kernel
theorem out1_noFlush : ∀ t : Fin cfg1.N, ¬last1 (grid1.coords t) → (cfg1.win 2).flush t = false := by decide +kernel
/-- In the last column it is live. -/
theorem out1_live : ∀ t : Fin cfg1.N, last1 (grid1.coords t) → cfg1.idle 2 (grid1.coords t) = false := by decide +kernel

/-! ## The input blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's block at point `t` (rows 512·(t / 16) …), at its literal type. -/
abbrev ablk1 (c : Dev nD) (t : Fin cfg1.N) : Vec F S512x256 .f32 := iblk1 V c 0 t
/-- The second operand's block at point `t` (rows 512·(t % 16) …), at its literal type. -/
abbrev bblk1 (c : Dev nD) (t : Fin cfg1.N) : Vec F S512x256 .f32 := iblk1 V c 1 t

/-! ## The accumulator, point by point -/

/-- What the accumulator cell holds after point `n`: the tile's sum added to zero in column 0 and to what the
    point before left elsewhere. -/
def acc1 (c : Dev nD) : (n : ℕ) → n < cfg1.N → Vec F S1x1x1 .f32
  | 0, h => k1_pay1 (k1_pay3 (ablk1 V c ⟨0, h⟩) (bblk1 V c ⟨0, h⟩)) k1_pay2
  | n + 1, h => k1_pay1 (k1_pay3 (ablk1 V c ⟨n + 1, h⟩) (bblk1 V c ⟨n + 1, h⟩))
      (if (n + 1) % 16 = 0 then k1_pay2 else acc1 c n (Nat.lt_of_succ_lt h))

/-- In column 0 the sum restarts from zero. -/
theorem acc1_first (c : Dev nD) (t : Fin cfg1.N) (h0 : t.val % 16 = 0) :
    acc1 V c t.val t.isLt = k1_pay1 (k1_pay3 (ablk1 V c t) (bblk1 V c t)) k1_pay2 := by
  obtain ⟨n, hn⟩ := t
  cases n with
  | zero => rfl
  | succ n => show k1_pay1 _ (if (n + 1) % 16 = 0 then _ else _) = _; rw [if_pos h0]

/-- Elsewhere it continues from the point before. -/
theorem acc1_next (c : Dev nD) (t : Fin cfg1.N) (h0 : t.val % 16 ≠ 0) (k : ℕ) (hk : k < cfg1.N) (e : t.val = k + 1) :
    acc1 V c t.val t.isLt = k1_pay1 (k1_pay3 (ablk1 V c t) (bblk1 V c t)) (acc1 V c k hk) := by
  obtain ⟨n, hn⟩ := t
  subst e
  show k1_pay1 _ (if (k + 1) % 16 = 0 then _ else _) = _; rw [if_neg h0]

/-! ## The invariant -/

/-- The core's scoped buffers other than this call's staging buffers and its accumulator cell. -/
abbrev others1 : Finset (Ref sig .tc) :=
  (((Finset.univ.filter fun b : Ref sig .tc => b.isScoped) \ Finset.univ.image (Pipeline.stageRef spec1)).erase cc1_scratch0)

/-- Between points: the accumulator at what the point before left (at anything before the first point), the other
    scoped buffers at anything, the generator register at some state. -/
def Phi1 (c : Dev nD) (n : ℕ) : sProp 𝕄 :=
  iprop((∃ f, ⌜∀ (k : ℕ) (hk : k < cfg1.N), n = k + 1 → f = acc1 V c k hk⌝ ∗ owns (c : Thread nD τ) (Memref.whole cc1_scratch0 : Memref sig .tc .vmem S1x1x1 .f32) fullShare f)
    ∗ (bigSep others1 fun b => iprop(∃ f : Buf (Elt F) ((c : Thread nD τ).loc b), ((c : Thread nD τ).loc b) ↦{fullShare} f))
    ∗ ∃ r, prngReg c r)

/-- The scoped buffers no window stages are the accumulator cell at something and the others. -/
theorem scopedRest1_split (c : Dev nD) :
    (Pipeline.scopedRest (Ix := Unit) (Name := ℕ) (U := UR sig nD τ) (Lvl := ℕ) (Val := Elt F) spec1 c : sProp 𝕄)
      = iprop((∃ f, owns (c : Thread nD τ) (Memref.whole cc1_scratch0 : Memref sig .tc .vmem S1x1x1 .f32) fullShare f)
        ∗ bigSep others1 fun b => iprop(∃ f : Buf (Elt F) ((c : Thread nD τ).loc b), ((c : Thread nD τ).loc b) ↦{fullShare} f)) := by
  unfold Pipeline.scopedRest
  rw [bigSep_erase (i := cc1_scratch0) (by decide)]
  simp only [owns_whole]
  rfl

/-! ## The proof data -/

/-- Pallas_call 1's proof data on core `c`: the arrays as the region finds them; after the body each input's
    buffer at its block and the output cell at the accumulator's value; the invariant above; nothing owed. An
    input array two windows read is held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- Each input's current staging buffer holds its block at every point, fetched there or not: an unfetched
    window's block index has not moved since the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation -/

/-- The body at any point, by the column: the inputs' buffers hold their blocks, the accumulator what the point
    before left; the case's run applies, and what it leaves is the next point's invariant. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ (dat1 V c).leavesExact 2 t)) := by
  unfold bodyAt1
  simp only [before1_0, before1_1]
  rw [show (dat1 V c).Φ t.succ = Phi1 V c (t.val + 1) from rfl,
    show (dat1 V c).Φ t.castSucc = Phi1 V c t.val from rfl,
    show (dat1 V c).owesAt () t.succ = (dat1 V c).owesAt () t.castSucc from rfl,
    after1_0, after1_1]
  unfold Phi1
  iintro ⟨⟨⟨%f, %hf, HS⟩, HR, HP⟩, Ho, ⟨%d0, H0⟩, ⟨%d1, H1⟩, ⟨%d2, H2⟩⟩
  by_cases hl : last1 (grid1.coords t)
  · -- the last column: the output cell receives the row's sum
    have h15 := (last1_iff t).mp hl
    have hnf : ¬first1 (grid1.coords t) := fun h => by have := (first1_iff t).mp h; omega
    have h0 : t.val % 16 ≠ 0 := by omega
    obtain ⟨k, hk⟩ : ∃ k, t.val = k + 1 := ⟨t.val - 1, by omega⟩
    have hkN : k < cfg1.N := by have := t.isLt; omega
    obtain rfl := hf k hkN hk
    rw [show (dat1 V c).leavesExact 2 t = owns (c : Thread nD τ) (st1_2 t) fullShare ((dat1 V c).after 2 t) from by
      unfold Dat.leavesExact; rw [out1_live t hl], after1_2, acc1_next V c t h0 k hkN hk]
    iapply (run1_last c (grid1.coords t) _ _ _ _ _ _ _ _ hnf hl (ablk1 V c t) (bblk1 V c t) _ (acc1 V c k hkN) Set.univ _)
    isplitl [H0]; · iexact H0
    isplitl [H1]; · iexact H1
    isplitl [H2]; · iexact H2
    isplitl [HS]; · iexact HS
    iintro ⟨H0, H1, H2, HS⟩
    isplitl [HS HR HP]
    · isplitl [HS]
      · iexists _; isplitr; swap; (· iexact HS)
        ipureintro; intro k' hk' e'
        obtain rfl : k' = t.val := (Nat.succ.inj e').symm
        exact (acc1_next V c t h0 k hkN hk).symm
      isplitl [HR]; · iexact HR
      iexact HP
    isplitl [Ho]; · iexact Ho
    isplitl [H0]; · iexact H0
    isplitl [H1]; · iexact H1
    iexact H2
  · -- an earlier column: the output cell is handed back as found
    rw [(dat1 V c).leavesExact_idle 2 t (out1_idle t hl) (out1_noFlush t hl)]
    by_cases hfst : first1 (grid1.coords t)
    · have h0 := (first1_iff t).mp hfst
      iapply (run1_first c (grid1.coords t) _ _ _ _ _ _ _ _ hfst hl (ablk1 V c t) (bblk1 V c t) _ f Set.univ _)
      isplitl [H0]; · iexact H0
      isplitl [H1]; · iexact H1
      isplitl [H2]; · iexact H2
      isplitl [HS]; · iexact HS
      iintro ⟨H0, H1, H2, HS⟩
      isplitl [HS HR HP]
      · isplitl [HS]
        · iexists _; isplitr; swap; (· iexact HS)
          ipureintro; intro k' hk' e'
          obtain rfl : k' = t.val := (Nat.succ.inj e').symm
          exact (acc1_first V c t h0).symm
        isplitl [HR]; · iexact HR
        iexact HP
      isplitl [Ho]; · iexact Ho
      isplitl [H0]; · iexact H0
      isplitl [H1]; · iexact H1
      iexists d2; iexact H2
    · have h0 : t.val % 16 ≠ 0 := fun h => hfst ((first1_iff t).mpr h)
      obtain ⟨k, hk⟩ : ∃ k, t.val = k + 1 := ⟨t.val - 1, by have := t.isLt; omega⟩
      have hkN : k < cfg1.N := by have := t.isLt; omega
      obtain rfl := hf k hkN hk
      iapply (run1_mid c (grid1.coords t) _ _ _ _ _ _ _ _ hfst hl (ablk1 V c t) (bblk1 V c t) _ (acc1 V c k hkN) Set.univ _)
      isplitl [H0]; · iexact H0
      isplitl [H1]; · iexact H1
      isplitl [H2]; · iexact H2
      isplitl [HS]; · iexact HS
      iintro ⟨H0, H1, H2, HS⟩
      isplitl [HS HR HP]
      · isplitl [HS]
        · iexists _; isplitr; swap; (· iexact HS)
          ipureintro; intro k' hk' e'
          obtain rfl : k' = t.val := (Nat.succ.inj e').symm
          exact (acc1_next V c t h0 k hkN hk).symm
        isplitl [HR]; · iexact HR
        iexact HP
      isplitl [Ho]; · iexact Ho
      isplitl [H0]; · iexact H0
      isplitl [H1]; · iexact H1
      iexists d2; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Tile

end
-- ==== Proof.Kernel.Point2.lean ====
/-
  One grid point of the pairwise-sum kernel of pallas_call 2, run on any four whole VMEM buffers: the two
  input tiles `a`, `b` (512×256 each), the output cell and the accumulator cell (1×1×1 each). The body
  computes the tile's sum s(a, b) = Σ_{p,q} exp(−dist(a_p, b_q)) (the payload `k2_pay3`), adds it to the
  accumulator (`k2_pay1`) — after zeroing it (`k2_pay2`) when the column coordinate j is 0 — and copies
  the accumulator to the output cell when j is the last column. Three cases of (j = 0, j = 15) occur on a
  16-column grid; in each the inputs come back unchanged, the accumulator holds the new partial sum, and the
  output cell is either untouched or holds that same sum.
-/
import proofs.«105586_j19189913878688_1_alg».proof.Proof.Gen.Kernel.Launch
import proofs.«105586_j19189913878688_1_alg».proof.Proof.Gen.Kernel.Skeleton
import proofs.«105586_j19189913878688_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«105586_j19189913878688_1_alg».proof.Proof.LibWholeRect

set_option maxRecDepth 16384

noncomputable section

namespace Cert.Kernel.Tile

open Cert.Kernel Cert.Kernel.Gen Cert.WholeRect
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point lies in the first column of the grid (j = 0): the accumulator is zeroed before the tile's sum is added. -/
abbrev first2 (i : grid2.Coords) : Prop := (Scalar.cmpi .ne (Scalar.extui (Scalar.cmpi .eq (BitVec.ofNat 32 (i 1).val) 0#32)) 0#32) = 1#1
/-- The point lies in the last column (j = 15): the accumulator is copied to the output cell. -/
abbrev last2 (i : grid2.Coords) : Prop := k2_cond2 i = 1#1

set_option maxHeartbeats 1000000 in
/-- An inner column (0 < j < 15): the accumulator goes from `xs` to `xs + s(a, b)`; the output cell is untouched. -/
theorem run2_mid (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : ¬first2 i) (hc1 : ¬last2 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k2_pay1 (k2_pay3 x0 x1) xs)) -∗ K ⟨⟩))
      ⊢ wp frame (wpE (defs₀ (F := F)) Variants.none c none) E (cc2__mmd_sum_kernel i arg2 harg2 arg3 harg3 arg4 harg4 arg5 harg5) K := by
  simp only [cc2__mmd_sum_kernel_eq_skeleton]; unfold cc2__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr; · ipureintro; exact hfo
    iexact HO
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

set_option maxHeartbeats 1000000 in
/-- The first column: the accumulator is reset, so it ends at `0 + s(a, b)` whatever it held; the output cell is untouched. -/
theorem run2_first (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : first2 i) (hc1 : ¬last2 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k2_pay1 (k2_pay3 x0 x1) k2_pay2)) -∗ K ⟨⟩))
      ⊢ wp frame (wpE (defs₀ (F := F)) Variants.none c none) E (cc2__mmd_sum_kernel i arg2 harg2 arg3 harg3 arg4 harg4 arg5 harg5) K := by
  simp only [cc2__mmd_sum_kernel_eq_skeleton]; unfold cc2__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    exact hfo
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

set_option maxHeartbeats 1000000 in
/-- The last column: the accumulator goes to `xs + s(a, b)` and the output cell receives the same value. -/
theorem run2_last (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : ¬first2 i) (hc1 : last2 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare (k2_pay1 (k2_pay3 x0 x1) xs) ∗ owns (c : Thread nD τ) arg5 fullShare (k2_pay1 (k2_pay3 x0 x1) xs)) -∗ K ⟨⟩))
      ⊢ wp frame (wpE (defs₀ (F := F)) Variants.none c none) E (cc2__mmd_sum_kernel i arg2 harg2 arg3 harg3 arg4 harg4 arg5 harg5) K := by
  simp only [cc2__mmd_sum_kernel_eq_skeleton]; unfold cc2__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    sl_unfold_words
    rw [View.read_writes_eq_canon _ _ _ (cover_whole hz3 _ _ _), View.canon_cons_unit_zero hz3]
    simp only [View.readAt_eq_ld, View.readCov_unit_zero (S := S1x1x1) _ hz3, harg5.read_unread, harg2.read_unread, harg3.read_unread, View.ld_unit_zero (S := S1x1x1) hz3, View.ld_unit_zero (S := S512x256) hz2]
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

end Cert.Kernel.Tile

end
-- ==== Proof.Kernel.Data2.lean ====
/-
  The proof data of pallas_call 2 and its body obligation, at any contents `V` the unscoped buffers hold when
  the region is entered. The grid is 16 × 16, walked row by row: point t is row i = t / 16, column j = t % 16.
  At point t the body is handed block i of the first operand (`ablk`) and block j of the second (`bblk`), each
  512 rows of 256, whether or not the pipeline fetched them there (an unfetched block's index has not moved).
  The accumulator cell after point t holds `acc t`: the tile's sum added to zero in column 0, to `acc (t − 1)`
  elsewhere — so at the end of a row it is the row's sixteen tile sums added up. The output cell receives it in
  column 15, where the pipeline writes it back to entry i of the result; in the other columns the body does not
  touch the output cell. The invariant between points is the accumulator at `acc (t − 1)` (at anything before
  the first point), the core's other scoped buffers at anything, and the generator register.
-/
import proofs.«105586_j19189913878688_1_alg».proof.Proof.Kernel.Point2

set_option maxRecDepth 16384

noncomputable section

namespace Cert.Kernel.Tile

open Cert.Kernel Cert.Kernel.Gen Cert.WholeRect
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The columns, decided over the grid -/

/-- The first column is the points ≡ 0 (mod 16). -/
theorem first2_iff : ∀ t : Fin cfg2.N, first2 (grid2.coords t) ↔ t.val % 16 = 0 :=
  (by decide +kernel : ∀ t : Fin grid2.N, first2 (grid2.coords t) ↔ t.val % 16 = 0)
/-- The last column is the points ≡ 15 (mod 16). -/
theorem last2_iff : ∀ t : Fin cfg2.N, last2 (grid2.coords t) ↔ t.val % 16 = 15 :=
  (by decide +kernel : ∀ t : Fin grid2.N, last2 (grid2.coords t) ↔ t.val % 16 = 15)
/-- Off the last column the output window is idle and its block is not written back. -/
theorem out2_idle : ∀ t : Fin cfg2.N, ¬last2 (grid2.coords t) → cfg2.idle 2 (grid2.coords t) = true := by decide +kernel
theorem out2_noFlush : ∀ t : Fin cfg2.N, ¬last2 (grid2.coords t) → (cfg2.win 2).flush t = false := by decide +kernel
/-- In the last column it is live. -/
theorem out2_live : ∀ t : Fin cfg2.N, last2 (grid2.coords t) → cfg2.idle 2 (grid2.coords t) = false := by decide +kernel

/-! ## The input blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first operand's block at point `t` (rows 512·(t / 16) …), at its literal type. -/
abbrev ablk2 (c : Dev nD) (t : Fin cfg2.N) : Vec F S512x256 .f32 := iblk2 V c 0 t
/-- The second operand's block at point `t` (rows 512·(t % 16) …), at its literal type. -/
abbrev bblk2 (c : Dev nD) (t : Fin cfg2.N) : Vec F S512x256 .f32 := iblk2 V c 1 t

/-! ## The accumulator, point by point -/

/-- What the accumulator cell holds after point `n`: the tile's sum added to zero in column 0 and to what the
    point before left elsewhere. -/
def acc2 (c : Dev nD) : (n : ℕ) → n < cfg2.N → Vec F S1x1x1 .f32
  | 0, h => k2_pay1 (k2_pay3 (ablk2 V c ⟨0, h⟩) (bblk2 V c ⟨0, h⟩)) k2_pay2
  | n + 1, h => k2_pay1 (k2_pay3 (ablk2 V c ⟨n + 1, h⟩) (bblk2 V c ⟨n + 1, h⟩))
      (if (n + 1) % 16 = 0 then k2_pay2 else acc2 c n (Nat.lt_of_succ_lt h))

/-- In column 0 the sum restarts from zero. -/
theorem acc2_first (c : Dev nD) (t : Fin cfg2.N) (h0 : t.val % 16 = 0) :
    acc2 V c t.val t.isLt = k2_pay1 (k2_pay3 (ablk2 V c t) (bblk2 V c t)) k2_pay2 := by
  obtain ⟨n, hn⟩ := t
  cases n with
  | zero => rfl
  | succ n => show k2_pay1 _ (if (n + 1) % 16 = 0 then _ else _) = _; rw [if_pos h0]

/-- Elsewhere it continues from the point before. -/
theorem acc2_next (c : Dev nD) (t : Fin cfg2.N) (h0 : t.val % 16 ≠ 0) (k : ℕ) (hk : k < cfg2.N) (e : t.val = k + 1) :
    acc2 V c t.val t.isLt = k2_pay1 (k2_pay3 (ablk2 V c t) (bblk2 V c t)) (acc2 V c k hk) := by
  obtain ⟨n, hn⟩ := t
  subst e
  show k2_pay1 _ (if (k + 1) % 16 = 0 then _ else _) = _; rw [if_neg h0]

/-! ## The invariant -/

/-- The core's scoped buffers other than this call's staging buffers and its accumulator cell. -/
abbrev others2 : Finset (Ref sig .tc) :=
  (((Finset.univ.filter fun b : Ref sig .tc => b.isScoped) \ Finset.univ.image (Pipeline.stageRef spec2)).erase cc2_scratch0)

/-- Between points: the accumulator at what the point before left (at anything before the first point), the other
    scoped buffers at anything, the generator register at some state. -/
def Phi2 (c : Dev nD) (n : ℕ) : sProp 𝕄 :=
  iprop((∃ f, ⌜∀ (k : ℕ) (hk : k < cfg2.N), n = k + 1 → f = acc2 V c k hk⌝ ∗ owns (c : Thread nD τ) (Memref.whole cc2_scratch0 : Memref sig .tc .vmem S1x1x1 .f32) fullShare f)
    ∗ (bigSep others2 fun b => iprop(∃ f : Buf (Elt F) ((c : Thread nD τ).loc b), ((c : Thread nD τ).loc b) ↦{fullShare} f))
    ∗ ∃ r, prngReg c r)

/-- The scoped buffers no window stages are the accumulator cell at something and the others. -/
theorem scopedRest2_split (c : Dev nD) :
    (Pipeline.scopedRest (Ix := Unit) (Name := ℕ) (U := UR sig nD τ) (Lvl := ℕ) (Val := Elt F) spec2 c : sProp 𝕄)
      = iprop((∃ f, owns (c : Thread nD τ) (Memref.whole cc2_scratch0 : Memref sig .tc .vmem S1x1x1 .f32) fullShare f)
        ∗ bigSep others2 fun b => iprop(∃ f : Buf (Elt F) ((c : Thread nD τ).loc b), ((c : Thread nD τ).loc b) ↦{fullShare} f)) := by
  unfold Pipeline.scopedRest
  rw [bigSep_erase (i := cc2_scratch0) (by decide)]
  simp only [owns_whole]
  rfl

/-! ## The proof data -/

/-- Pallas_call 2's proof data on core `c`: the arrays as the region finds them; after the body each input's
    buffer at its block and the output cell at the accumulator's value; the invariant above; nothing owed. An
    input array two windows read is held half and half. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val
  q w := match w with
    | ⟨0, _⟩ => fullShare
    | ⟨1, _⟩ => fullShare
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-- Each input's current staging buffer holds its block at every point, fetched there or not: an unfetched
    window's block index has not moved since the point before, and the body leaves the block in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## The body obligation -/

/-- The body at any point, by the column: the inputs' buffers hold their blocks, the accumulator what the point
    before left; the case's run applies, and what it leaves is the next point's invariant. -/
theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d)))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ (dat2 V c).leavesExact 2 t)) := by
  unfold bodyAt2
  simp only [before2_0, before2_1]
  rw [show (dat2 V c).Φ t.succ = Phi2 V c (t.val + 1) from rfl,
    show (dat2 V c).Φ t.castSucc = Phi2 V c t.val from rfl,
    show (dat2 V c).owesAt () t.succ = (dat2 V c).owesAt () t.castSucc from rfl,
    after2_0, after2_1]
  unfold Phi2
  iintro ⟨⟨⟨%f, %hf, HS⟩, HR, HP⟩, Ho, ⟨%d0, H0⟩, ⟨%d1, H1⟩, ⟨%d2, H2⟩⟩
  by_cases hl : last2 (grid2.coords t)
  · -- the last column: the output cell receives the row's sum
    have h15 := (last2_iff t).mp hl
    have hnf : ¬first2 (grid2.coords t) := fun h => by have := (first2_iff t).mp h; omega
    have h0 : t.val % 16 ≠ 0 := by omega
    obtain ⟨k, hk⟩ : ∃ k, t.val = k + 1 := ⟨t.val - 1, by omega⟩
    have hkN : k < cfg2.N := by have := t.isLt; omega
    obtain rfl := hf k hkN hk
    rw [show (dat2 V c).leavesExact 2 t = owns (c : Thread nD τ) (st2_2 t) fullShare ((dat2 V c).after 2 t) from by
      unfold Dat.leavesExact; rw [out2_live t hl], after2_2, acc2_next V c t h0 k hkN hk]
    iapply (run2_last c (grid2.coords t) _ _ _ _ _ _ _ _ hnf hl (ablk2 V c t) (bblk2 V c t) _ (acc2 V c k hkN) Set.univ _)
    isplitl [H0]; · iexact H0
    isplitl [H1]; · iexact H1
    isplitl [H2]; · iexact H2
    isplitl [HS]; · iexact HS
    iintro ⟨H0, H1, H2, HS⟩
    isplitl [HS HR HP]
    · isplitl [HS]
      · iexists _; isplitr; swap; (· iexact HS)
        ipureintro; intro k' hk' e'
        obtain rfl : k' = t.val := (Nat.succ.inj e').symm
        exact (acc2_next V c t h0 k hkN hk).symm
      isplitl [HR]; · iexact HR
      iexact HP
    isplitl [Ho]; · iexact Ho
    isplitl [H0]; · iexact H0
    isplitl [H1]; · iexact H1
    iexact H2
  · -- an earlier column: the output cell is handed back as found
    rw [(dat2 V c).leavesExact_idle 2 t (out2_idle t hl) (out2_noFlush t hl)]
    by_cases hfst : first2 (grid2.coords t)
    · have h0 := (first2_iff t).mp hfst
      iapply (run2_first c (grid2.coords t) _ _ _ _ _ _ _ _ hfst hl (ablk2 V c t) (bblk2 V c t) _ f Set.univ _)
      isplitl [H0]; · iexact H0
      isplitl [H1]; · iexact H1
      isplitl [H2]; · iexact H2
      isplitl [HS]; · iexact HS
      iintro ⟨H0, H1, H2, HS⟩
      isplitl [HS HR HP]
      · isplitl [HS]
        · iexists _; isplitr; swap; (· iexact HS)
          ipureintro; intro k' hk' e'
          obtain rfl : k' = t.val := (Nat.succ.inj e').symm
          exact (acc2_first V c t h0).symm
        isplitl [HR]; · iexact HR
        iexact HP
      isplitl [Ho]; · iexact Ho
      isplitl [H0]; · iexact H0
      isplitl [H1]; · iexact H1
      iexists d2; iexact H2
    · have h0 : t.val % 16 ≠ 0 := fun h => hfst ((first2_iff t).mpr h)
      obtain ⟨k, hk⟩ : ∃ k, t.val = k + 1 := ⟨t.val - 1, by have := t.isLt; omega⟩
      have hkN : k < cfg2.N := by have := t.isLt; omega
      obtain rfl := hf k hkN hk
      iapply (run2_mid c (grid2.coords t) _ _ _ _ _ _ _ _ hfst hl (ablk2 V c t) (bblk2 V c t) _ (acc2 V c k hkN) Set.univ _)
      isplitl [H0]; · iexact H0
      isplitl [H1]; · iexact H1
      isplitl [H2]; · iexact H2
      isplitl [HS]; · iexact HS
      iintro ⟨H0, H1, H2, HS⟩
      isplitl [HS HR HP]
      · isplitl [HS]
        · iexists _; isplitr; swap; (· iexact HS)
          ipureintro; intro k' hk' e'
          obtain rfl : k' = t.val := (Nat.succ.inj e').symm
          exact (acc2_next V c t h0 k hkN hk).symm
        isplitl [HR]; · iexact HR
        iexact HP
      isplitl [Ho]; · iexact Ho
      isplitl [H0]; · iexact H0
      isplitl [H1]; · iexact H1
      iexists d2; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Tile

end
-- ==== Proof.Kernel.Fold.lean ====
/-
  The contents of the core's unscoped buffers at every boundary between two items of the program, from the
  launch memory to the return: each pairwise-sum call replaces its result array (sixteen partial sums, one per
  block of 512 rows of the first operand) by what its write-backs leave and changes nothing else; each stretch of
  host operations applies its operations. Every call's proof data is taken at the contents its region is entered
  from. No item writes an argument array, so both arguments end as launched.
-/
import proofs.«105586_j19189913878688_1_alg».proof.Proof.Kernel.Data0
import proofs.«105586_j19189913878688_1_alg».proof.Proof.Kernel.Data1
import proofs.«105586_j19189913878688_1_alg».proof.Proof.Kernel.Data2
import proofs.«105586_j19189913878688_1_alg».proof.Proof.Gen.Kernel.Regions

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atRef (W : Dev nD → Valuation τ sig (Elt F)) : (c : Dev nD) → (b : Ref sig .tc) → Buf (Elt F) ((c : Thread nD τ).loc b) :=
  fun c b => W c b

/-- At launch. -/
abbrev W0 (c : Dev nD) : Valuation τ sig (Elt F) := fun b => m (c, b)
/-- The first call's result: the sums of the first argument against itself. -/
def sums0 (c : Dev nD) : Buf (Elt F) ((c : Thread nD τ).loc main_v0) := (dat0 (atRef (W0 m)) c).arrAt 2 cfg0.N
/-- After the first call. -/
abbrev W1 (c : Dev nD) : Valuation τ sig (Elt F) := Function.update (W0 m c) main_v0 (sums0 m c)
/-- After the first host stretch (the first result summed). -/
abbrev W2 (c : Dev nD) : Valuation τ sig (Elt F) := StableHlo.after hostOps1 (W1 m c)
/-- The second call's result: the second argument against itself. -/
def sums1 (c : Dev nD) : Buf (Elt F) ((c : Thread nD τ).loc main_v2) := (dat1 (atRef (W2 m)) c).arrAt 2 cfg1.N
/-- After the second call. -/
abbrev W3 (c : Dev nD) : Valuation τ sig (Elt F) := Function.update (W2 m c) main_v2 (sums1 m c)
/-- After the second host stretch. -/
abbrev W4 (c : Dev nD) : Valuation τ sig (Elt F) := StableHlo.after hostOps2 (W3 m c)
/-- The third call's result: the first argument against the second. -/
def sums2 (c : Dev nD) : Buf (Elt F) ((c : Thread nD τ).loc main_v4) := (dat2 (atRef (W4 m)) c).arrAt 2 cfg2.N
/-- After the third call. -/
abbrev W5 (c : Dev nD) : Valuation τ sig (Elt F) := Function.update (W4 m c) main_v4 (sums2 m c)
/-- At the return: after the last host stretch (the third sum, the three means, their combination). -/
abbrev W6 (c : Dev nD) : Valuation τ sig (Elt F) := StableHlo.after hostOps3 (W5 m c)

/-- A call changes its result array only. -/
theorem W1_of (c : Dev nD) (r : Ref sig .tc) (h : r ≠ main_v0) : W1 m c r = W0 m c r :=
  Function.update_of_ne (StableHlo.devRef_ne_of_ne h) _ _
theorem W3_of (c : Dev nD) (r : Ref sig .tc) (h : r ≠ main_v2) : W3 m c r = W2 m c r :=
  Function.update_of_ne (StableHlo.devRef_ne_of_ne h) _ _
theorem W5_of (c : Dev nD) (r : Ref sig .tc) (h : r ≠ main_v4) : W5 m c r = W4 m c r :=
  Function.update_of_ne (StableHlo.devRef_ne_of_ne h) _ _
theorem W1_res (c : Dev nD) : W1 m c main_v0 = sums0 m c := Function.update_self ..
theorem W3_res (c : Dev nD) : W3 m c main_v2 = sums1 m c := Function.update_self ..
theorem W5_res (c : Dev nD) : W5 m c main_v4 = sums2 m c := Function.update_self ..
/-- A host stretch changes the buffers it writes only. -/
theorem W2_of (c : Dev nD) (r : Ref sig .tc) (h : r ∉ hostOps1_W) : W2 m c r = W1 m c r :=
  StableHlo.after_of_writes_sub hostOps1 _ hostOps1_writes h
theorem W4_of (c : Dev nD) (r : Ref sig .tc) (h : r ∉ hostOps2_W) : W4 m c r = W3 m c r :=
  StableHlo.after_of_writes_sub hostOps2 _ hostOps2_writes h
theorem W6_of (c : Dev nD) (r : Ref sig .tc) (h : r ∉ hostOps3_W) : W6 m c r = W5 m c r :=
  StableHlo.after_of_writes_sub hostOps3 _ hostOps3_writes h

/-- The first argument is never written: at every boundary it holds its launch contents. -/
theorem W2_arg0 (c : Dev nD) : W2 m c main_arg0 = m ((c : Thread nD τ).loc main_arg0) :=
  (W2_of m c main_arg0 (by decide)).trans (W1_of m c main_arg0 (by decide))
theorem W4_arg0 (c : Dev nD) : W4 m c main_arg0 = m ((c : Thread nD τ).loc main_arg0) :=
  (W4_of m c main_arg0 (by decide)).trans ((W3_of m c main_arg0 (by decide)).trans (W2_arg0 m c))
theorem W6_arg0 (c : Dev nD) : W6 m c main_arg0 = m ((c : Thread nD τ).loc main_arg0) :=
  (W6_of m c main_arg0 (by decide)).trans ((W5_of m c main_arg0 (by decide)).trans (W4_arg0 m c))
/-- Nor is the second. -/
theorem W2_arg1 (c : Dev nD) : W2 m c main_arg1 = m ((c : Thread nD τ).loc main_arg1) :=
  (W2_of m c main_arg1 (by decide)).trans (W1_of m c main_arg1 (by decide))
theorem W4_arg1 (c : Dev nD) : W4 m c main_arg1 = m ((c : Thread nD τ).loc main_arg1) :=
  (W4_of m c main_arg1 (by decide)).trans ((W3_of m c main_arg1 (by decide)).trans (W2_arg1 m c))
theorem W6_arg1 (c : Dev nD) : W6 m c main_arg1 = m ((c : Thread nD τ).loc main_arg1) :=
  (W6_of m c main_arg1 (by decide)).trans ((W5_of m c main_arg1 (by decide)).trans (W4_arg1 m c))

/-! ## The proof data of the three calls, each at its region's entry contents -/

/-- No call has a prefetched table. -/
abbrev adm' : (p : Fin 3) → (pcfgs (F := F) p).Adm := fun p => (cfgs p).toPCfg_adm

/-- A literal match on the call, so that the launch theorem's configuration at a numeral reduces to the printed one. -/
def pdats : (p : Fin 3) → (c : Dev nD) → Dat τ (Elt F) Unit ℕ (UR sig nD τ) ℕ (Pipeline.pin (pcfgs (F := F)) adm' p) c
  | ⟨0, _⟩ => fun c => dat0 (atRef (W0 m)) c
  | ⟨1, _⟩ => fun c => dat1 (atRef (W2 m)) c
  | ⟨2, _⟩ => fun c => dat2 (atRef (W4 m)) c

/-! ## What every segment shares -/

/-- No core owes another anything: no level is assigned. -/
abbrev Lz : GSem nD τ sig → Finset Unit := fun _ => ∅
abbrev lvz : GSem nD τ sig → Unit → ℕ := fun _ _ => 0
/-- What rides beside the buffers through every item: the generator register at some state, and nothing owed. -/
abbrev Ride (c : Dev nD) : sProp 𝕄 := iprop((∃ r, prngReg c r) ∗ ∃ W, owes (c : Thread nD τ) (0 : CellTallies nD τ sig Unit) W)

end Cert.Kernel.Tile

end
-- ==== Proof.Kernel.Seg0.lean ====
/-
  Pallas_call 0 as a segment of the program over the thread state "every unscoped buffer at the boundary's contents,
  the generator register at some state, nothing owed". At entry the call's arrays are taken out of the unscoped
  buffers — one array read by both input windows, its full share dealt to them half and half, and the result array whole —, the rest bypasses the region; the accumulator cell and the other scoped buffers enter the
  invariant at whatever they hold (the first grid point zeroes the accumulator). At exit the arrays come back, the
  result array at what the write-backs left, every other buffer as it was.
-/
import proofs.«105586_j19189913878688_1_alg».proof.Proof.Kernel.Fold
import Idealize.ShloMosaic.Lib.Pipeline.RegionsLoop

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-! ## The shares the arrays are held at -/

theorem share0_0 (c : Dev nD) : (dat0 V c).share 0 = fullShare.left := by
  unfold Dat.share; rw [if_neg (by decide)]; dsimp only [dat0]
theorem share0_1 (c : Dev nD) : (dat0 V c).share 1 = fullShare.right := by
  unfold Dat.share; rw [if_neg (by decide)]; dsimp only [dat0]
theorem share0_2 (c : Dev nD) : (dat0 V c).share 2 = fullShare := by
  unfold Dat.share; rw [if_pos (by decide)]
/-- Every window's array is a whole buffer. -/
theorem set0 (w : Fin cfg0.W) : (cfg0.win w).arr.view.set = Finset.univ := (arr_whole0 w).set_eq_univ
/-- The inputs' arrays are never written back. -/
theorem arrN0_0 (c : Dev nD) : (dat0 V c).arrAt 0 cfg0.N = V c (Pipeline.arrRef spec0 0) :=
  ((dat0 V c).arrAt_in 0 rfl _).trans (A_eq0 V c 0)
theorem arrN0_1 (c : Dev nD) : (dat0 V c).arrAt 1 cfg0.N = V c (Pipeline.arrRef spec0 1) :=
  ((dat0 V c).arrAt_in 1 rfl _).trans (A_eq0 V c 1)

/-! ## In and out of the unscoped buffers -/

/-- One array, read by both input windows: its full share is dealt to them half and half; the result array whole. -/
theorem arrs_in0 (c : Dev nD) :
    (Pipeline.arrBufs (Ix := Unit) (Name := ℕ) (U := UR sig nD τ) (Lvl := ℕ) spec0 c (V c) : sProp 𝕄) ⊢ (dat0 V c).arrays ((dat0 V c).arrAt · 0) := by
  unfold Pipeline.arrBufs Dat.arrays
  rw [show Finset.univ.image (Pipeline.arrRef spec0) = {main_arg0, main_v0} from by decide, bigSep_W0,
    bigSep_insert (by decide), bigSep_singleton]
  rw [share0_0, share0_1, share0_2, set0 0, set0 2]
  have ha : ∀ w, (dat0 V c).arrAt w 0 = V c (Pipeline.arrRef spec0 w) := fun w => A_eq0 V c w
  simp only [ha]
  show iprop((((c : Thread nD τ).loc main_arg0) ↦{fullShare} V c main_arg0) ∗ (((c : Thread nD τ).loc main_v0) ↦{fullShare} V c main_v0)) ⊢ _
  iintro ⟨Ha, Ho⟩
  ihave Hs := (pointsTo_share (PosShare.mem_left_op_right fullShare)).1 $$ Ha
  icases Hs with ⟨Hl, Hr⟩
  isplitl [Hl]; · iexact Hl
  isplitl [Hr]; · iexact Hr
  iexact Ho

/-- The halves joined again at exit, the result array at what the write-backs left. -/
theorem arrs_out0 (c : Dev nD) (U' : (b : Ref sig .tc) → Buf (Elt F) ((c : Thread nD τ).loc b))
    (hres : U' main_v0 = (dat0 V c).arrAt 2 cfg0.N) (hkeep : U' main_arg0 = V c main_arg0) :
    (dat0 V c).arrays ((dat0 V c).arrAt · cfg0.N) ⊢ (Pipeline.arrBufs (Ix := Unit) (Name := ℕ) (U := UR sig nD τ) (Lvl := ℕ) spec0 c U' : sProp 𝕄) := by
  unfold Pipeline.arrBufs Dat.arrays
  rw [show Finset.univ.image (Pipeline.arrRef spec0) = {main_arg0, main_v0} from by decide, bigSep_W0,
    bigSep_insert (by decide), bigSep_singleton]
  rw [share0_0, share0_1, share0_2, set0 0, set0 2]
  simp only [arrN0_0, arrN0_1]
  rw [hres, hkeep]
  show _ ⊢ iprop((((c : Thread nD τ).loc main_arg0) ↦{fullShare} V c main_arg0) ∗ (((c : Thread nD τ).loc main_v0) ↦{fullShare} (dat0 V c).arrAt 2 cfg0.N))
  iintro ⟨Hl, Hr, Ho⟩
  isplitl [Hl Hr]
  · iapply (pointsTo_share (PosShare.mem_left_op_right fullShare)).2
    isplitl [Hl]; · iexact Hl
    iexact Hr
  iexact Ho

/-- Off the call's arrays two valuations that agree there hold the same rest. -/
theorem rest0_congr (c : Dev nD) (U U' : (b : Ref sig .tc) → Buf (Elt F) ((c : Thread nD τ).loc b))
    (h : ∀ b, b ∉ Finset.univ.image (Pipeline.arrRef spec0) → U' b = U b) :
    (Pipeline.unscopedRest (Ix := Unit) (Name := ℕ) (U := UR sig nD τ) (Lvl := ℕ) spec0 c U' : sProp 𝕄)
      = Pipeline.unscopedRest spec0 c U := by
  unfold Pipeline.unscopedRest
  exact bigSep_congr fun b hb => by rw [h b (Finset.mem_sdiff.mp hb).2]

end Arrays

/-! ## The segment -/

variable (m : (ℓ : Loc nD τ sig) → Buf (Elt F) ℓ)

-- a library lemma stated over the pinned configuration unifies with the printed one only when unification may
-- unfold plain definitions in a metavariable's type
set_option backward.isDefEq.respectTransparency.types false in
/-- The call's segment: entered from the unscoped buffers at W0, left at W1. -/
def reg0 : Pipeline.RegionSeg (pcfgs (F := F)) adm' (pdats m) () defs₀ Variants.none Lz lvz 0 where
  win := winFacts₀0
  block_pos := block_pos0
  stage_whole := stage_whole0
  K := PEmpty
  osem k := k.elim
  ho := Pipeline.OwnSemFacts.none _
  hbody c := (body_obligation0 (atRef (W0 m)) c).loose
  hwaits := Pipeline.hwaits_of_owed_zero _ _ _ _ Lz lvz 0 fun _ _ => rfl
  pre c := iprop(StableHlo.held (c : Thread nD τ) (Pipeline.ucRefs τ sig) (W0 m c) ∗ Ride c)
  post c := iprop(StableHlo.held (c : Thread nD τ) (Pipeline.ucRefs τ sig) (W1 m c) ∗ Ride c)
  X c := iprop(∃ r, prngReg c r)
  Y c := iprop(∃ r, prngReg c r)
  Z c := Pipeline.unscopedRest (Ix := Unit) (Name := ℕ) (U := UR sig nD τ) (Lvl := ℕ) spec0 c (atRef (W0 m) c)
  hentry c := by
    rw [Pipeline.ownSems0_none]
    have hsplit : (StableHlo.held (c : Thread nD τ) (Pipeline.ucRefs τ sig) (W0 m c) : sProp 𝕄)
        ⊢ iprop((pdats m 0 c).arrays ((pdats m 0 c).arrAt · 0) ∗ Pipeline.unscopedRest spec0 c (atRef (W0 m) c)) := by
      rw [← Pipeline.unscopedBufs_held (Ix := Unit) (Name := ℕ) (U := UR sig nD τ) (Lvl := ℕ) c (W0 m c),
        Pipeline.unscopedBufs_split₀ cfgs 0 winFacts₀0.arr_unscoped c (atRef (W0 m) c)]
      exact BI.sep_mono (arrs_in0 (atRef (W0 m)) c) (BI.Entails.refl _)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Phi0 (atRef (W0 m)) c 0 from rfl,
      show (Pipeline.scopedRest (Ix := Unit) (Name := ℕ) (U := UR sig nD τ) (Lvl := ℕ) (Val := Elt F) (Pipeline.pin (pcfgs (F := F)) adm' 0).spec c : sProp 𝕄) = Pipeline.scopedRest spec0 c from rfl,
      scopedRest0_split]; unfold Phi0
    iintro ⟨Hp, -, ⟨%f, HS⟩, Hr⟩
    isplitl [HS]
    · iexists f; isplitr; · ipureintro; exact fun k _ e => absurd e (Nat.succ_ne_zero k).symm
      iexact HS
    isplitl [Hr]; · iexact Hr
    iexact Hp
  hout c := by
    rw [Pipeline.ownSems0_none, show (pdats m 0 c).Φ (Fin.last _) = Phi0 (atRef (W0 m)) c cfg0.N from rfl,
      show (Pipeline.scopedRest (Ix := Unit) (Name := ℕ) (U := UR sig nD τ) (Lvl := ℕ) (Val := Elt F) (Pipeline.pin (pcfgs (F := F)) adm' 0).spec c : sProp 𝕄) = Pipeline.scopedRest spec0 c from rfl,
      scopedRest0_split]; unfold Phi0
    iintro ⟨⟨%f, -, HS⟩, Hr, Hp⟩
    isplitl [Hp]; · iexact Hp
    isplitr; · iempintro
    isplitl [HS]; · iexists f; iexact HS
    iexact Hr
  hexit c := by
    have hjoin : iprop((pdats m 0 c).arrays ((pdats m 0 c).arrAt · cfg0.N) ∗ Pipeline.unscopedRest spec0 c (atRef (W0 m) c))
        ⊢ (StableHlo.held (c : Thread nD τ) (Pipeline.ucRefs τ sig) (W1 m c) : sProp 𝕄) := by
      rw [← Pipeline.unscopedBufs_held (Ix := Unit) (Name := ℕ) (U := UR sig nD τ) (Lvl := ℕ) c (W1 m c),
        Pipeline.unscopedBufs_split₀ cfgs 0 winFacts₀0.arr_unscoped c (atRef (W1 m) c)]
      exact BI.sep_mono (arrs_out0 (atRef (W0 m)) c (atRef (W1 m) c) (W1_res m c)
        (W1_of m c main_arg0 (by decide)))
        (Entails.of_eq (rest0_congr c (atRef (W0 m) c) (atRef (W1 m) c) (fun b hb => W1_of m c b (fun e => hb (e ▸ by decide)))).symm)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Tile

end
-- ==== Proof.Kernel.Seg1.lean ====
/-
  Pallas_call 1 as a segment of the program over the thread state "every unscoped buffer at the boundary's contents,
  the generator register at some state, nothing owed". At entry the call's arrays are taken out of the unscoped
  buffers — one array read by both input windows, its full share dealt to them half and half, and the result array whole —, the rest bypasses the region; the accumulator cell and the other scoped buffers enter the
  invariant at whatever they hold (the first grid point zeroes the accumulator). At exit the arrays come back, the
  result array at what the write-backs left, every other buffer as it was.
-/
import proofs.«105586_j19189913878688_1_alg».proof.Proof.Kernel.Fold
import Idealize.ShloMosaic.Lib.Pipeline.RegionsLoop

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-! ## The shares the arrays are held at -/

theorem share1_0 (c : Dev nD) : (dat1 V c).share 0 = fullShare.left := by
  unfold Dat.share; rw [if_neg (by decide)]; dsimp only [dat1]
theorem share1_1 (c : Dev nD) : (dat1 V c).share 1 = fullShare.right := by
  unfold Dat.share; rw [if_neg (by decide)]; dsimp only [dat1]
theorem share1_2 (c : Dev nD) : (dat1 V c).share 2 = fullShare := by
  unfold Dat.share; rw [if_pos (by decide)]
/-- Every window's array is a whole buffer. -/
theorem set1 (w : Fin cfg1.W) : (cfg1.win w).arr.view.set = Finset.univ := (arr_whole1 w).set_eq_univ
/-- The inputs' arrays are never written back. -/
theorem arrN1_0 (c : Dev nD) : (dat1 V c).arrAt 0 cfg1.N = V c (Pipeline.arrRef spec1 0) :=
  ((dat1 V c).arrAt_in 0 rfl _).trans (A_eq1 V c 0)
theorem arrN1_1 (c : Dev nD) : (dat1 V c).arrAt 1 cfg1.N = V c (Pipeline.arrRef spec1 1) :=
  ((dat1 V c).arrAt_in 1 rfl _).trans (A_eq1 V c 1)

/-! ## In and out of the unscoped buffers -/

/-- One array, read by both input windows: its full share is dealt to them half and half; the result array whole. -/
theorem arrs_in1 (c : Dev nD) :
    (Pipeline.arrBufs (Ix := Unit) (Name := ℕ) (U := UR sig nD τ) (Lvl := ℕ) spec1 c (V c) : sProp 𝕄) ⊢ (dat1 V c).arrays ((dat1 V c).arrAt · 0) := by
  unfold Pipeline.arrBufs Dat.arrays
  rw [show Finset.univ.image (Pipeline.arrRef spec1) = {main_arg1, main_v2} from by decide, bigSep_W1,
    bigSep_insert (by decide), bigSep_singleton]
  rw [share1_0, share1_1, share1_2, set1 0, set1 2]
  have ha : ∀ w, (dat1 V c).arrAt w 0 = V c (Pipeline.arrRef spec1 w) := fun w => A_eq1 V c w
  simp only [ha]
  show iprop((((c : Thread nD τ).loc main_arg1) ↦{fullShare} V c main_arg1) ∗ (((c : Thread nD τ).loc main_v2) ↦{fullShare} V c main_v2)) ⊢ _
  iintro ⟨Ha, Ho⟩
  ihave Hs := (pointsTo_share (PosShare.mem_left_op_right fullShare)).1 $$ Ha
  icases Hs with ⟨Hl, Hr⟩
  isplitl [Hl]; · iexact Hl
  isplitl [Hr]; · iexact Hr
  iexact Ho

/-- The halves joined again at exit, the result array at what the write-backs left. -/
theorem arrs_out1 (c : Dev nD) (U' : (b : Ref sig .tc) → Buf (Elt F) ((c : Thread nD τ).loc b))
    (hres : U' main_v2 = (dat1 V c).arrAt 2 cfg1.N) (hkeep : U' main_arg1 = V c main_arg1) :
    (dat1 V c).arrays ((dat1 V c).arrAt · cfg1.N) ⊢ (Pipeline.arrBufs (Ix := Unit) (Name := ℕ) (U := UR sig nD τ) (Lvl := ℕ) spec1 c U' : sProp 𝕄) := by
  unfold Pipeline.arrBufs Dat.arrays
  rw [show Finset.univ.image (Pipeline.arrRef spec1) = {main_arg1, main_v2} from by decide, bigSep_W1,
    bigSep_insert (by decide), bigSep_singleton]
  rw [share1_0, share1_1, share1_2, set1 0, set1 2]
  simp only [arrN1_0, arrN1_1]
  rw [hres, hkeep]
  show _ ⊢ iprop((((c : Thread nD τ).loc main_arg1) ↦{fullShare} V c main_arg1) ∗ (((c : Thread nD τ).loc main_v2) ↦{fullShare} (dat1 V c).arrAt 2 cfg1.N))
  iintro ⟨Hl, Hr, Ho⟩
  isplitl [Hl Hr]
  · iapply (pointsTo_share (PosShare.mem_left_op_right fullShare)).2
    isplitl [Hl]; · iexact Hl
    iexact Hr
  iexact Ho

/-- Off the call's arrays two valuations that agree there hold the same rest. -/
theorem rest1_congr (c : Dev nD) (U U' : (b : Ref sig .tc) → Buf (Elt F) ((c : Thread nD τ).loc b))
    (h : ∀ b, b ∉ Finset.univ.image (Pipeline.arrRef spec1) → U' b = U b) :
    (Pipeline.unscopedRest (Ix := Unit) (Name := ℕ) (U := UR sig nD τ) (Lvl := ℕ) spec1 c U' : sProp 𝕄)
      = Pipeline.unscopedRest spec1 c U := by
  unfold Pipeline.unscopedRest
  exact bigSep_congr fun b hb => by rw [h b (Finset.mem_sdiff.mp hb).2]

end Arrays

/-! ## The segment -/

variable (m : (ℓ : Loc nD τ sig) → Buf (Elt F) ℓ)

-- a library lemma stated over the pinned configuration unifies with the printed one only when unification may
-- unfold plain definitions in a metavariable's type
set_option backward.isDefEq.respectTransparency.types false in
/-- The call's segment: entered from the unscoped buffers at W2, left at W3. -/
def reg1 : Pipeline.RegionSeg (pcfgs (F := F)) adm' (pdats m) () defs₀ Variants.none Lz lvz 1 where
  win := winFacts₀1
  block_pos := block_pos1
  stage_whole := stage_whole1
  K := PEmpty
  osem k := k.elim
  ho := Pipeline.OwnSemFacts.none _
  hbody c := (body_obligation1 (atRef (W2 m)) c).loose
  hwaits := Pipeline.hwaits_of_owed_zero _ _ _ _ Lz lvz 1 fun _ _ => rfl
  pre c := iprop(StableHlo.held (c : Thread nD τ) (Pipeline.ucRefs τ sig) (W2 m c) ∗ Ride c)
  post c := iprop(StableHlo.held (c : Thread nD τ) (Pipeline.ucRefs τ sig) (W3 m c) ∗ Ride c)
  X c := iprop(∃ r, prngReg c r)
  Y c := iprop(∃ r, prngReg c r)
  Z c := Pipeline.unscopedRest (Ix := Unit) (Name := ℕ) (U := UR sig nD τ) (Lvl := ℕ) spec1 c (atRef (W2 m) c)
  hentry c := by
    rw [Pipeline.ownSems0_none]
    have hsplit : (StableHlo.held (c : Thread nD τ) (Pipeline.ucRefs τ sig) (W2 m c) : sProp 𝕄)
        ⊢ iprop((pdats m 1 c).arrays ((pdats m 1 c).arrAt · 0) ∗ Pipeline.unscopedRest spec1 c (atRef (W2 m) c)) := by
      rw [← Pipeline.unscopedBufs_held (Ix := Unit) (Name := ℕ) (U := UR sig nD τ) (Lvl := ℕ) c (W2 m c),
        Pipeline.unscopedBufs_split₀ cfgs 1 winFacts₀1.arr_unscoped c (atRef (W2 m) c)]
      exact BI.sep_mono (arrs_in1 (atRef (W2 m)) c) (BI.Entails.refl _)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (atRef (W2 m)) c 0 from rfl,
      show (Pipeline.scopedRest (Ix := Unit) (Name := ℕ) (U := UR sig nD τ) (Lvl := ℕ) (Val := Elt F) (Pipeline.pin (pcfgs (F := F)) adm' 1).spec c : sProp 𝕄) = Pipeline.scopedRest spec1 c from rfl,
      scopedRest1_split]; unfold Phi1
    iintro ⟨Hp, -, ⟨%f, HS⟩, Hr⟩
    isplitl [HS]
    · iexists f; isplitr; · ipureintro; exact fun k _ e => absurd e (Nat.succ_ne_zero k).symm
      iexact HS
    isplitl [Hr]; · iexact Hr
    iexact Hp
  hout c := by
    rw [Pipeline.ownSems0_none, show (pdats m 1 c).Φ (Fin.last _) = Phi1 (atRef (W2 m)) c cfg1.N from rfl,
      show (Pipeline.scopedRest (Ix := Unit) (Name := ℕ) (U := UR sig nD τ) (Lvl := ℕ) (Val := Elt F) (Pipeline.pin (pcfgs (F := F)) adm' 1).spec c : sProp 𝕄) = Pipeline.scopedRest spec1 c from rfl,
      scopedRest1_split]; unfold Phi1
    iintro ⟨⟨%f, -, HS⟩, Hr, Hp⟩
    isplitl [Hp]; · iexact Hp
    isplitr; · iempintro
    isplitl [HS]; · iexists f; iexact HS
    iexact Hr
  hexit c := by
    have hjoin : iprop((pdats m 1 c).arrays ((pdats m 1 c).arrAt · cfg1.N) ∗ Pipeline.unscopedRest spec1 c (atRef (W2 m) c))
        ⊢ (StableHlo.held (c : Thread nD τ) (Pipeline.ucRefs τ sig) (W3 m c) : sProp 𝕄) := by
      rw [← Pipeline.unscopedBufs_held (Ix := Unit) (Name := ℕ) (U := UR sig nD τ) (Lvl := ℕ) c (W3 m c),
        Pipeline.unscopedBufs_split₀ cfgs 1 winFacts₀1.arr_unscoped c (atRef (W3 m) c)]
      exact BI.sep_mono (arrs_out1 (atRef (W2 m)) c (atRef (W3 m) c) (W3_res m c)
        (W3_of m c main_arg1 (by decide)))
        (Entails.of_eq (rest1_congr c (atRef (W2 m) c) (atRef (W3 m) c) (fun b hb => W3_of m c b (fun e => hb (e ▸ by decide)))).symm)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Tile

end
-- ==== Proof.Kernel.Seg2.lean ====
/-
  Pallas_call 2 as a segment of the program over the thread state "every unscoped buffer at the boundary's contents,
  the generator register at some state, nothing owed". At entry the call's arrays are taken out of the unscoped
  buffers — the two argument arrays and the result array, each whole —, the rest bypasses the region; the accumulator cell and the other scoped buffers enter the
  invariant at whatever they hold (the first grid point zeroes the accumulator). At exit the arrays come back, the
  result array at what the write-backs left, every other buffer as it was.
-/
import proofs.«105586_j19189913878688_1_alg».proof.Proof.Kernel.Fold
import Idealize.ShloMosaic.Lib.Pipeline.RegionsLoop

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-! ## The shares the arrays are held at -/

theorem share2_0 (c : Dev nD) : (dat2 V c).share 0 = fullShare := by
  unfold Dat.share; rw [if_neg (by decide)]; dsimp only [dat2]
theorem share2_1 (c : Dev nD) : (dat2 V c).share 1 = fullShare := by
  unfold Dat.share; rw [if_neg (by decide)]; dsimp only [dat2]
theorem share2_2 (c : Dev nD) : (dat2 V c).share 2 = fullShare := by
  unfold Dat.share; rw [if_pos (by decide)]
/-- Every window's array is a whole buffer. -/
theorem set2 (w : Fin cfg2.W) : (cfg2.win w).arr.view.set = Finset.univ := (arr_whole2 w).set_eq_univ
/-- The inputs' arrays are never written back. -/
theorem arrN2_0 (c : Dev nD) : (dat2 V c).arrAt 0 cfg2.N = V c (Pipeline.arrRef spec2 0) :=
  ((dat2 V c).arrAt_in 0 rfl _).trans (A_eq2 V c 0)
theorem arrN2_1 (c : Dev nD) : (dat2 V c).arrAt 1 cfg2.N = V c (Pipeline.arrRef spec2 1) :=
  ((dat2 V c).arrAt_in 1 rfl _).trans (A_eq2 V c 1)

/-! ## In and out of the unscoped buffers -/

/-- Three distinct arrays, each held whole. -/
theorem arrs_in2 (c : Dev nD) :
    (Pipeline.arrBufs (Ix := Unit) (Name := ℕ) (U := UR sig nD τ) (Lvl := ℕ) spec2 c (V c) : sProp 𝕄) ⊢ (dat2 V c).arrays ((dat2 V c).arrAt · 0) := by
  unfold Pipeline.arrBufs Dat.arrays
  rw [show Finset.univ.image (Pipeline.arrRef spec2) = {main_arg0, main_arg1, main_v4} from by decide, bigSep_W2,
    bigSep_insert (by decide), bigSep_insert (by decide), bigSep_singleton]
  rw [share2_0, share2_1, share2_2, set2 0, set2 1, set2 2]
  have ha : ∀ w, (dat2 V c).arrAt w 0 = V c (Pipeline.arrRef spec2 w) := fun w => A_eq2 V c w
  simp only [ha]
  show iprop((((c : Thread nD τ).loc main_arg0) ↦{fullShare} V c main_arg0) ∗ (((c : Thread nD τ).loc main_arg1) ↦{fullShare} V c main_arg1) ∗ (((c : Thread nD τ).loc main_v4) ↦{fullShare} V c main_v4)) ⊢ _
  iintro ⟨Ha, Hb, Ho⟩
  isplitl [Ha]; · iexact Ha
  isplitl [Hb]; · iexact Hb
  iexact Ho

/-- At exit the result array holds what the write-backs left; the inputs are as entered. -/
theorem arrs_out2 (c : Dev nD) (U' : (b : Ref sig .tc) → Buf (Elt F) ((c : Thread nD τ).loc b))
    (hres : U' main_v4 = (dat2 V c).arrAt 2 cfg2.N) (hkeepA : U' main_arg0 = V c main_arg0) (hkeepB : U' main_arg1 = V c main_arg1) :
    (dat2 V c).arrays ((dat2 V c).arrAt · cfg2.N) ⊢ (Pipeline.arrBufs (Ix := Unit) (Name := ℕ) (U := UR sig nD τ) (Lvl := ℕ) spec2 c U' : sProp 𝕄) := by
  unfold Pipeline.arrBufs Dat.arrays
  rw [show Finset.univ.image (Pipeline.arrRef spec2) = {main_arg0, main_arg1, main_v4} from by decide, bigSep_W2,
    bigSep_insert (by decide), bigSep_insert (by decide), bigSep_singleton]
  rw [share2_0, share2_1, share2_2, set2 0, set2 1, set2 2]
  simp only [arrN2_0, arrN2_1]
  rw [hres, hkeepA, hkeepB]
  show _ ⊢ iprop((((c : Thread nD τ).loc main_arg0) ↦{fullShare} V c main_arg0) ∗ (((c : Thread nD τ).loc main_arg1) ↦{fullShare} V c main_arg1) ∗ (((c : Thread nD τ).loc main_v4) ↦{fullShare} (dat2 V c).arrAt 2 cfg2.N))
  iintro ⟨Ha, Hb, Ho⟩
  isplitl [Ha]; · iexact Ha
  isplitl [Hb]; · iexact Hb
  iexact Ho

/-- Off the call's arrays two valuations that agree there hold the same rest. -/
theorem rest2_congr (c : Dev nD) (U U' : (b : Ref sig .tc) → Buf (Elt F) ((c : Thread nD τ).loc b))
    (h : ∀ b, b ∉ Finset.univ.image (Pipeline.arrRef spec2) → U' b = U b) :
    (Pipeline.unscopedRest (Ix := Unit) (Name := ℕ) (U := UR sig nD τ) (Lvl := ℕ) spec2 c U' : sProp 𝕄)
      = Pipeline.unscopedRest spec2 c U := by
  unfold Pipeline.unscopedRest
  exact bigSep_congr fun b hb => by rw [h b (Finset.mem_sdiff.mp hb).2]

end Arrays

/-! ## The segment -/

variable (m : (ℓ : Loc nD τ sig) → Buf (Elt F) ℓ)

-- a library lemma stated over the pinned configuration unifies with the printed one only when unification may
-- unfold plain definitions in a metavariable's type
set_option backward.isDefEq.respectTransparency.types false in
/-- The call's segment: entered from the unscoped buffers at W4, left at W5. -/
def reg2 : Pipeline.RegionSeg (pcfgs (F := F)) adm' (pdats m) () defs₀ Variants.none Lz lvz 2 where
  win := winFacts2.to₀
  block_pos := block_pos2
  stage_whole := stage_whole2
  K := PEmpty
  osem k := k.elim
  ho := Pipeline.OwnSemFacts.none _
  hbody c := (body_obligation2 (atRef (W4 m)) c).loose
  hwaits := Pipeline.hwaits_of_owed_zero _ _ _ _ Lz lvz 2 fun _ _ => rfl
  pre c := iprop(StableHlo.held (c : Thread nD τ) (Pipeline.ucRefs τ sig) (W4 m c) ∗ Ride c)
  post c := iprop(StableHlo.held (c : Thread nD τ) (Pipeline.ucRefs τ sig) (W5 m c) ∗ Ride c)
  X c := iprop(∃ r, prngReg c r)
  Y c := iprop(∃ r, prngReg c r)
  Z c := Pipeline.unscopedRest (Ix := Unit) (Name := ℕ) (U := UR sig nD τ) (Lvl := ℕ) spec2 c (atRef (W4 m) c)
  hentry c := by
    rw [Pipeline.ownSems0_none]
    have hsplit : (StableHlo.held (c : Thread nD τ) (Pipeline.ucRefs τ sig) (W4 m c) : sProp 𝕄)
        ⊢ iprop((pdats m 2 c).arrays ((pdats m 2 c).arrAt · 0) ∗ Pipeline.unscopedRest spec2 c (atRef (W4 m) c)) := by
      rw [← Pipeline.unscopedBufs_held (Ix := Unit) (Name := ℕ) (U := UR sig nD τ) (Lvl := ℕ) c (W4 m c),
        Pipeline.unscopedBufs_split₀ cfgs 2 winFacts2.arr_unscoped c (atRef (W4 m) c)]
      exact BI.sep_mono (arrs_in2 (atRef (W4 m)) c) (BI.Entails.refl _)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Phi2 (atRef (W4 m)) c 0 from rfl,
      show (Pipeline.scopedRest (Ix := Unit) (Name := ℕ) (U := UR sig nD τ) (Lvl := ℕ) (Val := Elt F) (Pipeline.pin (pcfgs (F := F)) adm' 2).spec c : sProp 𝕄) = Pipeline.scopedRest spec2 c from rfl,
      scopedRest2_split]; unfold Phi2
    iintro ⟨Hp, -, ⟨%f, HS⟩, Hr⟩
    isplitl [HS]
    · iexists f; isplitr; · ipureintro; exact fun k _ e => absurd e (Nat.succ_ne_zero k).symm
      iexact HS
    isplitl [Hr]; · iexact Hr
    iexact Hp
  hout c := by
    rw [Pipeline.ownSems0_none, show (pdats m 2 c).Φ (Fin.last _) = Phi2 (atRef (W4 m)) c cfg2.N from rfl,
      show (Pipeline.scopedRest (Ix := Unit) (Name := ℕ) (U := UR sig nD τ) (Lvl := ℕ) (Val := Elt F) (Pipeline.pin (pcfgs (F := F)) adm' 2).spec c : sProp 𝕄) = Pipeline.scopedRest spec2 c from rfl,
      scopedRest2_split]; unfold Phi2
    iintro ⟨⟨%f, -, HS⟩, Hr, Hp⟩
    isplitl [Hp]; · iexact Hp
    isplitr; · iempintro
    isplitl [HS]; · iexists f; iexact HS
    iexact Hr
  hexit c := by
    have hjoin : iprop((pdats m 2 c).arrays ((pdats m 2 c).arrAt · cfg2.N) ∗ Pipeline.unscopedRest spec2 c (atRef (W4 m) c))
        ⊢ (StableHlo.held (c : Thread nD τ) (Pipeline.ucRefs τ sig) (W5 m c) : sProp 𝕄) := by
      rw [← Pipeline.unscopedBufs_held (Ix := Unit) (Name := ℕ) (U := UR sig nD τ) (Lvl := ℕ) c (W5 m c),
        Pipeline.unscopedBufs_split₀ cfgs 2 winFacts2.arr_unscoped c (atRef (W5 m) c)]
      exact BI.sep_mono (arrs_out2 (atRef (W4 m)) c (atRef (W5 m) c) (W5_res m c)
        (W5_of m c main_arg0 (by decide)) (W5_of m c main_arg1 (by decide)))
        (Entails.of_eq (rest2_congr c (atRef (W4 m) c) (atRef (W5 m) c) (fun b hb => W5_of m c b (fun e => hb (e ▸ by decide)))).symm)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Tile

end
-- ==== Proof.Kernel.Run.lean ====
/-
  The whole program run once: its six items in order — the three pairwise-sum calls, each followed by a stretch of
  host operations — composed by the library's launch for a program of several kernel regions. Every weakly fair
  execution from a memory with zero counters terminates, nothing faulting, and the final memory holds every
  unscoped buffer at the last boundary's contents: in particular the result at what the last host stretch
  computes from the three calls' results, and both argument arrays as launched.
-/
import proofs.«105586_j19189913878688_1_alg».proof.Proof.Kernel.Seg0
import proofs.«105586_j19189913878688_1_alg».proof.Proof.Kernel.Seg1
import proofs.«105586_j19189913878688_1_alg».proof.Proof.Kernel.Seg2

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A stretch of host operations as a segment: the unscoped buffers go from `W` to the operations applied to `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

/-- The program's six items. -/
abbrev items : List (Pipeline.Seg (pcfgs (F := F)) adm' (pdats m) () defs₀ Variants.none Lz lvz) :=
  [ .region (reg0 m),
    .host (hostSeg hostOps1 hostOps1_sub hostOps1_fresh (W1 m)),
    .region (reg1 m),
    .host (hostSeg hostOps2 hostOps2_sub hostOps2_fresh (W3 m)),
    .region (reg2 m),
    .host (hostSeg hostOps3 hostOps3_sub hostOps3_fresh (W5 m)) ]

/-- The program is the run of its items. -/
theorem main_items (c : Dev nD) : main (F := F) c = Pipeline.Seg.run (items m) := (main_chain c).trans (by chain_rfl)

/-- An unscoped TensorCore reference is among those the thread state holds. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: termination, no fault, and the final memory at the last boundary's contents — the result, and the two
    arguments unchanged. -/
theorem run_all : θ_run defs (onTc (τ := τ) (main (F := F))) ⟨m, fun _ => 0, ρ⟩ (fun r => ∀ c : Dev nD,
      r.2.mem ((c.tc : Thread nD τ).loc main_v11) = W6 m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm' (pdats m) () cellOf_inj emb₁ defs₀ Variants.none Lz lvz m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ Ride c) ⊢ _
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨h c _ (mem_held main_v11 (by decide)),
       (h c _ (mem_held main_arg0 (by decide))).trans (W6_arg0 m c),
       (h c _ (mem_held main_arg1 (by decide))).trans (W6_arg1 m c)⟩)

end Cert.Kernel.Tile

end
-- ==== Proof.KernelIdeal.Point0.lean ====
/-
  One grid point of the pairwise-sum kernel of pallas_call 0, run on any four whole VMEM buffers: the two
  input tiles `a`, `b` (512×256 each), the output cell and the accumulator cell (1×1×1 each). The body
  computes the tile's sum s(a, b) = Σ_{p,q} exp(−dist(a_p, b_q)) (the payload `k0_pay3`), adds it to the
  accumulator (`k0_pay1`) — after zeroing it (`k0_pay2`) when the column coordinate j is 0 — and copies
  the accumulator to the output cell when j is the last column. Three cases of (j = 0, j = 15) occur on a
  16-column grid; in each the inputs come back unchanged, the accumulator holds the new partial sum, and the
  output cell is either untouched or holds that same sum.
-/
import proofs.«105586_j19189913878688_1_alg».proof.Proof.Gen.KernelIdeal.Launch
import proofs.«105586_j19189913878688_1_alg».proof.Proof.Gen.KernelIdeal.Skeleton
import proofs.«105586_j19189913878688_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«105586_j19189913878688_1_alg».proof.Proof.LibWholeRect

set_option maxRecDepth 16384

noncomputable section

namespace Cert.KernelIdeal.Tile

open Cert.KernelIdeal Cert.KernelIdeal.Gen Cert.WholeRect
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point lies in the first column of the grid (j = 0): the accumulator is zeroed before the tile's sum is added. -/
abbrev first0 (i : grid0.Coords) : Prop := (Scalar.cmpi .ne (Scalar.extui (Scalar.cmpi .eq (BitVec.ofNat 32 (i 1).val) 0#32)) 0#32) = 1#1
/-- The point lies in the last column (j = 15): the accumulator is copied to the output cell. -/
abbrev last0 (i : grid0.Coords) : Prop := k0_cond2 i = 1#1

set_option maxHeartbeats 1000000 in
/-- An inner column (0 < j < 15): the accumulator goes from `xs` to `xs + s(a, b)`; the output cell is untouched. -/
theorem run0_mid (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : ¬first0 i) (hc1 : ¬last0 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k0_pay1 (k0_pay3 x0 x1) xs)) -∗ K ⟨⟩))
      ⊢ wp frame (wpE (defs₀ (F := F)) Variants.none c none) E (cc0__mmd_sum_kernel i arg2 harg2 arg3 harg3 arg4 harg4 arg5 harg5) K := by
  simp only [cc0__mmd_sum_kernel_eq_skeleton]; unfold cc0__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr; · ipureintro; exact hfo
    iexact HO
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

set_option maxHeartbeats 1000000 in
/-- The first column: the accumulator is reset, so it ends at `0 + s(a, b)` whatever it held; the output cell is untouched. -/
theorem run0_first (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : first0 i) (hc1 : ¬last0 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k0_pay1 (k0_pay3 x0 x1) k0_pay2)) -∗ K ⟨⟩))
      ⊢ wp frame (wpE (defs₀ (F := F)) Variants.none c none) E (cc0__mmd_sum_kernel i arg2 harg2 arg3 harg3 arg4 harg4 arg5 harg5) K := by
  simp only [cc0__mmd_sum_kernel_eq_skeleton]; unfold cc0__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    exact hfo
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

set_option maxHeartbeats 1000000 in
/-- The last column: the accumulator goes to `xs + s(a, b)` and the output cell receives the same value. -/
theorem run0_last (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : ¬first0 i) (hc1 : last0 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare (k0_pay1 (k0_pay3 x0 x1) xs) ∗ owns (c : Thread nD τ) arg5 fullShare (k0_pay1 (k0_pay3 x0 x1) xs)) -∗ K ⟨⟩))
      ⊢ wp frame (wpE (defs₀ (F := F)) Variants.none c none) E (cc0__mmd_sum_kernel i arg2 harg2 arg3 harg3 arg4 harg4 arg5 harg5) K := by
  simp only [cc0__mmd_sum_kernel_eq_skeleton]; unfold cc0__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    sl_unfold_words
    rw [View.read_writes_eq_canon _ _ _ (cover_whole hz3 _ _ _), View.canon_cons_unit_zero hz3]
    simp only [View.readAt_eq_ld, View.readCov_unit_zero (S := S1x1x1) _ hz3, harg5.read_unread, harg2.read_unread, harg3.read_unread, View.ld_unit_zero (S := S1x1x1) hz3, View.ld_unit_zero (S := S512x256) hz2]
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

end Cert.KernelIdeal.Tile

end
-- ==== Proof.KernelIdeal.Data0.lean ====
/-
  The proof data of pallas_call 0 and its body obligation, at any contents `V` the unscoped buffers hold when
  the region is entered. The grid is 16 × 16, walked row by row: point t is row i = t / 16, column j = t % 16.
  At point t the body is handed block i of the first operand (`ablk`) and block j of the second (`bblk`), each
  512 rows of 256, whether or not the pipeline fetched them there (an unfetched block's index has not moved).
  The accumulator cell after point t holds `acc t`: the tile's sum added to zero in column 0, to `acc (t − 1)`
  elsewhere — so at the end of a row it is the row's sixteen tile sums added up. The output cell receives it in
  column 15, where the pipeline writes it back to entry i of the result; in the other columns the body does not
  touch the output cell. The invariant between points is the accumulator at `acc (t − 1)` (at anything before
  the first point), the core's other scoped buffers at anything, and the generator register.
-/
import proofs.«105586_j19189913878688_1_alg».proof.Proof.KernelIdeal.Point0

set_option maxRecDepth 16384

noncomputable section

namespace Cert.KernelIdeal.Tile

open Cert.KernelIdeal Cert.KernelIdeal.Gen Cert.WholeRect
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The columns, decided over the grid -/

/-- The first column is the points ≡ 0 (mod 16). -/
theorem first0_iff : ∀ t : Fin cfg0.N, first0 (grid0.coords t) ↔ t.val % 16 = 0 :=
  (by decide +kernel : ∀ t : Fin grid0.N, first0 (grid0.coords t) ↔ t.val % 16 = 0)
/-- The last column is the points ≡ 15 (mod 16). -/
theorem last0_iff : ∀ t : Fin cfg0.N, last0 (grid0.coords t) ↔ t.val % 16 = 15 :=
  (by decide +kernel : ∀ t : Fin grid0.N, last0 (grid0.coords t) ↔ t.val % 16 = 15)
/-- Off the last column the output window is idle and its block is not written back. -/
theorem out0_idle : ∀ t : Fin cfg0.N, ¬last0 (grid0.coords t) → cfg0.idle 2 (grid0.coords t) = true := by decide +kernel
theorem out0_noFlush : ∀ t : Fin cfg0.N, ¬last0 (grid0.coords t) → (cfg0.win 2).flush t = false := by decide +kernel
/-- In the last column it is live. -/
theorem out0_live : ∀ t : Fin cfg0.N, last0 (grid0.coords t) → cfg0.idle 2 (grid0.coords t) = false := by decide +kernel

/-! ## The input blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's block at point `t` (rows 512·(t / 16) …), at its literal type. -/
abbrev ablk0 (c : Dev nD) (t : Fin cfg0.N) : Vec F S512x256 .f32 := iblk0 V c 0 t
/-- The second operand's block at point `t` (rows 512·(t % 16) …), at its literal type. -/
abbrev bblk0 (c : Dev nD) (t : Fin cfg0.N) : Vec F S512x256 .f32 := iblk0 V c 1 t

/-! ## The accumulator, point by point -/

/-- What the accumulator cell holds after point `n`: the tile's sum added to zero in column 0 and to what the
    point before left elsewhere. -/
def acc0 (c : Dev nD) : (n : ℕ) → n < cfg0.N → Vec F S1x1x1 .f32
  | 0, h => k0_pay1 (k0_pay3 (ablk0 V c ⟨0, h⟩) (bblk0 V c ⟨0, h⟩)) k0_pay2
  | n + 1, h => k0_pay1 (k0_pay3 (ablk0 V c ⟨n + 1, h⟩) (bblk0 V c ⟨n + 1, h⟩))
      (if (n + 1) % 16 = 0 then k0_pay2 else acc0 c n (Nat.lt_of_succ_lt h))

/-- In column 0 the sum restarts from zero. -/
theorem acc0_first (c : Dev nD) (t : Fin cfg0.N) (h0 : t.val % 16 = 0) :
    acc0 V c t.val t.isLt = k0_pay1 (k0_pay3 (ablk0 V c t) (bblk0 V c t)) k0_pay2 := by
  obtain ⟨n, hn⟩ := t
  cases n with
  | zero => rfl
  | succ n => show k0_pay1 _ (if (n + 1) % 16 = 0 then _ else _) = _; rw [if_pos h0]

/-- Elsewhere it continues from the point before. -/
theorem acc0_next (c : Dev nD) (t : Fin cfg0.N) (h0 : t.val % 16 ≠ 0) (k : ℕ) (hk : k < cfg0.N) (e : t.val = k + 1) :
    acc0 V c t.val t.isLt = k0_pay1 (k0_pay3 (ablk0 V c t) (bblk0 V c t)) (acc0 V c k hk) := by
  obtain ⟨n, hn⟩ := t
  subst e
  show k0_pay1 _ (if (k + 1) % 16 = 0 then _ else _) = _; rw [if_neg h0]

/-! ## The invariant -/

/-- The core's scoped buffers other than this call's staging buffers and its accumulator cell. -/
abbrev others0 : Finset (Ref sig .tc) :=
  (((Finset.univ.filter fun b : Ref sig .tc => b.isScoped) \ Finset.univ.image (Pipeline.stageRef spec0)).erase cc0_scratch0)

/-- Between points: the accumulator at what the point before left (at anything before the first point), the other
    scoped buffers at anything, the generator register at some state. -/
def Phi0 (c : Dev nD) (n : ℕ) : sProp 𝕄 :=
  iprop((∃ f, ⌜∀ (k : ℕ) (hk : k < cfg0.N), n = k + 1 → f = acc0 V c k hk⌝ ∗ owns (c : Thread nD τ) (Memref.whole cc0_scratch0 : Memref sig .tc .vmem S1x1x1 .f32) fullShare f)
    ∗ (bigSep others0 fun b => iprop(∃ f : Buf (Elt F) ((c : Thread nD τ).loc b), ((c : Thread nD τ).loc b) ↦{fullShare} f))
    ∗ ∃ r, prngReg c r)

/-- The scoped buffers no window stages are the accumulator cell at something and the others. -/
theorem scopedRest0_split (c : Dev nD) :
    (Pipeline.scopedRest (Ix := Unit) (Name := ℕ) (U := UR sig nD τ) (Lvl := ℕ) (Val := Elt F) spec0 c : sProp 𝕄)
      = iprop((∃ f, owns (c : Thread nD τ) (Memref.whole cc0_scratch0 : Memref sig .tc .vmem S1x1x1 .f32) fullShare f)
        ∗ bigSep others0 fun b => iprop(∃ f : Buf (Elt F) ((c : Thread nD τ).loc b), ((c : Thread nD τ).loc b) ↦{fullShare} f)) := by
  unfold Pipeline.scopedRest
  rw [bigSep_erase (i := cc0_scratch0) (by decide)]
  simp only [owns_whole]
  rfl

/-! ## The proof data -/

/-- Pallas_call 0's proof data on core `c`: the arrays as the region finds them; after the body each input's
    buffer at its block and the output cell at the accumulator's value; the invariant above; nothing owed. An
    input array two windows read is held half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- Each input's current staging buffer holds its block at every point, fetched there or not: an unfetched
    window's block index has not moved since the point before, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation -/

/-- The body at any point, by the column: the inputs' buffers hold their blocks, the accumulator what the point
    before left; the case's run applies, and what it leaves is the next point's invariant. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ (dat0 V c).leavesExact 2 t)) := by
  unfold bodyAt0
  simp only [before0_0, before0_1]
  rw [show (dat0 V c).Φ t.succ = Phi0 V c (t.val + 1) from rfl,
    show (dat0 V c).Φ t.castSucc = Phi0 V c t.val from rfl,
    show (dat0 V c).owesAt () t.succ = (dat0 V c).owesAt () t.castSucc from rfl,
    after0_0, after0_1]
  unfold Phi0
  iintro ⟨⟨⟨%f, %hf, HS⟩, HR, HP⟩, Ho, ⟨%d0, H0⟩, ⟨%d1, H1⟩, ⟨%d2, H2⟩⟩
  by_cases hl : last0 (grid0.coords t)
  · -- the last column: the output cell receives the row's sum
    have h15 := (last0_iff t).mp hl
    have hnf : ¬first0 (grid0.coords t) := fun h => by have := (first0_iff t).mp h; omega
    have h0 : t.val % 16 ≠ 0 := by omega
    obtain ⟨k, hk⟩ : ∃ k, t.val = k + 1 := ⟨t.val - 1, by omega⟩
    have hkN : k < cfg0.N := by have := t.isLt; omega
    obtain rfl := hf k hkN hk
    rw [show (dat0 V c).leavesExact 2 t = owns (c : Thread nD τ) (st0_2 t) fullShare ((dat0 V c).after 2 t) from by
      unfold Dat.leavesExact; rw [out0_live t hl], after0_2, acc0_next V c t h0 k hkN hk]
    iapply (run0_last c (grid0.coords t) _ _ _ _ _ _ _ _ hnf hl (ablk0 V c t) (bblk0 V c t) _ (acc0 V c k hkN) Set.univ _)
    isplitl [H0]; · iexact H0
    isplitl [H1]; · iexact H1
    isplitl [H2]; · iexact H2
    isplitl [HS]; · iexact HS
    iintro ⟨H0, H1, H2, HS⟩
    isplitl [HS HR HP]
    · isplitl [HS]
      · iexists _; isplitr; swap; (· iexact HS)
        ipureintro; intro k' hk' e'
        obtain rfl : k' = t.val := (Nat.succ.inj e').symm
        exact (acc0_next V c t h0 k hkN hk).symm
      isplitl [HR]; · iexact HR
      iexact HP
    isplitl [Ho]; · iexact Ho
    isplitl [H0]; · iexact H0
    isplitl [H1]; · iexact H1
    iexact H2
  · -- an earlier column: the output cell is handed back as found
    rw [(dat0 V c).leavesExact_idle 2 t (out0_idle t hl) (out0_noFlush t hl)]
    by_cases hfst : first0 (grid0.coords t)
    · have h0 := (first0_iff t).mp hfst
      iapply (run0_first c (grid0.coords t) _ _ _ _ _ _ _ _ hfst hl (ablk0 V c t) (bblk0 V c t) _ f Set.univ _)
      isplitl [H0]; · iexact H0
      isplitl [H1]; · iexact H1
      isplitl [H2]; · iexact H2
      isplitl [HS]; · iexact HS
      iintro ⟨H0, H1, H2, HS⟩
      isplitl [HS HR HP]
      · isplitl [HS]
        · iexists _; isplitr; swap; (· iexact HS)
          ipureintro; intro k' hk' e'
          obtain rfl : k' = t.val := (Nat.succ.inj e').symm
          exact (acc0_first V c t h0).symm
        isplitl [HR]; · iexact HR
        iexact HP
      isplitl [Ho]; · iexact Ho
      isplitl [H0]; · iexact H0
      isplitl [H1]; · iexact H1
      iexists d2; iexact H2
    · have h0 : t.val % 16 ≠ 0 := fun h => hfst ((first0_iff t).mpr h)
      obtain ⟨k, hk⟩ : ∃ k, t.val = k + 1 := ⟨t.val - 1, by have := t.isLt; omega⟩
      have hkN : k < cfg0.N := by have := t.isLt; omega
      obtain rfl := hf k hkN hk
      iapply (run0_mid c (grid0.coords t) _ _ _ _ _ _ _ _ hfst hl (ablk0 V c t) (bblk0 V c t) _ (acc0 V c k hkN) Set.univ _)
      isplitl [H0]; · iexact H0
      isplitl [H1]; · iexact H1
      isplitl [H2]; · iexact H2
      isplitl [HS]; · iexact HS
      iintro ⟨H0, H1, H2, HS⟩
      isplitl [HS HR HP]
      · isplitl [HS]
        · iexists _; isplitr; swap; (· iexact HS)
          ipureintro; intro k' hk' e'
          obtain rfl : k' = t.val := (Nat.succ.inj e').symm
          exact (acc0_next V c t h0 k hkN hk).symm
        isplitl [HR]; · iexact HR
        iexact HP
      isplitl [Ho]; · iexact Ho
      isplitl [H0]; · iexact H0
      isplitl [H1]; · iexact H1
      iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Tile

end
-- ==== Proof.KernelIdeal.Point1.lean ====
/-
  One grid point of the pairwise-sum kernel of pallas_call 1, run on any four whole VMEM buffers: the two
  input tiles `a`, `b` (512×256 each), the output cell and the accumulator cell (1×1×1 each). The body
  computes the tile's sum s(a, b) = Σ_{p,q} exp(−dist(a_p, b_q)) (the payload `k1_pay3`), adds it to the
  accumulator (`k1_pay1`) — after zeroing it (`k1_pay2`) when the column coordinate j is 0 — and copies
  the accumulator to the output cell when j is the last column. Three cases of (j = 0, j = 15) occur on a
  16-column grid; in each the inputs come back unchanged, the accumulator holds the new partial sum, and the
  output cell is either untouched or holds that same sum.
-/
import proofs.«105586_j19189913878688_1_alg».proof.Proof.Gen.KernelIdeal.Launch
import proofs.«105586_j19189913878688_1_alg».proof.Proof.Gen.KernelIdeal.Skeleton
import proofs.«105586_j19189913878688_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«105586_j19189913878688_1_alg».proof.Proof.LibWholeRect

set_option maxRecDepth 16384

noncomputable section

namespace Cert.KernelIdeal.Tile

open Cert.KernelIdeal Cert.KernelIdeal.Gen Cert.WholeRect
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point lies in the first column of the grid (j = 0): the accumulator is zeroed before the tile's sum is added. -/
abbrev first1 (i : grid1.Coords) : Prop := (Scalar.cmpi .ne (Scalar.extui (Scalar.cmpi .eq (BitVec.ofNat 32 (i 1).val) 0#32)) 0#32) = 1#1
/-- The point lies in the last column (j = 15): the accumulator is copied to the output cell. -/
abbrev last1 (i : grid1.Coords) : Prop := k1_cond2 i = 1#1

set_option maxHeartbeats 1000000 in
/-- An inner column (0 < j < 15): the accumulator goes from `xs` to `xs + s(a, b)`; the output cell is untouched. -/
theorem run1_mid (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : ¬first1 i) (hc1 : ¬last1 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k1_pay1 (k1_pay3 x0 x1) xs)) -∗ K ⟨⟩))
      ⊢ wp frame (wpE (defs₀ (F := F)) Variants.none c none) E (cc1__mmd_sum_kernel i arg2 harg2 arg3 harg3 arg4 harg4 arg5 harg5) K := by
  simp only [cc1__mmd_sum_kernel_eq_skeleton]; unfold cc1__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr; · ipureintro; exact hfo
    iexact HO
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

set_option maxHeartbeats 1000000 in
/-- The first column: the accumulator is reset, so it ends at `0 + s(a, b)` whatever it held; the output cell is untouched. -/
theorem run1_first (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : first1 i) (hc1 : ¬last1 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k1_pay1 (k1_pay3 x0 x1) k1_pay2)) -∗ K ⟨⟩))
      ⊢ wp frame (wpE (defs₀ (F := F)) Variants.none c none) E (cc1__mmd_sum_kernel i arg2 harg2 arg3 harg3 arg4 harg4 arg5 harg5) K := by
  simp only [cc1__mmd_sum_kernel_eq_skeleton]; unfold cc1__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    exact hfo
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

set_option maxHeartbeats 1000000 in
/-- The last column: the accumulator goes to `xs + s(a, b)` and the output cell receives the same value. -/
theorem run1_last (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : ¬first1 i) (hc1 : last1 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare (k1_pay1 (k1_pay3 x0 x1) xs) ∗ owns (c : Thread nD τ) arg5 fullShare (k1_pay1 (k1_pay3 x0 x1) xs)) -∗ K ⟨⟩))
      ⊢ wp frame (wpE (defs₀ (F := F)) Variants.none c none) E (cc1__mmd_sum_kernel i arg2 harg2 arg3 harg3 arg4 harg4 arg5 harg5) K := by
  simp only [cc1__mmd_sum_kernel_eq_skeleton]; unfold cc1__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    sl_unfold_words
    rw [View.read_writes_eq_canon _ _ _ (cover_whole hz3 _ _ _), View.canon_cons_unit_zero hz3]
    simp only [View.readAt_eq_ld, View.readCov_unit_zero (S := S1x1x1) _ hz3, harg5.read_unread, harg2.read_unread, harg3.read_unread, View.ld_unit_zero (S := S1x1x1) hz3, View.ld_unit_zero (S := S512x256) hz2]
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

end Cert.KernelIdeal.Tile

end
-- ==== Proof.KernelIdeal.Data1.lean ====
/-
  The proof data of pallas_call 1 and its body obligation, at any contents `V` the unscoped buffers hold when
  the region is entered. The grid is 16 × 16, walked row by row: point t is row i = t / 16, column j = t % 16.
  At point t the body is handed block i of the first operand (`ablk`) and block j of the second (`bblk`), each
  512 rows of 256, whether or not the pipeline fetched them there (an unfetched block's index has not moved).
  The accumulator cell after point t holds `acc t`: the tile's sum added to zero in column 0, to `acc (t − 1)`
  elsewhere — so at the end of a row it is the row's sixteen tile sums added up. The output cell receives it in
  column 15, where the pipeline writes it back to entry i of the result; in the other columns the body does not
  touch the output cell. The invariant between points is the accumulator at `acc (t − 1)` (at anything before
  the first point), the core's other scoped buffers at anything, and the generator register.
-/
import proofs.«105586_j19189913878688_1_alg».proof.Proof.KernelIdeal.Point1

set_option maxRecDepth 16384

noncomputable section

namespace Cert.KernelIdeal.Tile

open Cert.KernelIdeal Cert.KernelIdeal.Gen Cert.WholeRect
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The columns, decided over the grid -/

/-- The first column is the points ≡ 0 (mod 16). -/
theorem first1_iff : ∀ t : Fin cfg1.N, first1 (grid1.coords t) ↔ t.val % 16 = 0 :=
  (by decide +kernel : ∀ t : Fin grid1.N, first1 (grid1.coords t) ↔ t.val % 16 = 0)
/-- The last column is the points ≡ 15 (mod 16). -/
theorem last1_iff : ∀ t : Fin cfg1.N, last1 (grid1.coords t) ↔ t.val % 16 = 15 :=
  (by decide +kernel : ∀ t : Fin grid1.N, last1 (grid1.coords t) ↔ t.val % 16 = 15)
/-- Off the last column the output window is idle and its block is not written back. -/
theorem out1_idle : ∀ t : Fin cfg1.N, ¬last1 (grid1.coords t) → cfg1.idle 2 (grid1.coords t) = true := by decide +kernel
theorem out1_noFlush : ∀ t : Fin cfg1.N, ¬last1 (grid1.coords t) → (cfg1.win 2).flush t = false := by decide +kernel
/-- In the last column it is live. -/
theorem out1_live : ∀ t : Fin cfg1.N, last1 (grid1.coords t) → cfg1.idle 2 (grid1.coords t) = false := by decide +kernel

/-! ## The input blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's block at point `t` (rows 512·(t / 16) …), at its literal type. -/
abbrev ablk1 (c : Dev nD) (t : Fin cfg1.N) : Vec F S512x256 .f32 := iblk1 V c 0 t
/-- The second operand's block at point `t` (rows 512·(t % 16) …), at its literal type. -/
abbrev bblk1 (c : Dev nD) (t : Fin cfg1.N) : Vec F S512x256 .f32 := iblk1 V c 1 t

/-! ## The accumulator, point by point -/

/-- What the accumulator cell holds after point `n`: the tile's sum added to zero in column 0 and to what the
    point before left elsewhere. -/
def acc1 (c : Dev nD) : (n : ℕ) → n < cfg1.N → Vec F S1x1x1 .f32
  | 0, h => k1_pay1 (k1_pay3 (ablk1 V c ⟨0, h⟩) (bblk1 V c ⟨0, h⟩)) k1_pay2
  | n + 1, h => k1_pay1 (k1_pay3 (ablk1 V c ⟨n + 1, h⟩) (bblk1 V c ⟨n + 1, h⟩))
      (if (n + 1) % 16 = 0 then k1_pay2 else acc1 c n (Nat.lt_of_succ_lt h))

/-- In column 0 the sum restarts from zero. -/
theorem acc1_first (c : Dev nD) (t : Fin cfg1.N) (h0 : t.val % 16 = 0) :
    acc1 V c t.val t.isLt = k1_pay1 (k1_pay3 (ablk1 V c t) (bblk1 V c t)) k1_pay2 := by
  obtain ⟨n, hn⟩ := t
  cases n with
  | zero => rfl
  | succ n => show k1_pay1 _ (if (n + 1) % 16 = 0 then _ else _) = _; rw [if_pos h0]

/-- Elsewhere it continues from the point before. -/
theorem acc1_next (c : Dev nD) (t : Fin cfg1.N) (h0 : t.val % 16 ≠ 0) (k : ℕ) (hk : k < cfg1.N) (e : t.val = k + 1) :
    acc1 V c t.val t.isLt = k1_pay1 (k1_pay3 (ablk1 V c t) (bblk1 V c t)) (acc1 V c k hk) := by
  obtain ⟨n, hn⟩ := t
  subst e
  show k1_pay1 _ (if (k + 1) % 16 = 0 then _ else _) = _; rw [if_neg h0]

/-! ## The invariant -/

/-- The core's scoped buffers other than this call's staging buffers and its accumulator cell. -/
abbrev others1 : Finset (Ref sig .tc) :=
  (((Finset.univ.filter fun b : Ref sig .tc => b.isScoped) \ Finset.univ.image (Pipeline.stageRef spec1)).erase cc1_scratch0)

/-- Between points: the accumulator at what the point before left (at anything before the first point), the other
    scoped buffers at anything, the generator register at some state. -/
def Phi1 (c : Dev nD) (n : ℕ) : sProp 𝕄 :=
  iprop((∃ f, ⌜∀ (k : ℕ) (hk : k < cfg1.N), n = k + 1 → f = acc1 V c k hk⌝ ∗ owns (c : Thread nD τ) (Memref.whole cc1_scratch0 : Memref sig .tc .vmem S1x1x1 .f32) fullShare f)
    ∗ (bigSep others1 fun b => iprop(∃ f : Buf (Elt F) ((c : Thread nD τ).loc b), ((c : Thread nD τ).loc b) ↦{fullShare} f))
    ∗ ∃ r, prngReg c r)

/-- The scoped buffers no window stages are the accumulator cell at something and the others. -/
theorem scopedRest1_split (c : Dev nD) :
    (Pipeline.scopedRest (Ix := Unit) (Name := ℕ) (U := UR sig nD τ) (Lvl := ℕ) (Val := Elt F) spec1 c : sProp 𝕄)
      = iprop((∃ f, owns (c : Thread nD τ) (Memref.whole cc1_scratch0 : Memref sig .tc .vmem S1x1x1 .f32) fullShare f)
        ∗ bigSep others1 fun b => iprop(∃ f : Buf (Elt F) ((c : Thread nD τ).loc b), ((c : Thread nD τ).loc b) ↦{fullShare} f)) := by
  unfold Pipeline.scopedRest
  rw [bigSep_erase (i := cc1_scratch0) (by decide)]
  simp only [owns_whole]
  rfl

/-! ## The proof data -/

/-- Pallas_call 1's proof data on core `c`: the arrays as the region finds them; after the body each input's
    buffer at its block and the output cell at the accumulator's value; the invariant above; nothing owed. An
    input array two windows read is held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- Each input's current staging buffer holds its block at every point, fetched there or not: an unfetched
    window's block index has not moved since the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation -/

/-- The body at any point, by the column: the inputs' buffers hold their blocks, the accumulator what the point
    before left; the case's run applies, and what it leaves is the next point's invariant. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ (dat1 V c).leavesExact 2 t)) := by
  unfold bodyAt1
  simp only [before1_0, before1_1]
  rw [show (dat1 V c).Φ t.succ = Phi1 V c (t.val + 1) from rfl,
    show (dat1 V c).Φ t.castSucc = Phi1 V c t.val from rfl,
    show (dat1 V c).owesAt () t.succ = (dat1 V c).owesAt () t.castSucc from rfl,
    after1_0, after1_1]
  unfold Phi1
  iintro ⟨⟨⟨%f, %hf, HS⟩, HR, HP⟩, Ho, ⟨%d0, H0⟩, ⟨%d1, H1⟩, ⟨%d2, H2⟩⟩
  by_cases hl : last1 (grid1.coords t)
  · -- the last column: the output cell receives the row's sum
    have h15 := (last1_iff t).mp hl
    have hnf : ¬first1 (grid1.coords t) := fun h => by have := (first1_iff t).mp h; omega
    have h0 : t.val % 16 ≠ 0 := by omega
    obtain ⟨k, hk⟩ : ∃ k, t.val = k + 1 := ⟨t.val - 1, by omega⟩
    have hkN : k < cfg1.N := by have := t.isLt; omega
    obtain rfl := hf k hkN hk
    rw [show (dat1 V c).leavesExact 2 t = owns (c : Thread nD τ) (st1_2 t) fullShare ((dat1 V c).after 2 t) from by
      unfold Dat.leavesExact; rw [out1_live t hl], after1_2, acc1_next V c t h0 k hkN hk]
    iapply (run1_last c (grid1.coords t) _ _ _ _ _ _ _ _ hnf hl (ablk1 V c t) (bblk1 V c t) _ (acc1 V c k hkN) Set.univ _)
    isplitl [H0]; · iexact H0
    isplitl [H1]; · iexact H1
    isplitl [H2]; · iexact H2
    isplitl [HS]; · iexact HS
    iintro ⟨H0, H1, H2, HS⟩
    isplitl [HS HR HP]
    · isplitl [HS]
      · iexists _; isplitr; swap; (· iexact HS)
        ipureintro; intro k' hk' e'
        obtain rfl : k' = t.val := (Nat.succ.inj e').symm
        exact (acc1_next V c t h0 k hkN hk).symm
      isplitl [HR]; · iexact HR
      iexact HP
    isplitl [Ho]; · iexact Ho
    isplitl [H0]; · iexact H0
    isplitl [H1]; · iexact H1
    iexact H2
  · -- an earlier column: the output cell is handed back as found
    rw [(dat1 V c).leavesExact_idle 2 t (out1_idle t hl) (out1_noFlush t hl)]
    by_cases hfst : first1 (grid1.coords t)
    · have h0 := (first1_iff t).mp hfst
      iapply (run1_first c (grid1.coords t) _ _ _ _ _ _ _ _ hfst hl (ablk1 V c t) (bblk1 V c t) _ f Set.univ _)
      isplitl [H0]; · iexact H0
      isplitl [H1]; · iexact H1
      isplitl [H2]; · iexact H2
      isplitl [HS]; · iexact HS
      iintro ⟨H0, H1, H2, HS⟩
      isplitl [HS HR HP]
      · isplitl [HS]
        · iexists _; isplitr; swap; (· iexact HS)
          ipureintro; intro k' hk' e'
          obtain rfl : k' = t.val := (Nat.succ.inj e').symm
          exact (acc1_first V c t h0).symm
        isplitl [HR]; · iexact HR
        iexact HP
      isplitl [Ho]; · iexact Ho
      isplitl [H0]; · iexact H0
      isplitl [H1]; · iexact H1
      iexists d2; iexact H2
    · have h0 : t.val % 16 ≠ 0 := fun h => hfst ((first1_iff t).mpr h)
      obtain ⟨k, hk⟩ : ∃ k, t.val = k + 1 := ⟨t.val - 1, by have := t.isLt; omega⟩
      have hkN : k < cfg1.N := by have := t.isLt; omega
      obtain rfl := hf k hkN hk
      iapply (run1_mid c (grid1.coords t) _ _ _ _ _ _ _ _ hfst hl (ablk1 V c t) (bblk1 V c t) _ (acc1 V c k hkN) Set.univ _)
      isplitl [H0]; · iexact H0
      isplitl [H1]; · iexact H1
      isplitl [H2]; · iexact H2
      isplitl [HS]; · iexact HS
      iintro ⟨H0, H1, H2, HS⟩
      isplitl [HS HR HP]
      · isplitl [HS]
        · iexists _; isplitr; swap; (· iexact HS)
          ipureintro; intro k' hk' e'
          obtain rfl : k' = t.val := (Nat.succ.inj e').symm
          exact (acc1_next V c t h0 k hkN hk).symm
        isplitl [HR]; · iexact HR
        iexact HP
      isplitl [Ho]; · iexact Ho
      isplitl [H0]; · iexact H0
      isplitl [H1]; · iexact H1
      iexists d2; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Tile

end
-- ==== Proof.KernelIdeal.Point2.lean ====
/-
  One grid point of the pairwise-sum kernel of pallas_call 2, run on any four whole VMEM buffers: the two
  input tiles `a`, `b` (512×256 each), the output cell and the accumulator cell (1×1×1 each). The body
  computes the tile's sum s(a, b) = Σ_{p,q} exp(−dist(a_p, b_q)) (the payload `k2_pay3`), adds it to the
  accumulator (`k2_pay1`) — after zeroing it (`k2_pay2`) when the column coordinate j is 0 — and copies
  the accumulator to the output cell when j is the last column. Three cases of (j = 0, j = 15) occur on a
  16-column grid; in each the inputs come back unchanged, the accumulator holds the new partial sum, and the
  output cell is either untouched or holds that same sum.
-/
import proofs.«105586_j19189913878688_1_alg».proof.Proof.Gen.KernelIdeal.Launch
import proofs.«105586_j19189913878688_1_alg».proof.Proof.Gen.KernelIdeal.Skeleton
import proofs.«105586_j19189913878688_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«105586_j19189913878688_1_alg».proof.Proof.LibWholeRect

set_option maxRecDepth 16384

noncomputable section

namespace Cert.KernelIdeal.Tile

open Cert.KernelIdeal Cert.KernelIdeal.Gen Cert.WholeRect
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point lies in the first column of the grid (j = 0): the accumulator is zeroed before the tile's sum is added. -/
abbrev first2 (i : grid2.Coords) : Prop := (Scalar.cmpi .ne (Scalar.extui (Scalar.cmpi .eq (BitVec.ofNat 32 (i 1).val) 0#32)) 0#32) = 1#1
/-- The point lies in the last column (j = 15): the accumulator is copied to the output cell. -/
abbrev last2 (i : grid2.Coords) : Prop := k2_cond2 i = 1#1

set_option maxHeartbeats 1000000 in
/-- An inner column (0 < j < 15): the accumulator goes from `xs` to `xs + s(a, b)`; the output cell is untouched. -/
theorem run2_mid (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : ¬first2 i) (hc1 : ¬last2 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k2_pay1 (k2_pay3 x0 x1) xs)) -∗ K ⟨⟩))
      ⊢ wp frame (wpE (defs₀ (F := F)) Variants.none c none) E (cc2__mmd_sum_kernel i arg2 harg2 arg3 harg3 arg4 harg4 arg5 harg5) K := by
  simp only [cc2__mmd_sum_kernel_eq_skeleton]; unfold cc2__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr; · ipureintro; exact hfo
    iexact HO
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

set_option maxHeartbeats 1000000 in
/-- The first column: the accumulator is reset, so it ends at `0 + s(a, b)` whatever it held; the output cell is untouched. -/
theorem run2_first (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : first2 i) (hc1 : ¬last2 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k2_pay1 (k2_pay3 x0 x1) k2_pay2)) -∗ K ⟨⟩))
      ⊢ wp frame (wpE (defs₀ (F := F)) Variants.none c none) E (cc2__mmd_sum_kernel i arg2 harg2 arg3 harg3 arg4 harg4 arg5 harg5) K := by
  simp only [cc2__mmd_sum_kernel_eq_skeleton]; unfold cc2__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    exact hfo
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

set_option maxHeartbeats 1000000 in
/-- The last column: the accumulator goes to `xs + s(a, b)` and the output cell receives the same value. -/
theorem run2_last (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1x1 .f32) (harg4 : arg4.IsWhole) (arg5 : Memref sig .tc .vmem S1x1x1 .f32) (harg5 : arg5.IsWhole)
    (hc0 : ¬first2 i) (hc1 : last2 i)
    (x0 x1 : Vec F S512x256 .f32) (xo xs : Vec F S1x1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare (k2_pay1 (k2_pay3 x0 x1) xs) ∗ owns (c : Thread nD τ) arg5 fullShare (k2_pay1 (k2_pay3 x0 x1) xs)) -∗ K ⟨⟩))
      ⊢ wp frame (wpE (defs₀ (F := F)) Variants.none c none) E (cc2__mmd_sum_kernel i arg2 harg2 arg3 harg3 arg4 harg4 arg5 harg5) K := by
  simp only [cc2__mmd_sum_kernel_eq_skeleton]; unfold cc2__mmd_sum_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    sl_unfold_words
    rw [View.read_writes_eq_canon _ _ _ (cover_whole hz3 _ _ _), View.canon_cons_unit_zero hz3]
    simp only [View.readAt_eq_ld, View.readCov_unit_zero (S := S1x1x1) _ hz3, harg5.read_unread, harg2.read_unread, harg3.read_unread, View.ld_unit_zero (S := S1x1x1) hz3, View.ld_unit_zero (S := S512x256) hz2]
  iexists _; isplitr
  swap; · iexact HS
  ipureintro
  sl_unfold_words
  rw [View.read_writes_eq_canon _ _ _ (cover_whole hz3 _ _ _), View.canon_cons_unit_zero hz3]
  simp only [View.readAt_eq_ld, View.readCov_unit_zero (S := S1x1x1) _ hz3, harg5.read_unread, harg2.read_unread, harg3.read_unread, View.ld_unit_zero (S := S1x1x1) hz3, View.ld_unit_zero (S := S512x256) hz2]

end Cert.KernelIdeal.Tile

end
-- ==== Proof.KernelIdeal.Data2.lean ====
/-
  The proof data of pallas_call 2 and its body obligation, at any contents `V` the unscoped buffers hold when
  the region is entered. The grid is 16 × 16, walked row by row: point t is row i = t / 16, column j = t % 16.
  At point t the body is handed block i of the first operand (`ablk`) and block j of the second (`bblk`), each
  512 rows of 256, whether or not the pipeline fetched them there (an unfetched block's index has not moved).
  The accumulator cell after point t holds `acc t`: the tile's sum added to zero in column 0, to `acc (t − 1)`
  elsewhere — so at the end of a row it is the row's sixteen tile sums added up. The output cell receives it in
  column 15, where the pipeline writes it back to entry i of the result; in the other columns the body does not
  touch the output cell. The invariant between points is the accumulator at `acc (t − 1)` (at anything before
  the first point), the core's other scoped buffers at anything, and the generator register.
-/
import proofs.«105586_j19189913878688_1_alg».proof.Proof.KernelIdeal.Point2

set_option maxRecDepth 16384

noncomputable section

namespace Cert.KernelIdeal.Tile

open Cert.KernelIdeal Cert.KernelIdeal.Gen Cert.WholeRect
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The columns, decided over the grid -/

/-- The first column is the points ≡ 0 (mod 16). -/
theorem first2_iff : ∀ t : Fin cfg2.N, first2 (grid2.coords t) ↔ t.val % 16 = 0 :=
  (by decide +kernel : ∀ t : Fin grid2.N, first2 (grid2.coords t) ↔ t.val % 16 = 0)
/-- The last column is the points ≡ 15 (mod 16). -/
theorem last2_iff : ∀ t : Fin cfg2.N, last2 (grid2.coords t) ↔ t.val % 16 = 15 :=
  (by decide +kernel : ∀ t : Fin grid2.N, last2 (grid2.coords t) ↔ t.val % 16 = 15)
/-- Off the last column the output window is idle and its block is not written back. -/
theorem out2_idle : ∀ t : Fin cfg2.N, ¬last2 (grid2.coords t) → cfg2.idle 2 (grid2.coords t) = true := by decide +kernel
theorem out2_noFlush : ∀ t : Fin cfg2.N, ¬last2 (grid2.coords t) → (cfg2.win 2).flush t = false := by decide +kernel
/-- In the last column it is live. -/
theorem out2_live : ∀ t : Fin cfg2.N, last2 (grid2.coords t) → cfg2.idle 2 (grid2.coords t) = false := by decide +kernel

/-! ## The input blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first operand's block at point `t` (rows 512·(t / 16) …), at its literal type. -/
abbrev ablk2 (c : Dev nD) (t : Fin cfg2.N) : Vec F S512x256 .f32 := iblk2 V c 0 t
/-- The second operand's block at point `t` (rows 512·(t % 16) …), at its literal type. -/
abbrev bblk2 (c : Dev nD) (t : Fin cfg2.N) : Vec F S512x256 .f32 := iblk2 V c 1 t

/-! ## The accumulator, point by point -/

/-- What the accumulator cell holds after point `n`: the tile's sum added to zero in column 0 and to what the
    point before left elsewhere. -/
def acc2 (c : Dev nD) : (n : ℕ) → n < cfg2.N → Vec F S1x1x1 .f32
  | 0, h => k2_pay1 (k2_pay3 (ablk2 V c ⟨0, h⟩) (bblk2 V c ⟨0, h⟩)) k2_pay2
  | n + 1, h => k2_pay1 (k2_pay3 (ablk2 V c ⟨n + 1, h⟩) (bblk2 V c ⟨n + 1, h⟩))
      (if (n + 1) % 16 = 0 then k2_pay2 else acc2 c n (Nat.lt_of_succ_lt h))

/-- In column 0 the sum restarts from zero. -/
theorem acc2_first (c : Dev nD) (t : Fin cfg2.N) (h0 : t.val % 16 = 0) :
    acc2 V c t.val t.isLt = k2_pay1 (k2_pay3 (ablk2 V c t) (bblk2 V c t)) k2_pay2 := by
  obtain ⟨n, hn⟩ := t
  cases n with
  | zero => rfl
  | succ n => show k2_pay1 _ (if (n + 1) % 16 = 0 then _ else _) = _; rw [if_pos h0]

/-- Elsewhere it continues from the point before. -/
theorem acc2_next (c : Dev nD) (t : Fin cfg2.N) (h0 : t.val % 16 ≠ 0) (k : ℕ) (hk : k < cfg2.N) (e : t.val = k + 1) :
    acc2 V c t.val t.isLt = k2_pay1 (k2_pay3 (ablk2 V c t) (bblk2 V c t)) (acc2 V c k hk) := by
  obtain ⟨n, hn⟩ := t
  subst e
  show k2_pay1 _ (if (k + 1) % 16 = 0 then _ else _) = _; rw [if_neg h0]

/-! ## The invariant -/

/-- The core's scoped buffers other than this call's staging buffers and its accumulator cell. -/
abbrev others2 : Finset (Ref sig .tc) :=
  (((Finset.univ.filter fun b : Ref sig .tc => b.isScoped) \ Finset.univ.image (Pipeline.stageRef spec2)).erase cc2_scratch0)

/-- Between points: the accumulator at what the point before left (at anything before the first point), the other
    scoped buffers at anything, the generator register at some state. -/
def Phi2 (c : Dev nD) (n : ℕ) : sProp 𝕄 :=
  iprop((∃ f, ⌜∀ (k : ℕ) (hk : k < cfg2.N), n = k + 1 → f = acc2 V c k hk⌝ ∗ owns (c : Thread nD τ) (Memref.whole cc2_scratch0 : Memref sig .tc .vmem S1x1x1 .f32) fullShare f)
    ∗ (bigSep others2 fun b => iprop(∃ f : Buf (Elt F) ((c : Thread nD τ).loc b), ((c : Thread nD τ).loc b) ↦{fullShare} f))
    ∗ ∃ r, prngReg c r)

/-- The scoped buffers no window stages are the accumulator cell at something and the others. -/
theorem scopedRest2_split (c : Dev nD) :
    (Pipeline.scopedRest (Ix := Unit) (Name := ℕ) (U := UR sig nD τ) (Lvl := ℕ) (Val := Elt F) spec2 c : sProp 𝕄)
      = iprop((∃ f, owns (c : Thread nD τ) (Memref.whole cc2_scratch0 : Memref sig .tc .vmem S1x1x1 .f32) fullShare f)
        ∗ bigSep others2 fun b => iprop(∃ f : Buf (Elt F) ((c : Thread nD τ).loc b), ((c : Thread nD τ).loc b) ↦{fullShare} f)) := by
  unfold Pipeline.scopedRest
  rw [bigSep_erase (i := cc2_scratch0) (by decide)]
  simp only [owns_whole]
  rfl

/-! ## The proof data -/

/-- Pallas_call 2's proof data on core `c`: the arrays as the region finds them; after the body each input's
    buffer at its block and the output cell at the accumulator's value; the invariant above; nothing owed. An
    input array two windows read is held half and half. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val
  q w := match w with
    | ⟨0, _⟩ => fullShare
    | ⟨1, _⟩ => fullShare
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-- Each input's current staging buffer holds its block at every point, fetched there or not: an unfetched
    window's block index has not moved since the point before, and the body leaves the block in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## The body obligation -/

/-- The body at any point, by the column: the inputs' buffers hold their blocks, the accumulator what the point
    before left; the case's run applies, and what it leaves is the next point's invariant. -/
theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d)))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ (dat2 V c).leavesExact 2 t)) := by
  unfold bodyAt2
  simp only [before2_0, before2_1]
  rw [show (dat2 V c).Φ t.succ = Phi2 V c (t.val + 1) from rfl,
    show (dat2 V c).Φ t.castSucc = Phi2 V c t.val from rfl,
    show (dat2 V c).owesAt () t.succ = (dat2 V c).owesAt () t.castSucc from rfl,
    after2_0, after2_1]
  unfold Phi2
  iintro ⟨⟨⟨%f, %hf, HS⟩, HR, HP⟩, Ho, ⟨%d0, H0⟩, ⟨%d1, H1⟩, ⟨%d2, H2⟩⟩
  by_cases hl : last2 (grid2.coords t)
  · -- the last column: the output cell receives the row's sum
    have h15 := (last2_iff t).mp hl
    have hnf : ¬first2 (grid2.coords t) := fun h => by have := (first2_iff t).mp h; omega
    have h0 : t.val % 16 ≠ 0 := by omega
    obtain ⟨k, hk⟩ : ∃ k, t.val = k + 1 := ⟨t.val - 1, by omega⟩
    have hkN : k < cfg2.N := by have := t.isLt; omega
    obtain rfl := hf k hkN hk
    rw [show (dat2 V c).leavesExact 2 t = owns (c : Thread nD τ) (st2_2 t) fullShare ((dat2 V c).after 2 t) from by
      unfold Dat.leavesExact; rw [out2_live t hl], after2_2, acc2_next V c t h0 k hkN hk]
    iapply (run2_last c (grid2.coords t) _ _ _ _ _ _ _ _ hnf hl (ablk2 V c t) (bblk2 V c t) _ (acc2 V c k hkN) Set.univ _)
    isplitl [H0]; · iexact H0
    isplitl [H1]; · iexact H1
    isplitl [H2]; · iexact H2
    isplitl [HS]; · iexact HS
    iintro ⟨H0, H1, H2, HS⟩
    isplitl [HS HR HP]
    · isplitl [HS]
      · iexists _; isplitr; swap; (· iexact HS)
        ipureintro; intro k' hk' e'
        obtain rfl : k' = t.val := (Nat.succ.inj e').symm
        exact (acc2_next V c t h0 k hkN hk).symm
      isplitl [HR]; · iexact HR
      iexact HP
    isplitl [Ho]; · iexact Ho
    isplitl [H0]; · iexact H0
    isplitl [H1]; · iexact H1
    iexact H2
  · -- an earlier column: the output cell is handed back as found
    rw [(dat2 V c).leavesExact_idle 2 t (out2_idle t hl) (out2_noFlush t hl)]
    by_cases hfst : first2 (grid2.coords t)
    · have h0 := (first2_iff t).mp hfst
      iapply (run2_first c (grid2.coords t) _ _ _ _ _ _ _ _ hfst hl (ablk2 V c t) (bblk2 V c t) _ f Set.univ _)
      isplitl [H0]; · iexact H0
      isplitl [H1]; · iexact H1
      isplitl [H2]; · iexact H2
      isplitl [HS]; · iexact HS
      iintro ⟨H0, H1, H2, HS⟩
      isplitl [HS HR HP]
      · isplitl [HS]
        · iexists _; isplitr; swap; (· iexact HS)
          ipureintro; intro k' hk' e'
          obtain rfl : k' = t.val := (Nat.succ.inj e').symm
          exact (acc2_first V c t h0).symm
        isplitl [HR]; · iexact HR
        iexact HP
      isplitl [Ho]; · iexact Ho
      isplitl [H0]; · iexact H0
      isplitl [H1]; · iexact H1
      iexists d2; iexact H2
    · have h0 : t.val % 16 ≠ 0 := fun h => hfst ((first2_iff t).mpr h)
      obtain ⟨k, hk⟩ : ∃ k, t.val = k + 1 := ⟨t.val - 1, by have := t.isLt; omega⟩
      have hkN : k < cfg2.N := by have := t.isLt; omega
      obtain rfl := hf k hkN hk
      iapply (run2_mid c (grid2.coords t) _ _ _ _ _ _ _ _ hfst hl (ablk2 V c t) (bblk2 V c t) _ (acc2 V c k hkN) Set.univ _)
      isplitl [H0]; · iexact H0
      isplitl [H1]; · iexact H1
      isplitl [H2]; · iexact H2
      isplitl [HS]; · iexact HS
      iintro ⟨H0, H1, H2, HS⟩
      isplitl [HS HR HP]
      · isplitl [HS]
        · iexists _; isplitr; swap; (· iexact HS)
          ipureintro; intro k' hk' e'
          obtain rfl : k' = t.val := (Nat.succ.inj e').symm
          exact (acc2_next V c t h0 k hkN hk).symm
        isplitl [HR]; · iexact HR
        iexact HP
      isplitl [Ho]; · iexact Ho
      isplitl [H0]; · iexact H0
      isplitl [H1]; · iexact H1
      iexists d2; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Tile

end
-- ==== Proof.KernelIdeal.Fold.lean ====
/-
  The contents of the core's unscoped buffers at every boundary between two items of the program, from the
  launch memory to the return: each pairwise-sum call replaces its result array (sixteen partial sums, one per
  block of 512 rows of the first operand) by what its write-backs leave and changes nothing else; each stretch of
  host operations applies its operations. Every call's proof data is taken at the contents its region is entered
  from. No item writes an argument array, so both arguments end as launched.
-/
import proofs.«105586_j19189913878688_1_alg».proof.Proof.KernelIdeal.Data0
import proofs.«105586_j19189913878688_1_alg».proof.Proof.KernelIdeal.Data1
import proofs.«105586_j19189913878688_1_alg».proof.Proof.KernelIdeal.Data2
import proofs.«105586_j19189913878688_1_alg».proof.Proof.Gen.KernelIdeal.Regions

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atRef (W : Dev nD → Valuation τ sig (Elt F)) : (c : Dev nD) → (b : Ref sig .tc) → Buf (Elt F) ((c : Thread nD τ).loc b) :=
  fun c b => W c b

/-- At launch. -/
abbrev W0 (c : Dev nD) : Valuation τ sig (Elt F) := fun b => m (c, b)
/-- The first call's result: the sums of the first argument against itself. -/
def sums0 (c : Dev nD) : Buf (Elt F) ((c : Thread nD τ).loc main_v0) := (dat0 (atRef (W0 m)) c).arrAt 2 cfg0.N
/-- After the first call. -/
abbrev W1 (c : Dev nD) : Valuation τ sig (Elt F) := Function.update (W0 m c) main_v0 (sums0 m c)
/-- After the first host stretch (the first result summed). -/
abbrev W2 (c : Dev nD) : Valuation τ sig (Elt F) := StableHlo.after hostOps1 (W1 m c)
/-- The second call's result: the second argument against itself. -/
def sums1 (c : Dev nD) : Buf (Elt F) ((c : Thread nD τ).loc main_v2) := (dat1 (atRef (W2 m)) c).arrAt 2 cfg1.N
/-- After the second call. -/
abbrev W3 (c : Dev nD) : Valuation τ sig (Elt F) := Function.update (W2 m c) main_v2 (sums1 m c)
/-- After the second host stretch. -/
abbrev W4 (c : Dev nD) : Valuation τ sig (Elt F) := StableHlo.after hostOps2 (W3 m c)
/-- The third call's result: the first argument against the second. -/
def sums2 (c : Dev nD) : Buf (Elt F) ((c : Thread nD τ).loc main_v4) := (dat2 (atRef (W4 m)) c).arrAt 2 cfg2.N
/-- After the third call. -/
abbrev W5 (c : Dev nD) : Valuation τ sig (Elt F) := Function.update (W4 m c) main_v4 (sums2 m c)
/-- At the return: after the last host stretch (the third sum, the three means, their combination). -/
abbrev W6 (c : Dev nD) : Valuation τ sig (Elt F) := StableHlo.after hostOps3 (W5 m c)

/-- A call changes its result array only. -/
theorem W1_of (c : Dev nD) (r : Ref sig .tc) (h : r ≠ main_v0) : W1 m c r = W0 m c r :=
  Function.update_of_ne (StableHlo.devRef_ne_of_ne h) _ _
theorem W3_of (c : Dev nD) (r : Ref sig .tc) (h : r ≠ main_v2) : W3 m c r = W2 m c r :=
  Function.update_of_ne (StableHlo.devRef_ne_of_ne h) _ _
theorem W5_of (c : Dev nD) (r : Ref sig .tc) (h : r ≠ main_v4) : W5 m c r = W4 m c r :=
  Function.update_of_ne (StableHlo.devRef_ne_of_ne h) _ _
theorem W1_res (c : Dev nD) : W1 m c main_v0 = sums0 m c := Function.update_self ..
theorem W3_res (c : Dev nD) : W3 m c main_v2 = sums1 m c := Function.update_self ..
theorem W5_res (c : Dev nD) : W5 m c main_v4 = sums2 m c := Function.update_self ..
/-- A host stretch changes the buffers it writes only. -/
theorem W2_of (c : Dev nD) (r : Ref sig .tc) (h : r ∉ hostOps1_W) : W2 m c r = W1 m c r :=
  StableHlo.after_of_writes_sub hostOps1 _ hostOps1_writes h
theorem W4_of (c : Dev nD) (r : Ref sig .tc) (h : r ∉ hostOps2_W) : W4 m c r = W3 m c r :=
  StableHlo.after_of_writes_sub hostOps2 _ hostOps2_writes h
theorem W6_of (c : Dev nD) (r : Ref sig .tc) (h : r ∉ hostOps3_W) : W6 m c r = W5 m c r :=
  StableHlo.after_of_writes_sub hostOps3 _ hostOps3_writes h

/-- The first argument is never written: at every boundary it holds its launch contents. -/
theorem W2_arg0 (c : Dev nD) : W2 m c main_arg0 = m ((c : Thread nD τ).loc main_arg0) :=
  (W2_of m c main_arg0 (by decide)).trans (W1_of m c main_arg0 (by decide))
theorem W4_arg0 (c : Dev nD) : W4 m c main_arg0 = m ((c : Thread nD τ).loc main_arg0) :=
  (W4_of m c main_arg0 (by decide)).trans ((W3_of m c main_arg0 (by decide)).trans (W2_arg0 m c))
theorem W6_arg0 (c : Dev nD) : W6 m c main_arg0 = m ((c : Thread nD τ).loc main_arg0) :=
  (W6_of m c main_arg0 (by decide)).trans ((W5_of m c main_arg0 (by decide)).trans (W4_arg0 m c))
/-- Nor is the second. -/
theorem W2_arg1 (c : Dev nD) : W2 m c main_arg1 = m ((c : Thread nD τ).loc main_arg1) :=
  (W2_of m c main_arg1 (by decide)).trans (W1_of m c main_arg1 (by decide))
theorem W4_arg1 (c : Dev nD) : W4 m c main_arg1 = m ((c : Thread nD τ).loc main_arg1) :=
  (W4_of m c main_arg1 (by decide)).trans ((W3_of m c main_arg1 (by decide)).trans (W2_arg1 m c))
theorem W6_arg1 (c : Dev nD) : W6 m c main_arg1 = m ((c : Thread nD τ).loc main_arg1) :=
  (W6_of m c main_arg1 (by decide)).trans ((W5_of m c main_arg1 (by decide)).trans (W4_arg1 m c))

/-! ## The proof data of the three calls, each at its region's entry contents -/

/-- No call has a prefetched table. -/
abbrev adm' : (p : Fin 3) → (pcfgs (F := F) p).Adm := fun p => (cfgs p).toPCfg_adm

/-- A literal match on the call, so that the launch theorem's configuration at a numeral reduces to the printed one. -/
def pdats : (p : Fin 3) → (c : Dev nD) → Dat τ (Elt F) Unit ℕ (UR sig nD τ) ℕ (Pipeline.pin (pcfgs (F := F)) adm' p) c
  | ⟨0, _⟩ => fun c => dat0 (atRef (W0 m)) c
  | ⟨1, _⟩ => fun c => dat1 (atRef (W2 m)) c
  | ⟨2, _⟩ => fun c => dat2 (atRef (W4 m)) c

/-! ## What every segment shares -/

/-- No core owes another anything: no level is assigned. -/
abbrev Lz : GSem nD τ sig → Finset Unit := fun _ => ∅
abbrev lvz : GSem nD τ sig → Unit → ℕ := fun _ _ => 0
/-- What rides beside the buffers through every item: the generator register at some state, and nothing owed. -/
abbrev Ride (c : Dev nD) : sProp 𝕄 := iprop((∃ r, prngReg c r) ∗ ∃ W, owes (c : Thread nD τ) (0 : CellTallies nD τ sig Unit) W)

end Cert.KernelIdeal.Tile

end
-- ==== Proof.KernelIdeal.Seg0.lean ====
/-
  Pallas_call 0 as a segment of the program over the thread state "every unscoped buffer at the boundary's contents,
  the generator register at some state, nothing owed". At entry the call's arrays are taken out of the unscoped
  buffers — one array read by both input windows, its full share dealt to them half and half, and the result array whole —, the rest bypasses the region; the accumulator cell and the other scoped buffers enter the
  invariant at whatever they hold (the first grid point zeroes the accumulator). At exit the arrays come back, the
  result array at what the write-backs left, every other buffer as it was.
-/
import proofs.«105586_j19189913878688_1_alg».proof.Proof.KernelIdeal.Fold
import Idealize.ShloMosaic.Lib.Pipeline.RegionsLoop

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-! ## The shares the arrays are held at -/

theorem share0_0 (c : Dev nD) : (dat0 V c).share 0 = fullShare.left := by
  unfold Dat.share; rw [if_neg (by decide)]; dsimp only [dat0]
theorem share0_1 (c : Dev nD) : (dat0 V c).share 1 = fullShare.right := by
  unfold Dat.share; rw [if_neg (by decide)]; dsimp only [dat0]
theorem share0_2 (c : Dev nD) : (dat0 V c).share 2 = fullShare := by
  unfold Dat.share; rw [if_pos (by decide)]
/-- Every window's array is a whole buffer. -/
theorem set0 (w : Fin cfg0.W) : (cfg0.win w).arr.view.set = Finset.univ := (arr_whole0 w).set_eq_univ
/-- The inputs' arrays are never written back. -/
theorem arrN0_0 (c : Dev nD) : (dat0 V c).arrAt 0 cfg0.N = V c (Pipeline.arrRef spec0 0) :=
  ((dat0 V c).arrAt_in 0 rfl _).trans (A_eq0 V c 0)
theorem arrN0_1 (c : Dev nD) : (dat0 V c).arrAt 1 cfg0.N = V c (Pipeline.arrRef spec0 1) :=
  ((dat0 V c).arrAt_in 1 rfl _).trans (A_eq0 V c 1)

/-! ## In and out of the unscoped buffers -/

/-- One array, read by both input windows: its full share is dealt to them half and half; the result array whole. -/
theorem arrs_in0 (c : Dev nD) :
    (Pipeline.arrBufs (Ix := Unit) (Name := ℕ) (U := UR sig nD τ) (Lvl := ℕ) spec0 c (V c) : sProp 𝕄) ⊢ (dat0 V c).arrays ((dat0 V c).arrAt · 0) := by
  unfold Pipeline.arrBufs Dat.arrays
  rw [show Finset.univ.image (Pipeline.arrRef spec0) = {main_arg0, main_v0} from by decide, bigSep_W0,
    bigSep_insert (by decide), bigSep_singleton]
  rw [share0_0, share0_1, share0_2, set0 0, set0 2]
  have ha : ∀ w, (dat0 V c).arrAt w 0 = V c (Pipeline.arrRef spec0 w) := fun w => A_eq0 V c w
  simp only [ha]
  show iprop((((c : Thread nD τ).loc main_arg0) ↦{fullShare} V c main_arg0) ∗ (((c : Thread nD τ).loc main_v0) ↦{fullShare} V c main_v0)) ⊢ _
  iintro ⟨Ha, Ho⟩
  ihave Hs := (pointsTo_share (PosShare.mem_left_op_right fullShare)).1 $$ Ha
  icases Hs with ⟨Hl, Hr⟩
  isplitl [Hl]; · iexact Hl
  isplitl [Hr]; · iexact Hr
  iexact Ho

/-- The halves joined again at exit, the result array at what the write-backs left. -/
theorem arrs_out0 (c : Dev nD) (U' : (b : Ref sig .tc) → Buf (Elt F) ((c : Thread nD τ).loc b))
    (hres : U' main_v0 = (dat0 V c).arrAt 2 cfg0.N) (hkeep : U' main_arg0 = V c main_arg0) :
    (dat0 V c).arrays ((dat0 V c).arrAt · cfg0.N) ⊢ (Pipeline.arrBufs (Ix := Unit) (Name := ℕ) (U := UR sig nD τ) (Lvl := ℕ) spec0 c U' : sProp 𝕄) := by
  unfold Pipeline.arrBufs Dat.arrays
  rw [show Finset.univ.image (Pipeline.arrRef spec0) = {main_arg0, main_v0} from by decide, bigSep_W0,
    bigSep_insert (by decide), bigSep_singleton]
  rw [share0_0, share0_1, share0_2, set0 0, set0 2]
  simp only [arrN0_0, arrN0_1]
  rw [hres, hkeep]
  show _ ⊢ iprop((((c : Thread nD τ).loc main_arg0) ↦{fullShare} V c main_arg0) ∗ (((c : Thread nD τ).loc main_v0) ↦{fullShare} (dat0 V c).arrAt 2 cfg0.N))
  iintro ⟨Hl, Hr, Ho⟩
  isplitl [Hl Hr]
  · iapply (pointsTo_share (PosShare.mem_left_op_right fullShare)).2
    isplitl [Hl]; · iexact Hl
    iexact Hr
  iexact Ho

/-- Off the call's arrays two valuations that agree there hold the same rest. -/
theorem rest0_congr (c : Dev nD) (U U' : (b : Ref sig .tc) → Buf (Elt F) ((c : Thread nD τ).loc b))
    (h : ∀ b, b ∉ Finset.univ.image (Pipeline.arrRef spec0) → U' b = U b) :
    (Pipeline.unscopedRest (Ix := Unit) (Name := ℕ) (U := UR sig nD τ) (Lvl := ℕ) spec0 c U' : sProp 𝕄)
      = Pipeline.unscopedRest spec0 c U := by
  unfold Pipeline.unscopedRest
  exact bigSep_congr fun b hb => by rw [h b (Finset.mem_sdiff.mp hb).2]

end Arrays

/-! ## The segment -/

variable (m : (ℓ : Loc nD τ sig) → Buf (Elt F) ℓ)

-- a library lemma stated over the pinned configuration unifies with the printed one only when unification may
-- unfold plain definitions in a metavariable's type
set_option backward.isDefEq.respectTransparency.types false in
/-- The call's segment: entered from the unscoped buffers at W0, left at W1. -/
def reg0 : Pipeline.RegionSeg (pcfgs (F := F)) adm' (pdats m) () defs₀ Variants.none Lz lvz 0 where
  win := winFacts₀0
  block_pos := block_pos0
  stage_whole := stage_whole0
  K := PEmpty
  osem k := k.elim
  ho := Pipeline.OwnSemFacts.none _
  hbody c := (body_obligation0 (atRef (W0 m)) c).loose
  hwaits := Pipeline.hwaits_of_owed_zero _ _ _ _ Lz lvz 0 fun _ _ => rfl
  pre c := iprop(StableHlo.held (c : Thread nD τ) (Pipeline.ucRefs τ sig) (W0 m c) ∗ Ride c)
  post c := iprop(StableHlo.held (c : Thread nD τ) (Pipeline.ucRefs τ sig) (W1 m c) ∗ Ride c)
  X c := iprop(∃ r, prngReg c r)
  Y c := iprop(∃ r, prngReg c r)
  Z c := Pipeline.unscopedRest (Ix := Unit) (Name := ℕ) (U := UR sig nD τ) (Lvl := ℕ) spec0 c (atRef (W0 m) c)
  hentry c := by
    rw [Pipeline.ownSems0_none]
    have hsplit : (StableHlo.held (c : Thread nD τ) (Pipeline.ucRefs τ sig) (W0 m c) : sProp 𝕄)
        ⊢ iprop((pdats m 0 c).arrays ((pdats m 0 c).arrAt · 0) ∗ Pipeline.unscopedRest spec0 c (atRef (W0 m) c)) := by
      rw [← Pipeline.unscopedBufs_held (Ix := Unit) (Name := ℕ) (U := UR sig nD τ) (Lvl := ℕ) c (W0 m c),
        Pipeline.unscopedBufs_split₀ cfgs 0 winFacts₀0.arr_unscoped c (atRef (W0 m) c)]
      exact BI.sep_mono (arrs_in0 (atRef (W0 m)) c) (BI.Entails.refl _)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Phi0 (atRef (W0 m)) c 0 from rfl,
      show (Pipeline.scopedRest (Ix := Unit) (Name := ℕ) (U := UR sig nD τ) (Lvl := ℕ) (Val := Elt F) (Pipeline.pin (pcfgs (F := F)) adm' 0).spec c : sProp 𝕄) = Pipeline.scopedRest spec0 c from rfl,
      scopedRest0_split]; unfold Phi0
    iintro ⟨Hp, -, ⟨%f, HS⟩, Hr⟩
    isplitl [HS]
    · iexists f; isplitr; · ipureintro; exact fun k _ e => absurd e (Nat.succ_ne_zero k).symm
      iexact HS
    isplitl [Hr]; · iexact Hr
    iexact Hp
  hout c := by
    rw [Pipeline.ownSems0_none, show (pdats m 0 c).Φ (Fin.last _) = Phi0 (atRef (W0 m)) c cfg0.N from rfl,
      show (Pipeline.scopedRest (Ix := Unit) (Name := ℕ) (U := UR sig nD τ) (Lvl := ℕ) (Val := Elt F) (Pipeline.pin (pcfgs (F := F)) adm' 0).spec c : sProp 𝕄) = Pipeline.scopedRest spec0 c from rfl,
      scopedRest0_split]; unfold Phi0
    iintro ⟨⟨%f, -, HS⟩, Hr, Hp⟩
    isplitl [Hp]; · iexact Hp
    isplitr; · iempintro
    isplitl [HS]; · iexists f; iexact HS
    iexact Hr
  hexit c := by
    have hjoin : iprop((pdats m 0 c).arrays ((pdats m 0 c).arrAt · cfg0.N) ∗ Pipeline.unscopedRest spec0 c (atRef (W0 m) c))
        ⊢ (StableHlo.held (c : Thread nD τ) (Pipeline.ucRefs τ sig) (W1 m c) : sProp 𝕄) := by
      rw [← Pipeline.unscopedBufs_held (Ix := Unit) (Name := ℕ) (U := UR sig nD τ) (Lvl := ℕ) c (W1 m c),
        Pipeline.unscopedBufs_split₀ cfgs 0 winFacts₀0.arr_unscoped c (atRef (W1 m) c)]
      exact BI.sep_mono (arrs_out0 (atRef (W0 m)) c (atRef (W1 m) c) (W1_res m c)
        (W1_of m c main_arg0 (by decide)))
        (Entails.of_eq (rest0_congr c (atRef (W0 m) c) (atRef (W1 m) c) (fun b hb => W1_of m c b (fun e => hb (e ▸ by decide)))).symm)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Tile

end
-- ==== Proof.KernelIdeal.Seg1.lean ====
/-
  Pallas_call 1 as a segment of the program over the thread state "every unscoped buffer at the boundary's contents,
  the generator register at some state, nothing owed". At entry the call's arrays are taken out of the unscoped
  buffers — one array read by both input windows, its full share dealt to them half and half, and the result array whole —, the rest bypasses the region; the accumulator cell and the other scoped buffers enter the
  invariant at whatever they hold (the first grid point zeroes the accumulator). At exit the arrays come back, the
  result array at what the write-backs left, every other buffer as it was.
-/
import proofs.«105586_j19189913878688_1_alg».proof.Proof.KernelIdeal.Fold
import Idealize.ShloMosaic.Lib.Pipeline.RegionsLoop

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-! ## The shares the arrays are held at -/

theorem share1_0 (c : Dev nD) : (dat1 V c).share 0 = fullShare.left := by
  unfold Dat.share; rw [if_neg (by decide)]; dsimp only [dat1]
theorem share1_1 (c : Dev nD) : (dat1 V c).share 1 = fullShare.right := by
  unfold Dat.share; rw [if_neg (by decide)]; dsimp only [dat1]
theorem share1_2 (c : Dev nD) : (dat1 V c).share 2 = fullShare := by
  unfold Dat.share; rw [if_pos (by decide)]
/-- Every window's array is a whole buffer. -/
theorem set1 (w : Fin cfg1.W) : (cfg1.win w).arr.view.set = Finset.univ := (arr_whole1 w).set_eq_univ
/-- The inputs' arrays are never written back. -/
theorem arrN1_0 (c : Dev nD) : (dat1 V c).arrAt 0 cfg1.N = V c (Pipeline.arrRef spec1 0) :=
  ((dat1 V c).arrAt_in 0 rfl _).trans (A_eq1 V c 0)
theorem arrN1_1 (c : Dev nD) : (dat1 V c).arrAt 1 cfg1.N = V c (Pipeline.arrRef spec1 1) :=
  ((dat1 V c).arrAt_in 1 rfl _).trans (A_eq1 V c 1)

/-! ## In and out of the unscoped buffers -/

/-- One array, read by both input windows: its full share is dealt to them half and half; the result array whole. -/
theorem arrs_in1 (c : Dev nD) :
    (Pipeline.arrBufs (Ix := Unit) (Name := ℕ) (U := UR sig nD τ) (Lvl := ℕ) spec1 c (V c) : sProp 𝕄) ⊢ (dat1 V c).arrays ((dat1 V c).arrAt · 0) := by
  unfold Pipeline.arrBufs Dat.arrays
  rw [show Finset.univ.image (Pipeline.arrRef spec1) = {main_arg1, main_v2} from by decide, bigSep_W1,
    bigSep_insert (by decide), bigSep_singleton]
  rw [share1_0, share1_1, share1_2, set1 0, set1 2]
  have ha : ∀ w, (dat1 V c).arrAt w 0 = V c (Pipeline.arrRef spec1 w) := fun w => A_eq1 V c w
  simp only [ha]
  show iprop((((c : Thread nD τ).loc main_arg1) ↦{fullShare} V c main_arg1) ∗ (((c : Thread nD τ).loc main_v2) ↦{fullShare} V c main_v2)) ⊢ _
  iintro ⟨Ha, Ho⟩
  ihave Hs := (pointsTo_share (PosShare.mem_left_op_right fullShare)).1 $$ Ha
  icases Hs with ⟨Hl, Hr⟩
  isplitl [Hl]; · iexact Hl
  isplitl [Hr]; · iexact Hr
  iexact Ho

/-- The halves joined again at exit, the result array at what the write-backs left. -/
theorem arrs_out1 (c : Dev nD) (U' : (b : Ref sig .tc) → Buf (Elt F) ((c : Thread nD τ).loc b))
    (hres : U' main_v2 = (dat1 V c).arrAt 2 cfg1.N) (hkeep : U' main_arg1 = V c main_arg1) :
    (dat1 V c).arrays ((dat1 V c).arrAt · cfg1.N) ⊢ (Pipeline.arrBufs (Ix := Unit) (Name := ℕ) (U := UR sig nD τ) (Lvl := ℕ) spec1 c U' : sProp 𝕄) := by
  unfold Pipeline.arrBufs Dat.arrays
  rw [show Finset.univ.image (Pipeline.arrRef spec1) = {main_arg1, main_v2} from by decide, bigSep_W1,
    bigSep_insert (by decide), bigSep_singleton]
  rw [share1_0, share1_1, share1_2, set1 0, set1 2]
  simp only [arrN1_0, arrN1_1]
  rw [hres, hkeep]
  show _ ⊢ iprop((((c : Thread nD τ).loc main_arg1) ↦{fullShare} V c main_arg1) ∗ (((c : Thread nD τ).loc main_v2) ↦{fullShare} (dat1 V c).arrAt 2 cfg1.N))
  iintro ⟨Hl, Hr, Ho⟩
  isplitl [Hl Hr]
  · iapply (pointsTo_share (PosShare.mem_left_op_right fullShare)).2
    isplitl [Hl]; · iexact Hl
    iexact Hr
  iexact Ho

/-- Off the call's arrays two valuations that agree there hold the same rest. -/
theorem rest1_congr (c : Dev nD) (U U' : (b : Ref sig .tc) → Buf (Elt F) ((c : Thread nD τ).loc b))
    (h : ∀ b, b ∉ Finset.univ.image (Pipeline.arrRef spec1) → U' b = U b) :
    (Pipeline.unscopedRest (Ix := Unit) (Name := ℕ) (U := UR sig nD τ) (Lvl := ℕ) spec1 c U' : sProp 𝕄)
      = Pipeline.unscopedRest spec1 c U := by
  unfold Pipeline.unscopedRest
  exact bigSep_congr fun b hb => by rw [h b (Finset.mem_sdiff.mp hb).2]

end Arrays

/-! ## The segment -/

variable (m : (ℓ : Loc nD τ sig) → Buf (Elt F) ℓ)

-- a library lemma stated over the pinned configuration unifies with the printed one only when unification may
-- unfold plain definitions in a metavariable's type
set_option backward.isDefEq.respectTransparency.types false in
/-- The call's segment: entered from the unscoped buffers at W2, left at W3. -/
def reg1 : Pipeline.RegionSeg (pcfgs (F := F)) adm' (pdats m) () defs₀ Variants.none Lz lvz 1 where
  win := winFacts₀1
  block_pos := block_pos1
  stage_whole := stage_whole1
  K := PEmpty
  osem k := k.elim
  ho := Pipeline.OwnSemFacts.none _
  hbody c := (body_obligation1 (atRef (W2 m)) c).loose
  hwaits := Pipeline.hwaits_of_owed_zero _ _ _ _ Lz lvz 1 fun _ _ => rfl
  pre c := iprop(StableHlo.held (c : Thread nD τ) (Pipeline.ucRefs τ sig) (W2 m c) ∗ Ride c)
  post c := iprop(StableHlo.held (c : Thread nD τ) (Pipeline.ucRefs τ sig) (W3 m c) ∗ Ride c)
  X c := iprop(∃ r, prngReg c r)
  Y c := iprop(∃ r, prngReg c r)
  Z c := Pipeline.unscopedRest (Ix := Unit) (Name := ℕ) (U := UR sig nD τ) (Lvl := ℕ) spec1 c (atRef (W2 m) c)
  hentry c := by
    rw [Pipeline.ownSems0_none]
    have hsplit : (StableHlo.held (c : Thread nD τ) (Pipeline.ucRefs τ sig) (W2 m c) : sProp 𝕄)
        ⊢ iprop((pdats m 1 c).arrays ((pdats m 1 c).arrAt · 0) ∗ Pipeline.unscopedRest spec1 c (atRef (W2 m) c)) := by
      rw [← Pipeline.unscopedBufs_held (Ix := Unit) (Name := ℕ) (U := UR sig nD τ) (Lvl := ℕ) c (W2 m c),
        Pipeline.unscopedBufs_split₀ cfgs 1 winFacts₀1.arr_unscoped c (atRef (W2 m) c)]
      exact BI.sep_mono (arrs_in1 (atRef (W2 m)) c) (BI.Entails.refl _)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (atRef (W2 m)) c 0 from rfl,
      show (Pipeline.scopedRest (Ix := Unit) (Name := ℕ) (U := UR sig nD τ) (Lvl := ℕ) (Val := Elt F) (Pipeline.pin (pcfgs (F := F)) adm' 1).spec c : sProp 𝕄) = Pipeline.scopedRest spec1 c from rfl,
      scopedRest1_split]; unfold Phi1
    iintro ⟨Hp, -, ⟨%f, HS⟩, Hr⟩
    isplitl [HS]
    · iexists f; isplitr; · ipureintro; exact fun k _ e => absurd e (Nat.succ_ne_zero k).symm
      iexact HS
    isplitl [Hr]; · iexact Hr
    iexact Hp
  hout c := by
    rw [Pipeline.ownSems0_none, show (pdats m 1 c).Φ (Fin.last _) = Phi1 (atRef (W2 m)) c cfg1.N from rfl,
      show (Pipeline.scopedRest (Ix := Unit) (Name := ℕ) (U := UR sig nD τ) (Lvl := ℕ) (Val := Elt F) (Pipeline.pin (pcfgs (F := F)) adm' 1).spec c : sProp 𝕄) = Pipeline.scopedRest spec1 c from rfl,
      scopedRest1_split]; unfold Phi1
    iintro ⟨⟨%f, -, HS⟩, Hr, Hp⟩
    isplitl [Hp]; · iexact Hp
    isplitr; · iempintro
    isplitl [HS]; · iexists f; iexact HS
    iexact Hr
  hexit c := by
    have hjoin : iprop((pdats m 1 c).arrays ((pdats m 1 c).arrAt · cfg1.N) ∗ Pipeline.unscopedRest spec1 c (atRef (W2 m) c))
        ⊢ (StableHlo.held (c : Thread nD τ) (Pipeline.ucRefs τ sig) (W3 m c) : sProp 𝕄) := by
      rw [← Pipeline.unscopedBufs_held (Ix := Unit) (Name := ℕ) (U := UR sig nD τ) (Lvl := ℕ) c (W3 m c),
        Pipeline.unscopedBufs_split₀ cfgs 1 winFacts₀1.arr_unscoped c (atRef (W3 m) c)]
      exact BI.sep_mono (arrs_out1 (atRef (W2 m)) c (atRef (W3 m) c) (W3_res m c)
        (W3_of m c main_arg1 (by decide)))
        (Entails.of_eq (rest1_congr c (atRef (W2 m) c) (atRef (W3 m) c) (fun b hb => W3_of m c b (fun e => hb (e ▸ by decide)))).symm)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Tile

end
-- ==== Proof.KernelIdeal.Seg2.lean ====
/-
  Pallas_call 2 as a segment of the program over the thread state "every unscoped buffer at the boundary's contents,
  the generator register at some state, nothing owed". At entry the call's arrays are taken out of the unscoped
  buffers — the two argument arrays and the result array, each whole —, the rest bypasses the region; the accumulator cell and the other scoped buffers enter the
  invariant at whatever they hold (the first grid point zeroes the accumulator). At exit the arrays come back, the
  result array at what the write-backs left, every other buffer as it was.
-/
import proofs.«105586_j19189913878688_1_alg».proof.Proof.KernelIdeal.Fold
import Idealize.ShloMosaic.Lib.Pipeline.RegionsLoop

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-! ## The shares the arrays are held at -/

theorem share2_0 (c : Dev nD) : (dat2 V c).share 0 = fullShare := by
  unfold Dat.share; rw [if_neg (by decide)]; dsimp only [dat2]
theorem share2_1 (c : Dev nD) : (dat2 V c).share 1 = fullShare := by
  unfold Dat.share; rw [if_neg (by decide)]; dsimp only [dat2]
theorem share2_2 (c : Dev nD) : (dat2 V c).share 2 = fullShare := by
  unfold Dat.share; rw [if_pos (by decide)]
/-- Every window's array is a whole buffer. -/
theorem set2 (w : Fin cfg2.W) : (cfg2.win w).arr.view.set = Finset.univ := (arr_whole2 w).set_eq_univ
/-- The inputs' arrays are never written back. -/
theorem arrN2_0 (c : Dev nD) : (dat2 V c).arrAt 0 cfg2.N = V c (Pipeline.arrRef spec2 0) :=
  ((dat2 V c).arrAt_in 0 rfl _).trans (A_eq2 V c 0)
theorem arrN2_1 (c : Dev nD) : (dat2 V c).arrAt 1 cfg2.N = V c (Pipeline.arrRef spec2 1) :=
  ((dat2 V c).arrAt_in 1 rfl _).trans (A_eq2 V c 1)

/-! ## In and out of the unscoped buffers -/

/-- Three distinct arrays, each held whole. -/
theorem arrs_in2 (c : Dev nD) :
    (Pipeline.arrBufs (Ix := Unit) (Name := ℕ) (U := UR sig nD τ) (Lvl := ℕ) spec2 c (V c) : sProp 𝕄) ⊢ (dat2 V c).arrays ((dat2 V c).arrAt · 0) := by
  unfold Pipeline.arrBufs Dat.arrays
  rw [show Finset.univ.image (Pipeline.arrRef spec2) = {main_arg0, main_arg1, main_v4} from by decide, bigSep_W2,
    bigSep_insert (by decide), bigSep_insert (by decide), bigSep_singleton]
  rw [share2_0, share2_1, share2_2, set2 0, set2 1, set2 2]
  have ha : ∀ w, (dat2 V c).arrAt w 0 = V c (Pipeline.arrRef spec2 w) := fun w => A_eq2 V c w
  simp only [ha]
  show iprop((((c : Thread nD τ).loc main_arg0) ↦{fullShare} V c main_arg0) ∗ (((c : Thread nD τ).loc main_arg1) ↦{fullShare} V c main_arg1) ∗ (((c : Thread nD τ).loc main_v4) ↦{fullShare} V c main_v4)) ⊢ _
  iintro ⟨Ha, Hb, Ho⟩
  isplitl [Ha]; · iexact Ha
  isplitl [Hb]; · iexact Hb
  iexact Ho

/-- At exit the result array holds what the write-backs left; the inputs are as entered. -/
theorem arrs_out2 (c : Dev nD) (U' : (b : Ref sig .tc) → Buf (Elt F) ((c : Thread nD τ).loc b))
    (hres : U' main_v4 = (dat2 V c).arrAt 2 cfg2.N) (hkeepA : U' main_arg0 = V c main_arg0) (hkeepB : U' main_arg1 = V c main_arg1) :
    (dat2 V c).arrays ((dat2 V c).arrAt · cfg2.N) ⊢ (Pipeline.arrBufs (Ix := Unit) (Name := ℕ) (U := UR sig nD τ) (Lvl := ℕ) spec2 c U' : sProp 𝕄) := by
  unfold Pipeline.arrBufs Dat.arrays
  rw [show Finset.univ.image (Pipeline.arrRef spec2) = {main_arg0, main_arg1, main_v4} from by decide, bigSep_W2,
    bigSep_insert (by decide), bigSep_insert (by decide), bigSep_singleton]
  rw [share2_0, share2_1, share2_2, set2 0, set2 1, set2 2]
  simp only [arrN2_0, arrN2_1]
  rw [hres, hkeepA, hkeepB]
  show _ ⊢ iprop((((c : Thread nD τ).loc main_arg0) ↦{fullShare} V c main_arg0) ∗ (((c : Thread nD τ).loc main_arg1) ↦{fullShare} V c main_arg1) ∗ (((c : Thread nD τ).loc main_v4) ↦{fullShare} (dat2 V c).arrAt 2 cfg2.N))
  iintro ⟨Ha, Hb, Ho⟩
  isplitl [Ha]; · iexact Ha
  isplitl [Hb]; · iexact Hb
  iexact Ho

/-- Off the call's arrays two valuations that agree there hold the same rest. -/
theorem rest2_congr (c : Dev nD) (U U' : (b : Ref sig .tc) → Buf (Elt F) ((c : Thread nD τ).loc b))
    (h : ∀ b, b ∉ Finset.univ.image (Pipeline.arrRef spec2) → U' b = U b) :
    (Pipeline.unscopedRest (Ix := Unit) (Name := ℕ) (U := UR sig nD τ) (Lvl := ℕ) spec2 c U' : sProp 𝕄)
      = Pipeline.unscopedRest spec2 c U := by
  unfold Pipeline.unscopedRest
  exact bigSep_congr fun b hb => by rw [h b (Finset.mem_sdiff.mp hb).2]

end Arrays

/-! ## The segment -/

variable (m : (ℓ : Loc nD τ sig) → Buf (Elt F) ℓ)

-- a library lemma stated over the pinned configuration unifies with the printed one only when unification may
-- unfold plain definitions in a metavariable's type
set_option backward.isDefEq.respectTransparency.types false in
/-- The call's segment: entered from the unscoped buffers at W4, left at W5. -/
def reg2 : Pipeline.RegionSeg (pcfgs (F := F)) adm' (pdats m) () defs₀ Variants.none Lz lvz 2 where
  win := winFacts2.to₀
  block_pos := block_pos2
  stage_whole := stage_whole2
  K := PEmpty
  osem k := k.elim
  ho := Pipeline.OwnSemFacts.none _
  hbody c := (body_obligation2 (atRef (W4 m)) c).loose
  hwaits := Pipeline.hwaits_of_owed_zero _ _ _ _ Lz lvz 2 fun _ _ => rfl
  pre c := iprop(StableHlo.held (c : Thread nD τ) (Pipeline.ucRefs τ sig) (W4 m c) ∗ Ride c)
  post c := iprop(StableHlo.held (c : Thread nD τ) (Pipeline.ucRefs τ sig) (W5 m c) ∗ Ride c)
  X c := iprop(∃ r, prngReg c r)
  Y c := iprop(∃ r, prngReg c r)
  Z c := Pipeline.unscopedRest (Ix := Unit) (Name := ℕ) (U := UR sig nD τ) (Lvl := ℕ) spec2 c (atRef (W4 m) c)
  hentry c := by
    rw [Pipeline.ownSems0_none]
    have hsplit : (StableHlo.held (c : Thread nD τ) (Pipeline.ucRefs τ sig) (W4 m c) : sProp 𝕄)
        ⊢ iprop((pdats m 2 c).arrays ((pdats m 2 c).arrAt · 0) ∗ Pipeline.unscopedRest spec2 c (atRef (W4 m) c)) := by
      rw [← Pipeline.unscopedBufs_held (Ix := Unit) (Name := ℕ) (U := UR sig nD τ) (Lvl := ℕ) c (W4 m c),
        Pipeline.unscopedBufs_split₀ cfgs 2 winFacts2.arr_unscoped c (atRef (W4 m) c)]
      exact BI.sep_mono (arrs_in2 (atRef (W4 m)) c) (BI.Entails.refl _)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Phi2 (atRef (W4 m)) c 0 from rfl,
      show (Pipeline.scopedRest (Ix := Unit) (Name := ℕ) (U := UR sig nD τ) (Lvl := ℕ) (Val := Elt F) (Pipeline.pin (pcfgs (F := F)) adm' 2).spec c : sProp 𝕄) = Pipeline.scopedRest spec2 c from rfl,
      scopedRest2_split]; unfold Phi2
    iintro ⟨Hp, -, ⟨%f, HS⟩, Hr⟩
    isplitl [HS]
    · iexists f; isplitr; · ipureintro; exact fun k _ e => absurd e (Nat.succ_ne_zero k).symm
      iexact HS
    isplitl [Hr]; · iexact Hr
    iexact Hp
  hout c := by
    rw [Pipeline.ownSems0_none, show (pdats m 2 c).Φ (Fin.last _) = Phi2 (atRef (W4 m)) c cfg2.N from rfl,
      show (Pipeline.scopedRest (Ix := Unit) (Name := ℕ) (U := UR sig nD τ) (Lvl := ℕ) (Val := Elt F) (Pipeline.pin (pcfgs (F := F)) adm' 2).spec c : sProp 𝕄) = Pipeline.scopedRest spec2 c from rfl,
      scopedRest2_split]; unfold Phi2
    iintro ⟨⟨%f, -, HS⟩, Hr, Hp⟩
    isplitl [Hp]; · iexact Hp
    isplitr; · iempintro
    isplitl [HS]; · iexists f; iexact HS
    iexact Hr
  hexit c := by
    have hjoin : iprop((pdats m 2 c).arrays ((pdats m 2 c).arrAt · cfg2.N) ∗ Pipeline.unscopedRest spec2 c (atRef (W4 m) c))
        ⊢ (StableHlo.held (c : Thread nD τ) (Pipeline.ucRefs τ sig) (W5 m c) : sProp 𝕄) := by
      rw [← Pipeline.unscopedBufs_held (Ix := Unit) (Name := ℕ) (U := UR sig nD τ) (Lvl := ℕ) c (W5 m c),
        Pipeline.unscopedBufs_split₀ cfgs 2 winFacts2.arr_unscoped c (atRef (W5 m) c)]
      exact BI.sep_mono (arrs_out2 (atRef (W4 m)) c (atRef (W5 m) c) (W5_res m c)
        (W5_of m c main_arg0 (by decide)) (W5_of m c main_arg1 (by decide)))
        (Entails.of_eq (rest2_congr c (atRef (W4 m) c) (atRef (W5 m) c) (fun b hb => W5_of m c b (fun e => hb (e ▸ by decide)))).symm)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Tile

end
-- ==== Proof.KernelIdeal.Run.lean ====
/-
  The whole program run once: its six items in order — the three pairwise-sum calls, each followed by a stretch of
  host operations — composed by the library's launch for a program of several kernel regions. Every weakly fair
  execution from a memory with zero counters terminates, nothing faulting, and the final memory holds every
  unscoped buffer at the last boundary's contents: in particular the result at what the last host stretch
  computes from the three calls' results, and both argument arrays as launched.
-/
import proofs.«105586_j19189913878688_1_alg».proof.Proof.KernelIdeal.Seg0
import proofs.«105586_j19189913878688_1_alg».proof.Proof.KernelIdeal.Seg1
import proofs.«105586_j19189913878688_1_alg».proof.Proof.KernelIdeal.Seg2

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A stretch of host operations as a segment: the unscoped buffers go from `W` to the operations applied to `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

/-- The program's six items. -/
abbrev items : List (Pipeline.Seg (pcfgs (F := F)) adm' (pdats m) () defs₀ Variants.none Lz lvz) :=
  [ .region (reg0 m),
    .host (hostSeg hostOps1 hostOps1_sub hostOps1_fresh (W1 m)),
    .region (reg1 m),
    .host (hostSeg hostOps2 hostOps2_sub hostOps2_fresh (W3 m)),
    .region (reg2 m),
    .host (hostSeg hostOps3 hostOps3_sub hostOps3_fresh (W5 m)) ]

/-- The program is the run of its items. -/
theorem main_items (c : Dev nD) : main (F := F) c = Pipeline.Seg.run (items m) := (main_chain c).trans (by chain_rfl)

/-- An unscoped TensorCore reference is among those the thread state holds. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: termination, no fault, and the final memory at the last boundary's contents — the result, and the two
    arguments unchanged. -/
theorem run_all : θ_run defs (onTc (τ := τ) (main (F := F))) ⟨m, fun _ => 0, ρ⟩ (fun r => ∀ c : Dev nD,
      r.2.mem ((c.tc : Thread nD τ).loc main_v11) = W6 m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm' (pdats m) () cellOf_inj emb₁ defs₀ Variants.none Lz lvz m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ Ride c) ⊢ _
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨h c _ (mem_held main_v11 (by decide)),
       (h c _ (mem_held main_arg0 (by decide))).trans (W6_arg0 m c),
       (h c _ (mem_held main_arg1 (by decide))).trans (W6_arg1 m c)⟩)

end Cert.KernelIdeal.Tile

end
-- ==== Proof.Spec.lean ====
/-
  What both programs compute, on the extended reals. For rows x, y of 256 entries,
      d²(x, y) = max((Σ_k x_k² + Σ_k y_k²) − 2 · Σ_k x_k y_k, 0),
      e(x, y)  = exp(−1 · (if d² > 0 then sqrt(if d² > 0 then d² else 1) else 0)),
  the Gaussian-type kernel exp(−‖x − y‖) with the distance taken through a guarded square root. For arrays X, Y of
  8192 rows, S(X, Y) = Σ_P Σ_Q e(X_P, Y_Q), and the statistic is
      S(X, X) / 2²⁶ + S(Y, Y) / 2²⁶ − 2 · (S(X, Y) / 2²⁶).
  The float literals stay as their words (0, 1, 2, −1 and 2²⁶ = 0x4C800000): the same word stands on both sides and is
  never evaluated.
-/
import Idealize.ShloMosaic.PureOps.Ideal
import Idealize.ShloMosaic.Lib.ValueIdx

noncomputable section

namespace Cert.Mmd

open Idealize.ShloMosaic Idealize.ShloMosaic.ValueIdx

/-- The squared distance of two rows as the programs form it, clamped at zero. -/
def sqd (x y : Fin 256 → EReal) : EReal :=
  max ((∑ k, x k * x k + ∑ k, y k * y k) - Ideal.ofBits .f32 0x40000000#32 * ∑ k, x k * y k) (Ideal.ofBits .f32 0x00000000#32)

/-- exp(−distance), the distance by a square root guarded against a zero argument. -/
def pairE (x y : Fin 256 → EReal) : EReal :=
  Ideal.exp (Ideal.ofBits .f32 0xBF800000#32 *
    Scalar.select (Ideal.cmp .ogt (sqd x y) (Ideal.ofBits .f32 0x00000000#32))
      (Ideal.sqrt (Scalar.select (Ideal.cmp .ogt (sqd x y) (Ideal.ofBits .f32 0x00000000#32)) (sqd x y) (Ideal.ofBits .f32 0x3F800000#32)))
      (Ideal.ofBits .f32 0x00000000#32))

/-- Row P of an array of 8192 rows of 256. -/
def row (X : (⟨2, ![8192, 256]⟩ : Shape).Idx → EReal) (P : Fin 8192) : Fin 256 → EReal := fun k => X (ix2 P k)

/-- The sum of e over all pairs of rows. -/
def total (X Y : (⟨2, ![8192, 256]⟩ : Shape).Idx → EReal) : EReal :=
  ∑ P : Fin 8192, ∑ Q : Fin 8192, pairE (row X P) (row Y Q)

/-- The statistic: the two self-sums' means plus, minus twice the cross mean. -/
def mmd (X Y : (⟨2, ![8192, 256]⟩ : Shape).Idx → EReal) : EReal :=
  (Ideal.div (total X X) (Ideal.ofBits .f32 0x4C800000#32) + Ideal.div (total Y Y) (Ideal.ofBits .f32 0x4C800000#32))
    - Ideal.ofBits .f32 0x40000000#32 * Ideal.div (total X Y) (Ideal.ofBits .f32 0x4C800000#32)

end Cert.Mmd

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KernelIdeal.TileSum.lean ====
/-
  One tile's payloads on the extended reals, read at an index.

  For two tiles a, b of 512 rows of 256 entries the tile's sum is the double sum, over rows p of a and q of b, of
  exp(−distance(a_p, b_q)): the distance's square is formed as (Σ_k a_pk² + Σ_k b_qk²) − 2 · Σ_k a_pk b_qk, clamped at
  zero, and its root is guarded against a zero argument. The accumulator's update adds that sum to the value held, and
  the reset value is zero. The three calls run one and the same computation.
-/
import proofs.«105586_j19189913878688_1_alg».proof.Proof.Gen.KernelIdeal.Skeleton
import proofs.«105586_j19189913878688_1_alg».proof.Proof.Spec
import proofs.«105586_j19189913878688_1_alg».proof.Proof.LibMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileValue

open Cert.KernelIdeal Cert.KernelIdeal.Gen Idealize.ShloMosaic Idealize.ShloMosaic.ValueIdx

/-! ## Column layouts read at an index -/

section Layout
variable {α : Type}

/-- A vector of a entries cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Sums along one axis -/

/-- The sum along the rows of an [a, b] array reads, at p, the sum over k of the array at (p, k). -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext c
  refine Fin.ext ?_
  match c with
  | ⟨0, _⟩ => rfl
  | ⟨1, _⟩ => rfl

/-- The sum down the one column of an [a, 1] array reads the sum over p of the array at (p, 0). -/
theorem colSum_apply {a : ℕ} (src : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ) (u : Fin 1) :
    multiReduction (F := Ideal) .add [0] ⟨1, ![1]⟩ src 0x00000000#32 h hφ hacc (ix1 u) = ∑ p : Fin a, src (ix2 p (0 : Fin 1)) := by
  refine (Ideal.multiReduction_add_single src 0x00000000#32 h hφ hacc (ix1 u)).trans ?_
  refine Finset.sum_congr rfl fun k _ => congrArg src ?_
  funext c
  refine Fin.ext ?_
  have hu : u.val = 0 := by omega
  match c with
  | ⟨0, _⟩ => rfl
  | ⟨1, _⟩ => exact hu

/-! ## From the clamped squared distance to exp(−distance), at one entry -/

/-- exp(−distance) from the clamped squared distance d: the root is taken of d where d is above zero and of one
    elsewhere, and the distance is that root where d is above zero and zero elsewhere. -/
def expNegRoot (d : EReal) : EReal :=
  Ideal.exp (Ideal.ofBits .f32 0xBF800000#32 *
    Scalar.select (Ideal.cmp .ogt d (Ideal.ofBits .f32 0x00000000#32))
      (Ideal.sqrt (Scalar.select (Ideal.cmp .ogt d (Ideal.ofBits .f32 0x00000000#32)) d (Ideal.ofBits .f32 0x3F800000#32)))
      (Ideal.ofBits .f32 0x00000000#32))

/-- The specification's exp(−distance) of two rows is that function of their clamped squared distance. -/
theorem pairE_eq (x y : Fin 256 → EReal) : Cert.Mmd.pairE x y = expNegRoot (Cert.Mmd.sqd x y) := rfl

/-- The entrywise chain compare, select one, root, select zero, negate, exponential, read at an entry. -/
theorem expNegRoot_apply {s : Shape} (d : FVec Ideal s .f32) (i : s.Idx) :
    exp (mulf (broadcast s (Scalar.ofBits (F := Ideal) .f32 0xBF800000#32))
      (select (cmpf .ogt d (broadcast s (Scalar.ofBits (F := Ideal) .f32 0x00000000#32)))
        (sqrt (select (cmpf .ogt d (broadcast s (Scalar.ofBits (F := Ideal) .f32 0x00000000#32))) d
          (broadcast s (Scalar.ofBits (F := Ideal) .f32 0x3F800000#32))))
        (broadcast s (Scalar.ofBits (F := Ideal) .f32 0x00000000#32)))) i = expNegRoot (d i) := rfl

/-! ## The tile's sum -/

/-- One tile's sum: over all pairs (row p of a, row q of b) of exp(−distance). -/
theorem pay3_eq (a b : Vec Ideal S512x256 .f32) :
    k0_pay3 (F := Ideal) a b
      = fun _ => ∑ p : Fin 512, ∑ q : Fin 512, Cert.Mmd.pairE (fun k => a (ix2 p k)) (fun k => b (ix2 q k)) := by
  funext j
  obtain ⟨u, w, rfl⟩ : ∃ (u : Fin 1) (w : Fin 1), j = ix2 u w := ⟨j 0, j 1, eq_ix2 j⟩
  unfold k0_pay3
  refine (shapeCast_a_1a_apply _ _ u w).trans ?_
  refine (colSum_apply _ _ _ _ w).trans ?_
  refine Finset.sum_congr rfl fun p _ => ?_
  refine (shapeCast_a_a1_apply _ _ p 0).trans ?_
  refine (rowSum_apply _ _ _ _ p).trans ?_
  refine Finset.sum_congr rfl fun q _ => ?_
  refine (expNegRoot_apply _ (ix2 p q)).trans ((congrArg expNegRoot ?_).trans (pairE_eq _ _).symm)
  -- the clamped squared distance at (p, q)
  refine (maximumf_apply _ _ _).trans ?_
  unfold Cert.Mmd.sqd
  refine congrArg₂ max ?_ rfl
  refine (subf_apply _ _ _).trans ?_
  refine congrArg₂ (· - ·) ?_ ?_
  · refine (addf_apply _ _ _).trans (congrArg₂ (· + ·) ?_ ?_)
    · refine (broadcastTo_a1_ab_apply _ _ p q).trans ?_
      refine (shapeCast_a_a1_apply _ _ p 0).trans ?_
      exact rowSum_apply _ _ _ _ p
    · refine (broadcastTo_1b_ab_apply _ _ p q).trans ?_
      refine (transpose_ix2_apply _ _ (0 : Fin 1) q).trans ?_
      refine (shapeCast_a_a1_apply _ _ q 0).trans ?_
      exact rowSum_apply _ _ _ _ q
  · refine (mulf_apply _ _ _).trans (congrArg₂ (· * ·) rfl ?_)
    refine (Cert.Matmul.matmul_plain_apply (some .fp32) a _ p q).trans ?_
    exact Finset.sum_congr rfl fun k _ => congrArg (a (ix2 p k) * ·) (transpose_ix2_apply b _ k q)

/-! ## The accumulator's update and the reset value -/

/-- The accumulator's update adds the tile's sum. -/
theorem pay1_eq (s : FVec Ideal S1x1 .f32) (x : Vec Ideal S1x1x1 .f32) :
    k0_pay1 (F := Ideal) s x = fun _ => x (ix3 (0 : Fin 1) (0 : Fin 1) (0 : Fin 1)) + s (ix2 (0 : Fin 1) (0 : Fin 1)) := by
  unfold k0_pay1
  refine (shapeCast_self _ _).trans ?_
  funext i
  obtain ⟨u, v, w, rfl⟩ : ∃ (u v w : Fin 1), i = ix3 u v w := ⟨i 0, i 1, i 2, eq_ix3 i⟩
  obtain rfl : u = 0 := Subsingleton.elim _ _
  obtain rfl : v = 0 := Subsingleton.elim _ _
  obtain rfl : w = 0 := Subsingleton.elim _ _
  refine (addf_apply _ _ _).trans ?_
  exact congrArg (x (ix3 (0 : Fin 1) (0 : Fin 1) (0 : Fin 1)) + ·) (shapeCast_ab_1ab_apply s _ 0 0 0)

/-- The reset value is zero. -/
theorem pay2_eq : k0_pay2 (F := Ideal) = fun _ => (0 : EReal) := by
  unfold k0_pay2
  refine (shapeCast_self _ _).trans ?_
  funext i
  exact Ideal.ofBits_zero_f32

/-! ## The three calls run one computation -/

/-- The second call's tile sum is the first's. -/
theorem pay3_1 : @k1_pay3 = @k0_pay3 := rfl
/-- The third call's tile sum is the first's. -/
theorem pay3_2 : @k2_pay3 = @k0_pay3 := rfl
/-- The second call's update is the first's. -/
theorem pay1_1 : @k1_pay1 = @k0_pay1 := rfl
/-- The third call's update is the first's. -/
theorem pay1_2 : @k2_pay1 = @k0_pay1 := rfl
/-- The second call's reset value is the first's. -/
theorem pay2_1 : @k1_pay2 = @k0_pay2 := rfl
/-- The third call's reset value is the first's. -/
theorem pay2_2 : @k2_pay2 = @k0_pay2 := rfl

end Cert.KernelIdeal.TileValue

end
-- ==== Proof.LibBlockSum.lean ====
/-
  Splitting a sum over 8192 rows into 16 consecutive blocks of 512 rows.

  Every row number P below 8192 is written in exactly one way as 512 · i + p with i below 16 and p below 512
  (i = P / 512, p = P % 512). Hence the map (i, p) ↦ 512 · i + p is a one-to-one correspondence between the pairs
  (block, row inside the block) and the rows, and a sum over the rows may be taken block by block. The same holds
  for a sum over pairs of rows, which becomes a sum over pairs of blocks of sums over pairs of rows inside them.
  Only commutativity and associativity of the addition are used, so the statements hold in any commutative
  additive monoid.
-/
import Mathlib.Algebra.BigOperators.Group.Finset.Defs
import Mathlib.Algebra.BigOperators.Group.Finset.Sigma
import Mathlib.Data.Fintype.BigOperators

namespace Cert.BlockSum

/-- Row p of block i, among 16 blocks of 512 rows. -/
def rowIdx (i : Fin 16) (p : Fin 512) : Fin 8192 := ⟨512 * i.val + p.val, by omega⟩

/-- The number of the row `rowIdx i p` is 512 · i + p. -/
@[simp] theorem rowIdx_val (i : Fin 16) (p : Fin 512) : (rowIdx i p).val = 512 * i.val + p.val := rfl

/-- `rowIdx` is onto, and one-to-one, in the form a cover argument wants: every row P is row P % 512 of block
P / 512. -/
theorem rowIdx_div_mod (P : Fin 8192) :
    rowIdx ⟨P.val / 512, by omega⟩ ⟨P.val % 512, Nat.mod_lt _ (by omega)⟩ = P := by
  apply Fin.ext
  simp only [rowIdx_val]
  omega

/-- Block and row inside the block are recovered from the row number: `rowIdx` is one-to-one. -/
theorem rowIdx_inj {i j : Fin 16} {p q : Fin 512} (h : rowIdx i p = rowIdx j q) : i = j ∧ p = q := by
  have hv : 512 * i.val + p.val = 512 * j.val + q.val := congrArg Fin.val h
  constructor <;> apply Fin.ext <;> omega

/-- The correspondence (block, row inside the block) ↔ row. -/
def blockEquiv : Fin 16 × Fin 512 ≃ Fin 8192 where
  toFun x := rowIdx x.1 x.2
  invFun P := (⟨P.val / 512, by omega⟩, ⟨P.val % 512, Nat.mod_lt _ (by omega)⟩)
  left_inv x := by
    obtain ⟨hi, hp⟩ := rowIdx_inj (rowIdx_div_mod (rowIdx x.1 x.2))
    exact Prod.ext hi hp
  right_inv P := rowIdx_div_mod P

/-- A sum over all 8192 rows is the sum over the 16 blocks of the sums over the 512 rows of each block. -/
theorem sum_rows {M : Type} [AddCommMonoid M] (f : Fin 8192 → M) :
    ∑ i : Fin 16, ∑ p : Fin 512, f (rowIdx i p) = ∑ P : Fin 8192, f P := by
  rw [← Fintype.sum_prod_type' (fun i p => f (rowIdx i p))]
  exact Fintype.sum_equiv blockEquiv _ _ (fun _ => rfl)

/-- A sum over all pairs of 8192 rows is the sum over pairs of blocks of the sums over pairs of rows inside the
blocks. -/
theorem sum_blocks {M : Type} [AddCommMonoid M] (g : Fin 8192 → Fin 8192 → M) :
    ∑ i : Fin 16, ∑ j : Fin 16, ∑ p : Fin 512, ∑ q : Fin 512, g (rowIdx i p) (rowIdx j q)
      = ∑ P : Fin 8192, ∑ Q : Fin 8192, g P Q := by
  rw [← sum_rows (fun P => ∑ Q : Fin 8192, g P Q)]
  refine Finset.sum_congr rfl fun i _ => ?_
  -- bring the row p of the first block outside the choice of the second block
  rw [Finset.sum_comm]
  exact Finset.sum_congr rfl fun p _ => sum_rows (fun Q => g (rowIdx i p) Q)

end Cert.BlockSum
-- ==== Proof.KernelIdeal.RowSum0.lean ====
/-
  From the accumulator's recursion to the result array of pallas_call 0, on the extended reals.

  The grid is 16 × 16 and point t = 16·i + j is handed block i of the array X (8192 rows of 256) through the first
  window and block j of the same array through the second, each block 512 consecutive rows: row p of block i is row
  512·i + p of X. The tile's sum at the point is therefore Σ_p Σ_q e(X_{512·i+p}, X_{512·j+q}), with e the kernel
  exp(−distance) of the specification. The accumulator restarts from zero in column 0 and adds one tile per point, so
  after column j of row i it holds the sum of the row's tiles 0 … j, and at the end of the row the sum over all sixteen
  blocks, that is over all 8192 rows Q, of Σ_p e(X_{512·i+p}, X_Q). That value is written back to entry (i, 0, 0) of
  the result exactly at the last point of row i, and these sixteen write-backs cover the result array; so the array
  ends holding, at entry i, the sum of e over the 512 rows of block i against all rows.
-/
import proofs.«105586_j19189913878688_1_alg».proof.Proof.KernelIdeal.Data0
import proofs.«105586_j19189913878688_1_alg».proof.Proof.KernelIdeal.TileSum
import proofs.«105586_j19189913878688_1_alg».proof.Proof.LibBlockSum
import proofs.«105586_j19189913878688_1_alg».proof.Proof.Spec
import Idealize.ShloMosaic.Lib.Pipeline.Value
import Idealize.ShloMosaic.Lib.ValueIdx

set_option maxRecDepth 16384

noncomputable section

namespace Cert.KernelIdeal.Tile

open Cert.KernelIdeal Cert.KernelIdeal.Gen
open Idealize.ShloMosaic Idealize.ShloMosaic.TcCoe Idealize.ShloMosaic.ValueIdx
open Idealize.ShloMosaic.Pipeline (Dat Cfg Window)
open Cert.KernelIdeal.TileValue

variable (V : (c : Dev nD) → (b : Ref sig .tc) → Buf (Elt Ideal) ((c : Thread nD τ).loc b))

/-! ## The payloads of this call -/

/-- The tile's payload: the double sum, over the rows of the two blocks, of e. -/
theorem tilePay0 (a b : Vec Ideal S512x256 .f32) :
    k0_pay3 (F := Ideal) a b
      = fun _ => ∑ p : Fin 512, ∑ q : Fin 512, Cert.Mmd.pairE (fun k => a (ix2 p k)) (fun k => b (ix2 q k)) :=
  pay3_eq a b

/-- The accumulator's update: the tile's sum added to the value held. -/
theorem addPay0 (s : FVec Ideal S1x1 .f32) (x : Vec Ideal S1x1x1 .f32) :
    k0_pay1 (F := Ideal) s x = fun _ => x (ix3 (0 : Fin 1) (0 : Fin 1) (0 : Fin 1)) + s (ix2 (0 : Fin 1) (0 : Fin 1)) :=
  pay1_eq s x

/-- The accumulator's reset value: zero. -/
theorem zeroPay0 : k0_pay2 (F := Ideal) = fun _ => (0 : EReal) := pay2_eq

/-! ## The blocks as rows of the array -/

/-- The grid has 256 points. -/
theorem lt0 (t : Fin cfg0.N) : t.val < 256 := lt_of_lt_of_eq t.isLt N_0

/-- The index maps over the grid: at point t the first window's block index is (t / 16, 0), the second's
    (t % 16, 0), the result's (t / 16, 0, 0). -/
theorem idx0 : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 3) = t.val / 16 ∧ win0_2.index t (1 : Fin 3) = 0 ∧ win0_2.index t (2 : Fin 3) = 0 :=
  (by decide +kernel : ∀ t : Fin grid0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 3) = t.val / 16 ∧ win0_2.index t (1 : Fin 3) = 0 ∧ win0_2.index t (2 : Fin 3) = 0)

/-- The first operand's block at a point of row i, read at row p: row 512·i + p of the array. -/
theorem ablk0_row (c : Dev nD) (t : Fin cfg0.N) (i : Fin 16) (hi : t.val / 16 = i.val) (p : Fin 512) (k : Fin 256) :
    ablk0 V c t (ix2 p k) = V c main_arg0 (ix2 (Cert.BlockSum.rowIdx i p) k) := by
  unfold ablk0 iblk0
  rw [View.read_apply]
  show V c main_arg0 _ = V c main_arg0 _
  congr 1
  funext a
  apply Fin.ext
  match a with
  | ⟨0, _⟩ => show win0_0.index t (0 : Fin 2) * 512 + 1 * p.val = 512 * i.val + p.val; rw [(idx0 t).1, hi]; omega
  | ⟨1, _⟩ => show win0_0.index t (1 : Fin 2) * 256 + 1 * k.val = k.val; rw [(idx0 t).2.1]; omega

/-- The second operand's block at a point of column j, read at row q: row 512·j + q of the array. -/
theorem bblk0_row (c : Dev nD) (t : Fin cfg0.N) (j : Fin 16) (hj : t.val % 16 = j.val) (q : Fin 512) (k : Fin 256) :
    bblk0 V c t (ix2 q k) = V c main_arg0 (ix2 (Cert.BlockSum.rowIdx j q) k) := by
  unfold bblk0 iblk0
  rw [View.read_apply]
  show V c main_arg0 _ = V c main_arg0 _
  congr 1
  funext a
  apply Fin.ext
  match a with
  | ⟨0, _⟩ => show win0_1.index t (0 : Fin 2) * 512 + 1 * q.val = 512 * j.val + q.val; rw [(idx0 t).2.2.1, hj]; omega
  | ⟨1, _⟩ => show win0_1.index t (1 : Fin 2) * 256 + 1 * k.val = k.val; rw [(idx0 t).2.2.2.1]; omega

/-- Block i of the first operand, row p: row 512·i + p of the array, i = t / 16 the point's row. -/
theorem ablk0_apply (c : Dev nD) (t : Fin cfg0.N) (p : Fin 512) (k : Fin 256) :
    ablk0 V c t (ix2 p k)
      = V c main_arg0 (ix2 (Cert.BlockSum.rowIdx ⟨t.val / 16, by have := lt0 t; omega⟩ p) k) :=
  ablk0_row V c t _ rfl p k

/-- Block j of the second operand, row q: row 512·j + q of the array, j = t % 16 the point's column. -/
theorem bblk0_apply (c : Dev nD) (t : Fin cfg0.N) (q : Fin 512) (k : Fin 256) :
    bblk0 V c t (ix2 q k)
      = V c main_arg0 (ix2 (Cert.BlockSum.rowIdx ⟨t.val % 16, Nat.mod_lt _ (by decide)⟩ q) k) :=
  bblk0_row V c t _ rfl q k

/-! ## The accumulator along a row of the grid -/

/-- The tile's sum at a point of row i and column j over the array's rows: the rows of block i against the rows
    of block j. -/
theorem tile0_eq (c : Dev nD) (t : Fin cfg0.N) (i j : Fin 16) (hi : t.val / 16 = i.val) (hj : t.val % 16 = j.val) :
    k0_pay3 (F := Ideal) (ablk0 V c t) (bblk0 V c t) = fun _ => ∑ p : Fin 512, ∑ q : Fin 512,
      Cert.Mmd.pairE (Cert.Mmd.row (V c main_arg0) (Cert.BlockSum.rowIdx i p)) (Cert.Mmd.row (V c main_arg0) (Cert.BlockSum.rowIdx j q)) := by
  refine (tilePay0 (ablk0 V c t) (bblk0 V c t)).trans ?_
  funext _
  refine Finset.sum_congr rfl fun p _ => Finset.sum_congr rfl fun q _ => ?_
  have ha : (fun k => ablk0 V c t (ix2 p k)) = Cert.Mmd.row (V c main_arg0) (Cert.BlockSum.rowIdx i p) :=
    funext fun k => ablk0_row V c t i hi p k
  have hb : (fun k => bblk0 V c t (ix2 q k)) = Cert.Mmd.row (V c main_arg0) (Cert.BlockSum.rowIdx j q) :=
    funext fun k => bblk0_row V c t j hj q k
  rw [ha, hb]

/-- The sum of e over the rows of block i against the rows of block n; zero when there is no block n. -/
def tileAt0 (c : Dev nD) (i : Fin 16) (n : ℕ) : EReal :=
  if h : n < 16 then ∑ p : Fin 512, ∑ q : Fin 512,
    Cert.Mmd.pairE (Cert.Mmd.row (V c main_arg0) (Cert.BlockSum.rowIdx i p)) (Cert.Mmd.row (V c main_arg0) (Cert.BlockSum.rowIdx ⟨n, h⟩ q))
  else 0

/-- After column j of row i the accumulator holds the sum of the row's tiles 0 … j (by induction on the column:
    column 0 adds the first tile to zero, every later column adds its tile to what the column before left). -/
theorem acc0_range (c : Dev nD) (i : Fin 16) : ∀ (j : ℕ) (hj : j < 16) (n : ℕ) (h : n < cfg0.N) (e : n = 16 * i.val + j),
    acc0 V c n h = fun _ => ∑ j' ∈ Finset.range (j + 1), tileAt0 V c i j'
  | 0, hj, n, h, e => by
    refine (acc0_first V c ⟨n, h⟩ (show n % 16 = 0 by omega)).trans ?_
    rw [addPay0, tile0_eq V c ⟨n, h⟩ i ⟨0, hj⟩ (show n / 16 = i.val by omega) (show n % 16 = 0 by omega), zeroPay0]
    funext _
    rw [Finset.sum_range_one]
    unfold tileAt0
    rw [dif_pos hj]
    exact zero_add _
  | j + 1, hj, n, h, e => by
    have hk : 16 * i.val + j < cfg0.N := by omega
    refine (acc0_next V c ⟨n, h⟩ (show n % 16 ≠ 0 by omega) (16 * i.val + j) hk (show n = 16 * i.val + j + 1 by omega)).trans ?_
    rw [acc0_range c i j (by omega) _ hk rfl, addPay0,
      tile0_eq V c ⟨n, h⟩ i ⟨j + 1, hj⟩ (show n / 16 = i.val by omega) (show n % 16 = j + 1 by omega)]
    funext _
    rw [Finset.sum_range_succ _ (j + 1)]
    congr 1
    unfold tileAt0
    rw [dif_pos hj]

/-- After column j of row i the accumulator holds the sum of the row's first j + 1 tiles. -/
theorem acc0_eq (c : Dev nD) (i : Fin 16) (j : Fin 16) (h : 16 * i.val + j.val < cfg0.N) :
    acc0 V c (16 * i.val + j.val) h = fun _ => ∑ j' ∈ Finset.univ.filter (fun j' : Fin 16 => j'.val ≤ j.val),
      ∑ p : Fin 512, ∑ q : Fin 512,
        Cert.Mmd.pairE (Cert.Mmd.row (V c main_arg0) (Cert.BlockSum.rowIdx i p)) (Cert.Mmd.row (V c main_arg0) (Cert.BlockSum.rowIdx j' q)) := by
  rw [acc0_range V c i j.val j.isLt _ h rfl]
  funext _
  have hr : Finset.range (j.val + 1) = (Finset.range 16).filter (fun n => n ≤ j.val) :=
    Finset.ext fun n => by
      have := j.isLt
      simp only [Finset.mem_filter, Finset.mem_range]
      omega
  rw [hr, Finset.sum_filter, Finset.sum_filter,
    ← Fin.sum_univ_eq_sum_range (fun n => if n ≤ j.val then tileAt0 V c i n else 0) 16]
  refine Finset.sum_congr rfl fun j' _ => ?_
  unfold tileAt0
  rw [dif_pos j'.isLt]

/-- The sum of e over the 512 rows of block i against all 8192 rows, block by block. -/
def rowSum0 (c : Dev nD) (i : Fin 16) : EReal :=
  ∑ j : Fin 16, ∑ p : Fin 512, ∑ q : Fin 512,
    Cert.Mmd.pairE (Cert.Mmd.row (V c main_arg0) (Cert.BlockSum.rowIdx i p)) (Cert.Mmd.row (V c main_arg0) (Cert.BlockSum.rowIdx j q))

/-- At the end of row i the accumulator holds the row's sixteen tiles added up. -/
theorem acc0_row (c : Dev nD) (i : Fin 16) (n : ℕ) (h : n < cfg0.N) (e : n = 16 * i.val + 15) :
    acc0 V c n h = fun _ => rowSum0 V c i := by
  rw [acc0_range V c i 15 (by omega) n h e]
  funext _
  unfold rowSum0
  rw [← Fin.sum_univ_eq_sum_range (fun j' => tileAt0 V c i j') 16]
  refine Finset.sum_congr rfl fun j _ => ?_
  unfold tileAt0
  rw [dif_pos j.isLt]

/-! ## The result array -/

/-- What the result array ends holding: entry (i, 0, 0) is the sum over the rows of block i against all rows. -/
abbrev res0 (c : Dev nD) : S16x1x1.Idx → EReal := fun y => rowSum0 V c ⟨(y 0).val, (y 0).isLt⟩

/-- What a point of the last column writes back is its block of that array: the accumulator at the end of row
    i = t / 16, and the block's one entry is entry (i, 0, 0). -/
theorem flushed0_eq (c : Dev nD) (t : Fin cfg0.N) (hf : (cfg0.win 2).flush t = true) :
    (dat0 V c).flushed 2 t = ((cfg0.win 2).blk t).view.read (Elt Ideal) (res0 V c) := by
  have h15 : t.val % 16 = 15 := (flush0_2 t).mp hf
  have hlt : t.val < 256 := lt0 t
  show (cfg0.win 2).cut (grid0.coords t) ((dat0 V c).after 2 t) = _
  rw [after0_2, acc0_row V c ⟨t.val / 16, by omega⟩ t.val t.isLt (show t.val = 16 * (t.val / 16) + 15 by omega)]
  funext y
  rw [View.read_apply]
  show rowSum0 V c _ = rowSum0 V c _
  congr 1
  apply Fin.ext
  show t.val / 16 = win0_2.index t (0 : Fin 3) * 1 + 1 * (y 0).val
  have hy : (y 0).val < 1 := (y 0).isLt
  rw [(idx0 t).2.2.2.2.1]
  omega

/-- An entry of the result array is in point t's block iff each coordinate is in the block's range on its axis. -/
theorem mem_blk0 (t : Fin cfg0.N) (i : S16x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0).slice (win0_2.rect t)).set ↔ _
  rw [View.set_slice_whole, Rect.mem_set_unit]
  exact Iff.rfl

/-- Entry (i, 0, 0) is written back by the last point of row i, the point 16·i + 15. -/
theorem cover0 (i : S16x1x1.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 1 := (i 2).isLt
  have hN : 16 * (i 0).val + 15 < cfg0.N := lt_of_lt_of_eq (show 16 * (i 0).val + 15 < 256 by omega) N_0.symm
  refine ⟨⟨16 * (i 0).val + 15, hN⟩, (flush0_2 _).mpr (show (16 * (i 0).val + 15) % 16 = 15 by omega), ?_⟩
  rw [mem_blk0]
  obtain ⟨-, -, -, -, e0, e1, e2⟩ := idx0 ⟨16 * (i 0).val + 15, hN⟩
  have e0' : win0_2.index ⟨16 * (i 0).val + 15, hN⟩ (0 : Fin 3) = (i 0).val :=
    e0.trans (show (16 * (i 0).val + 15) / 16 = (i 0).val by omega)
  intro a
  match a with
  | ⟨0, _⟩ => show win0_2.index ⟨16 * (i 0).val + 15, hN⟩ (0 : Fin 3) * 1 ≤ (i 0).val ∧ (i 0).val < win0_2.index ⟨16 * (i 0).val + 15, hN⟩ (0 : Fin 3) * 1 + 1; rw [e0']; omega
  | ⟨1, _⟩ => show win0_2.index ⟨16 * (i 0).val + 15, hN⟩ (1 : Fin 3) * 1 ≤ (i 1).val ∧ (i 1).val < win0_2.index ⟨16 * (i 0).val + 15, hN⟩ (1 : Fin 3) * 1 + 1; rw [e1]; omega
  | ⟨2, _⟩ => show win0_2.index ⟨16 * (i 0).val + 15, hN⟩ (2 : Fin 3) * 1 ≤ (i 2).val ∧ (i 2).val < win0_2.index ⟨16 * (i 0).val + 15, hN⟩ (2 : Fin 3) * 1 + 1; rw [e2]; omega

/-- THE RESULT ARRAY of pallas_call 0: entry i is the sum of e over the 512 rows of block i against all 8192 rows
    Q, the rows Q taken block by block. -/
theorem out0_eq (c : Dev nD) :
    (dat0 V c).arrAt 2 cfg0.N = fun (y : S16x1x1.Idx) => ∑ j : Fin 16, ∑ p : Fin 512, ∑ q : Fin 512,
      Cert.Mmd.pairE (Cert.Mmd.row (V c main_arg0) (Cert.BlockSum.rowIdx (y 0) p)) (Cert.Mmd.row (V c main_arg0) (Cert.BlockSum.rowIdx j q)) :=
  (dat0 V c).arrAt_eq_of_cover 2 (res0 V c) (flushed0_eq V c) cover0

end Cert.KernelIdeal.Tile

end
-- ==== Proof.KernelIdeal.RowSum1.lean ====
/-
  From the accumulator's recursion to the result array of pallas_call 1, on the extended reals.

  The grid is 16 × 16 and point t = 16·i + j is handed block i of the array X (8192 rows of 256) through the first
  window and block j of the same array through the second, each block 512 consecutive rows: row p of block i is row
  512·i + p of X. The tile's sum at the point is therefore Σ_p Σ_q e(X_{512·i+p}, X_{512·j+q}), with e the kernel
  exp(−distance) of the specification. The accumulator restarts from zero in column 0 and adds one tile per point, so
  after column j of row i it holds the sum of the row's tiles 0 … j, and at the end of the row the sum over all sixteen
  blocks, that is over all 8192 rows Q, of Σ_p e(X_{512·i+p}, X_Q). That value is written back to entry (i, 0, 0) of
  the result exactly at the last point of row i, and these sixteen write-backs cover the result array; so the array
  ends holding, at entry i, the sum of e over the 512 rows of block i against all rows.
-/
import proofs.«105586_j19189913878688_1_alg».proof.Proof.KernelIdeal.Data1
import proofs.«105586_j19189913878688_1_alg».proof.Proof.KernelIdeal.TileSum
import proofs.«105586_j19189913878688_1_alg».proof.Proof.LibBlockSum
import proofs.«105586_j19189913878688_1_alg».proof.Proof.Spec
import Idealize.ShloMosaic.Lib.Pipeline.Value
import Idealize.ShloMosaic.Lib.ValueIdx

set_option maxRecDepth 16384

noncomputable section

namespace Cert.KernelIdeal.Tile

open Cert.KernelIdeal Cert.KernelIdeal.Gen
open Idealize.ShloMosaic Idealize.ShloMosaic.TcCoe Idealize.ShloMosaic.ValueIdx
open Idealize.ShloMosaic.Pipeline (Dat Cfg Window)
open Cert.KernelIdeal.TileValue

variable (V : (c : Dev nD) → (b : Ref sig .tc) → Buf (Elt Ideal) ((c : Thread nD τ).loc b))

/-! ## The payloads of this call -/

/-- The tile's payload: the double sum, over the rows of the two blocks, of e. -/
theorem tilePay1 (a b : Vec Ideal S512x256 .f32) :
    k1_pay3 (F := Ideal) a b
      = fun _ => ∑ p : Fin 512, ∑ q : Fin 512, Cert.Mmd.pairE (fun k => a (ix2 p k)) (fun k => b (ix2 q k)) :=
  pay3_eq a b

/-- The accumulator's update: the tile's sum added to the value held. -/
theorem addPay1 (s : FVec Ideal S1x1 .f32) (x : Vec Ideal S1x1x1 .f32) :
    k1_pay1 (F := Ideal) s x = fun _ => x (ix3 (0 : Fin 1) (0 : Fin 1) (0 : Fin 1)) + s (ix2 (0 : Fin 1) (0 : Fin 1)) :=
  pay1_eq s x

/-- The accumulator's reset value: zero. -/
theorem zeroPay1 : k1_pay2 (F := Ideal) = fun _ => (0 : EReal) := pay2_eq

/-! ## The blocks as rows of the array -/

/-- The grid has 256 points. -/
theorem lt1 (t : Fin cfg1.N) : t.val < 256 := lt_of_lt_of_eq t.isLt N_1

/-- The index maps over the grid: at point t the first window's block index is (t / 16, 0), the second's
    (t % 16, 0), the result's (t / 16, 0, 0). -/
theorem idx1 : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 3) = t.val / 16 ∧ win1_2.index t (1 : Fin 3) = 0 ∧ win1_2.index t (2 : Fin 3) = 0 :=
  (by decide +kernel : ∀ t : Fin grid1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 3) = t.val / 16 ∧ win1_2.index t (1 : Fin 3) = 0 ∧ win1_2.index t (2 : Fin 3) = 0)

/-- The first operand's block at a point of row i, read at row p: row 512·i + p of the array. -/
theorem ablk1_row (c : Dev nD) (t : Fin cfg1.N) (i : Fin 16) (hi : t.val / 16 = i.val) (p : Fin 512) (k : Fin 256) :
    ablk1 V c t (ix2 p k) = V c main_arg1 (ix2 (Cert.BlockSum.rowIdx i p) k) := by
  unfold ablk1 iblk1
  rw [View.read_apply]
  show V c main_arg1 _ = V c main_arg1 _
  congr 1
  funext a
  apply Fin.ext
  match a with
  | ⟨0, _⟩ => show win1_0.index t (0 : Fin 2) * 512 + 1 * p.val = 512 * i.val + p.val; rw [(idx1 t).1, hi]; omega
  | ⟨1, _⟩ => show win1_0.index t (1 : Fin 2) * 256 + 1 * k.val = k.val; rw [(idx1 t).2.1]; omega

/-- The second operand's block at a point of column j, read at row q: row 512·j + q of the array. -/
theorem bblk1_row (c : Dev nD) (t : Fin cfg1.N) (j : Fin 16) (hj : t.val % 16 = j.val) (q : Fin 512) (k : Fin 256) :
    bblk1 V c t (ix2 q k) = V c main_arg1 (ix2 (Cert.BlockSum.rowIdx j q) k) := by
  unfold bblk1 iblk1
  rw [View.read_apply]
  show V c main_arg1 _ = V c main_arg1 _
  congr 1
  funext a
  apply Fin.ext
  match a with
  | ⟨0, _⟩ => show win1_1.index t (0 : Fin 2) * 512 + 1 * q.val = 512 * j.val + q.val; rw [(idx1 t).2.2.1, hj]; omega
  | ⟨1, _⟩ => show win1_1.index t (1 : Fin 2) * 256 + 1 * k.val = k.val; rw [(idx1 t).2.2.2.1]; omega

/-- Block i of the first operand, row p: row 512·i + p of the array, i = t / 16 the point's row. -/
theorem ablk1_apply (c : Dev nD) (t : Fin cfg1.N) (p : Fin 512) (k : Fin 256) :
    ablk1 V c t (ix2 p k)
      = V c main_arg1 (ix2 (Cert.BlockSum.rowIdx ⟨t.val / 16, by have := lt1 t; omega⟩ p) k) :=
  ablk1_row V c t _ rfl p k

/-- Block j of the second operand, row q: row 512·j + q of the array, j = t % 16 the point's column. -/
theorem bblk1_apply (c : Dev nD) (t : Fin cfg1.N) (q : Fin 512) (k : Fin 256) :
    bblk1 V c t (ix2 q k)
      = V c main_arg1 (ix2 (Cert.BlockSum.rowIdx ⟨t.val % 16, Nat.mod_lt _ (by decide)⟩ q) k) :=
  bblk1_row V c t _ rfl q k

/-! ## The accumulator along a row of the grid -/

/-- The tile's sum at a point of row i and column j over the array's rows: the rows of block i against the rows
    of block j. -/
theorem tile1_eq (c : Dev nD) (t : Fin cfg1.N) (i j : Fin 16) (hi : t.val / 16 = i.val) (hj : t.val % 16 = j.val) :
    k1_pay3 (F := Ideal) (ablk1 V c t) (bblk1 V c t) = fun _ => ∑ p : Fin 512, ∑ q : Fin 512,
      Cert.Mmd.pairE (Cert.Mmd.row (V c main_arg1) (Cert.BlockSum.rowIdx i p)) (Cert.Mmd.row (V c main_arg1) (Cert.BlockSum.rowIdx j q)) := by
  refine (tilePay1 (ablk1 V c t) (bblk1 V c t)).trans ?_
  funext _
  refine Finset.sum_congr rfl fun p _ => Finset.sum_congr rfl fun q _ => ?_
  have ha : (fun k => ablk1 V c t (ix2 p k)) = Cert.Mmd.row (V c main_arg1) (Cert.BlockSum.rowIdx i p) :=
    funext fun k => ablk1_row V c t i hi p k
  have hb : (fun k => bblk1 V c t (ix2 q k)) = Cert.Mmd.row (V c main_arg1) (Cert.BlockSum.rowIdx j q) :=
    funext fun k => bblk1_row V c t j hj q k
  rw [ha, hb]

/-- The sum of e over the rows of block i against the rows of block n; zero when there is no block n. -/
def tileAt1 (c : Dev nD) (i : Fin 16) (n : ℕ) : EReal :=
  if h : n < 16 then ∑ p : Fin 512, ∑ q : Fin 512,
    Cert.Mmd.pairE (Cert.Mmd.row (V c main_arg1) (Cert.BlockSum.rowIdx i p)) (Cert.Mmd.row (V c main_arg1) (Cert.BlockSum.rowIdx ⟨n, h⟩ q))
  else 0

/-- After column j of row i the accumulator holds the sum of the row's tiles 0 … j (by induction on the column:
    column 0 adds the first tile to zero, every later column adds its tile to what the column before left). -/
theorem acc1_range (c : Dev nD) (i : Fin 16) : ∀ (j : ℕ) (hj : j < 16) (n : ℕ) (h : n < cfg1.N) (e : n = 16 * i.val + j),
    acc1 V c n h = fun _ => ∑ j' ∈ Finset.range (j + 1), tileAt1 V c i j'
  | 0, hj, n, h, e => by
    refine (acc1_first V c ⟨n, h⟩ (show n % 16 = 0 by omega)).trans ?_
    rw [addPay1, tile1_eq V c ⟨n, h⟩ i ⟨0, hj⟩ (show n / 16 = i.val by omega) (show n % 16 = 0 by omega), zeroPay1]
    funext _
    rw [Finset.sum_range_one]
    unfold tileAt1
    rw [dif_pos hj]
    exact zero_add _
  | j + 1, hj, n, h, e => by
    have hk : 16 * i.val + j < cfg1.N := by omega
    refine (acc1_next V c ⟨n, h⟩ (show n % 16 ≠ 0 by omega) (16 * i.val + j) hk (show n = 16 * i.val + j + 1 by omega)).trans ?_
    rw [acc1_range c i j (by omega) _ hk rfl, addPay1,
      tile1_eq V c ⟨n, h⟩ i ⟨j + 1, hj⟩ (show n / 16 = i.val by omega) (show n % 16 = j + 1 by omega)]
    funext _
    rw [Finset.sum_range_succ _ (j + 1)]
    congr 1
    unfold tileAt1
    rw [dif_pos hj]

/-- After column j of row i the accumulator holds the sum of the row's first j + 1 tiles. -/
theorem acc1_eq (c : Dev nD) (i : Fin 16) (j : Fin 16) (h : 16 * i.val + j.val < cfg1.N) :
    acc1 V c (16 * i.val + j.val) h = fun _ => ∑ j' ∈ Finset.univ.filter (fun j' : Fin 16 => j'.val ≤ j.val),
      ∑ p : Fin 512, ∑ q : Fin 512,
        Cert.Mmd.pairE (Cert.Mmd.row (V c main_arg1) (Cert.BlockSum.rowIdx i p)) (Cert.Mmd.row (V c main_arg1) (Cert.BlockSum.rowIdx j' q)) := by
  rw [acc1_range V c i j.val j.isLt _ h rfl]
  funext _
  have hr : Finset.range (j.val + 1) = (Finset.range 16).filter (fun n => n ≤ j.val) :=
    Finset.ext fun n => by
      have := j.isLt
      simp only [Finset.mem_filter, Finset.mem_range]
      omega
  rw [hr, Finset.sum_filter, Finset.sum_filter,
    ← Fin.sum_univ_eq_sum_range (fun n => if n ≤ j.val then tileAt1 V c i n else 0) 16]
  refine Finset.sum_congr rfl fun j' _ => ?_
  unfold tileAt1
  rw [dif_pos j'.isLt]

/-- The sum of e over the 512 rows of block i against all 8192 rows, block by block. -/
def rowSum1 (c : Dev nD) (i : Fin 16) : EReal :=
  ∑ j : Fin 16, ∑ p : Fin 512, ∑ q : Fin 512,
    Cert.Mmd.pairE (Cert.Mmd.row (V c main_arg1) (Cert.BlockSum.rowIdx i p)) (Cert.Mmd.row (V c main_arg1) (Cert.BlockSum.rowIdx j q))

/-- At the end of row i the accumulator holds the row's sixteen tiles added up. -/
theorem acc1_row (c : Dev nD) (i : Fin 16) (n : ℕ) (h : n < cfg1.N) (e : n = 16 * i.val + 15) :
    acc1 V c n h = fun _ => rowSum1 V c i := by
  rw [acc1_range V c i 15 (by omega) n h e]
  funext _
  unfold rowSum1
  rw [← Fin.sum_univ_eq_sum_range (fun j' => tileAt1 V c i j') 16]
  refine Finset.sum_congr rfl fun j _ => ?_
  unfold tileAt1
  rw [dif_pos j.isLt]

/-! ## The result array -/

/-- What the result array ends holding: entry (i, 0, 0) is the sum over the rows of block i against all rows. -/
abbrev res1 (c : Dev nD) : S16x1x1.Idx → EReal := fun y => rowSum1 V c ⟨(y 0).val, (y 0).isLt⟩

/-- What a point of the last column writes back is its block of that array: the accumulator at the end of row
    i = t / 16, and the block's one entry is entry (i, 0, 0). -/
theorem flushed1_eq (c : Dev nD) (t : Fin cfg1.N) (hf : (cfg1.win 2).flush t = true) :
    (dat1 V c).flushed 2 t = ((cfg1.win 2).blk t).view.read (Elt Ideal) (res1 V c) := by
  have h15 : t.val % 16 = 15 := (flush1_2 t).mp hf
  have hlt : t.val < 256 := lt1 t
  show (cfg1.win 2).cut (grid1.coords t) ((dat1 V c).after 2 t) = _
  rw [after1_2, acc1_row V c ⟨t.val / 16, by omega⟩ t.val t.isLt (show t.val = 16 * (t.val / 16) + 15 by omega)]
  funext y
  rw [View.read_apply]
  show rowSum1 V c _ = rowSum1 V c _
  congr 1
  apply Fin.ext
  show t.val / 16 = win1_2.index t (0 : Fin 3) * 1 + 1 * (y 0).val
  have hy : (y 0).val < 1 := (y 0).isLt
  rw [(idx1 t).2.2.2.2.1]
  omega

/-- An entry of the result array is in point t's block iff each coordinate is in the block's range on its axis. -/
theorem mem_blk1 (t : Fin cfg1.N) (i : S16x1x1.Idx) :
    i ∈ ((cfg1.win 2).blk t).view.set ↔ ∀ a : Fin 3, win1_2.index t a * S1x1x1.size a ≤ (i a).val ∧ (i a).val < win1_2.index t a * S1x1x1.size a + S1x1x1.size a := by
  show i ∈ ((View.whole main_v2).slice (win1_2.rect t)).set ↔ _
  rw [View.set_slice_whole, Rect.mem_set_unit]
  exact Iff.rfl

/-- Entry (i, 0, 0) is written back by the last point of row i, the point 16·i + 15. -/
theorem cover1 (i : S16x1x1.Idx) : ∃ t : Fin cfg1.N, (cfg1.win 2).flush t = true ∧ i ∈ ((cfg1.win 2).blk t).view.set := by
  have h0 : (i 0).val < 16 := (i 0).isLt
  have h1 : (i 1).val < 1 := (i 1).isLt
  have h2 : (i 2).val < 1 := (i 2).isLt
  have hN : 16 * (i 0).val + 15 < cfg1.N := lt_of_lt_of_eq (show 16 * (i 0).val + 15 < 256 by omega) N_1.symm
  refine ⟨⟨16 * (i 0).val + 15, hN⟩, (flush1_2 _).mpr (show (16 * (i 0).val + 15) % 16 = 15 by omega), ?_⟩
  rw [mem_blk1]
  obtain ⟨-, -, -, -, e0, e1, e2⟩ := idx1 ⟨16 * (i 0).val + 15, hN⟩
  have e0' : win1_2.index ⟨16 * (i 0).val + 15, hN⟩ (0 : Fin 3) = (i 0).val :=
    e0.trans (show (16 * (i 0).val + 15) / 16 = (i 0).val by omega)
  intro a
  match a with
  | ⟨0, _⟩ => show win1_2.index ⟨16 * (i 0).val + 15, hN⟩ (0 : Fin 3) * 1 ≤ (i 0).val ∧ (i 0).val < win1_2.index ⟨16 * (i 0).val + 15, hN⟩ (0 : Fin 3) * 1 + 1; rw [e0']; omega
  | ⟨1, _⟩ => show win1_2.index ⟨16 * (i 0).val + 15, hN⟩ (1 : Fin 3) * 1 ≤ (i 1).val ∧ (i 1).val < win1_2.index ⟨16 * (i 0).val + 15, hN⟩ (1 : Fin 3) * 1 + 1; rw [e1]; omega
  | ⟨2, _⟩ => show win1_2.index ⟨16 * (i 0).val + 15, hN⟩ (2 : Fin 3) * 1 ≤ (i 2).val ∧ (i 2).val < win1_2.index ⟨16 * (i 0).val + 15, hN⟩ (2 : Fin 3) * 1 + 1; rw [e2]; omega

/-- THE RESULT ARRAY of pallas_call 1: entry i is the sum of e over the 512 rows of block i against all 8192 rows
    Q, the rows Q taken block by block. -/
theorem out1_eq (c : Dev nD) :
    (dat1 V c).arrAt 2 cfg1.N = fun (y : S16x1x1.Idx) => ∑ j : Fin 16, ∑ p : Fin 512, ∑ q : Fin 512,
      Cert.Mmd.pairE (Cert.Mmd.row (V c main_arg1) (Cert.BlockSum.rowIdx (y 0) p)) (Cert.Mmd.row (V c main_arg1) (Cert.BlockSum.rowIdx j q)) :=
  (dat1 V c).arrAt_eq_of_cover 2 (res1 V c) (flushed1_eq V c) cover1

end Cert.KernelIdeal.Tile

end
-- ==== Proof.KernelIdeal.RowSum2.lean ====
/-
  From the accumulator's recursion to the result array of pallas_call 2, on the extended reals.

  The grid is 16 × 16 and point t = 16·i + j is handed block i of the array X (8192 rows of 256) through the first
  window and block j of the same array through the second, each block 512 consecutive rows: row p of block i is row
  512·i + p of X. The tile's sum at the point is therefore Σ_p Σ_q e(X_{512·i+p}, X_{512·j+q}), with e the kernel
  exp(−distance) of the specification. The accumulator restarts from zero in column 0 and adds one tile per point, so
  after column j of row i it holds the sum of the row's tiles 0 … j, and at the end of the row the sum over all sixteen
  blocks, that is over all 8192 rows Q, of Σ_p e(X_{512·i+p}, X_Q). That value is written back to entry (i, 0, 0) of
  the result exactly at the last point of row i, and these sixteen write-backs cover the result array; so the array
  ends holding, at entry i, the sum of e over the 512 rows of block i against all rows.
-/
import proofs.«105586_j19189913878688_1_alg».proof.Proof.KernelIdeal.Data2
import proofs.«105586_j19189913878688_1_alg».proof.Proof.KernelIdeal.TileSum
import proofs.«105586_j19189913878688_1_alg».proof.Proof.LibBlockSum
import proofs.«105586_j19189913878688_1_alg».proof.Proof.Spec
import Idealize.ShloMosaic.Lib.Pipeline.Value
import Idealize.ShloMosaic.Lib.ValueIdx

set_option maxRecDepth 16384

noncomputable section

namespace Cert.KernelIdeal.Tile

open Cert.KernelIdeal Cert.KernelIdeal.Gen
open Idealize.ShloMosaic Idealize.ShloMosaic.TcCoe Idealize.ShloMosaic.ValueIdx
open Idealize.ShloMosaic.Pipeline (Dat Cfg Window)
open Cert.KernelIdeal.TileValue

variable (V : (c : Dev nD) → (b : Ref sig .tc) → Buf (Elt Ideal) ((c : Thread nD τ).loc b))

/-! ## The payloads of this call -/

/-- The tile's payload: the double sum, over the rows of the two blocks, of e. -/
theorem tilePay2 (a b : Vec Ideal S512x256 .f32) :
    k2_pay3 (F := Ideal) a b
      = fun _ => ∑ p : Fin 512, ∑ q : Fin 512, Cert.Mmd.pairE (fun k => a (ix2 p k)) (fun k => b (ix2 q k)) :=
  pay3_eq a b

/-- The accumulator's update: the tile's sum added to the value held. -/
theorem addPay2 (s : FVec Ideal S1x1 .f32) (x : Vec Ideal S1x1x1 .f32) :
    k2_pay1 (F := Ideal) s x = fun _ => x (ix3 (0 : Fin 1) (0 : Fin 1) (0 : Fin 1)) + s (ix2 (0 : Fin 1) (0 : Fin 1)) :=
  pay1_eq s x

/-- The accumulator's reset value: zero. -/
theorem zeroPay2 : k2_pay2 (F := Ideal) = fun _ => (0 : EReal) := pay2_eq

/-! ## The blocks as rows of the array -/

/-- The grid has 256 points. -/
theorem lt2 (t : Fin cfg2.N) : t.val < 256 := lt_of_lt_of_eq t.isLt N_2

/-- The index maps over the grid: at point t the first window's block index is (t / 16, 0), the second's
    (t % 16, 0), the result's (t / 16, 0, 0). -/
theorem idx2 : ∀ t : Fin cfg2.N, win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 3) = t.val / 16 ∧ win2_2.index t (1 : Fin 3) = 0 ∧ win2_2.index t (2 : Fin 3) = 0 :=
  (by decide +kernel : ∀ t : Fin grid2.N, win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 3) = t.val / 16 ∧ win2_2.index t (1 : Fin 3) = 0 ∧ win2_2.index t (2 : Fin 3) = 0)

/-- The first operand's block at a point of row i, read at row p: row 512·i + p of the array. -/
theorem ablk2_row (c : Dev nD) (t : Fin cfg2.N) (i : Fin 16) (hi : t.val / 16 = i.val) (p : Fin 512) (k : Fin 256) :
    ablk2 V c t (ix2 p k) = V c main_arg0 (ix2 (Cert.BlockSum.rowIdx i p) k) := by
  unfold ablk2 iblk2
  rw [View.read_apply]
  show V c main_arg0 _ = V c main_arg0 _
  congr 1
  funext a
  apply Fin.ext
  match a with
  | ⟨0, _⟩ => show win2_0.index t (0 : Fin 2) * 512 + 1 * p.val = 512 * i.val + p.val; rw [(idx2 t).1, hi]; omega
  | ⟨1, _⟩ => show win2_0.index t (1 : Fin 2) * 256 + 1 * k.val = k.val; rw [(idx2 t).2.1]; omega

/-- The second operand's block at a point of column j, read at row q: row 512·j + q of the array. -/
theorem bblk2_row (c : Dev nD) (t : Fin cfg2.N) (j : Fin 16) (hj : t.val % 16 = j.val) (q : Fin 512) (k : Fin 256) :
    bblk2 V c t (ix2 q k) = V c main_arg1 (ix2 (Cert.BlockSum.rowIdx j q) k) := by
  unfold bblk2 iblk2
  rw [View.read_apply]
  show V c main_arg1 _ = V c main_arg1 _
  congr 1
  funext a
  apply Fin.ext
  match a with
  | ⟨0, _⟩ => show win2_1.index t (0 : Fin 2) * 512 + 1 * q.val = 512 * j.val + q.val; rw [(idx2 t).2.2.1, hj]; omega
  | ⟨1, _⟩ => show win2_1.index t (1 : Fin 2) * 256 + 1 * k.val = k.val; rw [(idx2 t).2.2.2.1]; omega

/-- Block i of the first operand, row p: row 512·i + p of the array, i = t / 16 the point's row. -/
theorem ablk2_apply (c : Dev nD) (t : Fin cfg2.N) (p : Fin 512) (k : Fin 256) :
    ablk2 V c t (ix2 p k)
      = V c main_arg0 (ix2 (Cert.BlockSum.rowIdx ⟨t.val / 16, by have := lt2 t; omega⟩ p) k) :=
  ablk2_row V c t _ rfl p k

/-- Block j of the second operand, row q: row 512·j + q of the array, j = t % 16 the point's column. -/
theorem bblk2_apply (c : Dev nD) (t : Fin cfg2.N) (q : Fin 512) (k : Fin 256) :
    bblk2 V c t (ix2 q k)
      = V c main_arg1 (ix2 (Cert.BlockSum.rowIdx ⟨t.val % 16, Nat.mod_lt _ (by decide)⟩ q) k) :=
  bblk2_row V c t _ rfl q k

/-! ## The accumulator along a row of the grid -/

/-- The tile's sum at a point of row i and column j over the array's rows: the rows of block i against the rows
    of block j. -/
theorem tile2_eq (c : Dev nD) (t : Fin cfg2.N) (i j : Fin 16) (hi : t.val / 16 = i.val) (hj : t.val % 16 = j.val) :
    k2_pay3 (F := Ideal) (ablk2 V c t) (bblk2 V c t) = fun _ => ∑ p : Fin 512, ∑ q : Fin 512,
      Cert.Mmd.pairE (Cert.Mmd.row (V c main_arg0) (Cert.BlockSum.rowIdx i p)) (Cert.Mmd.row (V c main_arg1) (Cert.BlockSum.rowIdx j q)) := by
  refine (tilePay2 (ablk2 V c t) (bblk2 V c t)).trans ?_
  funext _
  refine Finset.sum_congr rfl fun p _ => Finset.sum_congr rfl fun q _ => ?_
  have ha : (fun k => ablk2 V c t (ix2 p k)) = Cert.Mmd.row (V c main_arg0) (Cert.BlockSum.rowIdx i p) :=
    funext fun k => ablk2_row V c t i hi p k
  have hb : (fun k => bblk2 V c t (ix2 q k)) = Cert.Mmd.row (V c main_arg1) (Cert.BlockSum.rowIdx j q) :=
    funext fun k => bblk2_row V c t j hj q k
  rw [ha, hb]

/-- The sum of e over the rows of block i against the rows of block n; zero when there is no block n. -/
def tileAt2 (c : Dev nD) (i : Fin 16) (n : ℕ) : EReal :=
  if h : n < 16 then ∑ p : Fin 512, ∑ q : Fin 512,
    Cert.Mmd.pairE (Cert.Mmd.row (V c main_arg0) (Cert.BlockSum.rowIdx i p)) (Cert.Mmd.row (V c main_arg1) (Cert.BlockSum.rowIdx ⟨n, h⟩ q))
  else 0

/-- After column j of row i the accumulator holds the sum of the row's tiles 0 … j (by induction on the column:
    column 0 adds the first tile to zero, every later column adds its tile to what the column before left). -/
theorem acc2_range (c : Dev nD) (i : Fin 16) : ∀ (j : ℕ) (hj : j < 16) (n : ℕ) (h : n < cfg2.N) (e : n = 16 * i.val + j),
    acc2 V c n h = fun _ => ∑ j' ∈ Finset.range (j + 1), tileAt2 V c i j'
  | 0, hj, n, h, e => by
    refine (acc2_first V c ⟨n, h⟩ (show n % 16 = 0 by omega)).trans ?_
    rw [addPay2, tile2_eq V c ⟨n, h⟩ i ⟨0, hj⟩ (show n / 16 = i.val by omega) (show n % 16 = 0 by omega), zeroPay2]
    funext _
    rw [Finset.sum_range_one]
    unfold tileAt2
    rw [dif_pos hj]
    exact zero_add _
  | j + 1, hj, n, h, e => by
    have hk : 16 * i.val + j < cfg2.N := by omega
    refine (acc2_next V c ⟨n, h⟩ (show n % 16 ≠ 0 by omega) (16 * i.val + j) hk (show n = 16 * i.val + j + 1 by omega)).trans ?_
    rw [acc2_range c i j (by omega) _ hk rfl, addPay2,
      tile2_eq V c ⟨n, h⟩ i ⟨j + 1, hj⟩ (show n / 16 = i.val by omega) (show n % 16 = j + 1 by omega)]
    funext _
    rw [Finset.sum_range_succ _ (j + 1)]
    congr 1
    unfold tileAt2
    rw [dif_pos hj]

/-- After column j of row i the accumulator holds the sum of the row's first j + 1 tiles. -/
theorem acc2_eq (c : Dev nD) (i : Fin 16) (j : Fin 16) (h : 16 * i.val + j.val < cfg2.N) :
    acc2 V c (16 * i.val + j.val) h = fun _ => ∑ j' ∈ Finset.univ.filter (fun j' : Fin 16 => j'.val ≤ j.val),
      ∑ p : Fin 512, ∑ q : Fin 512,
        Cert.Mmd.pairE (Cert.Mmd.row (V c main_arg0) (Cert.BlockSum.rowIdx i p)) (Cert.Mmd.row (V c main_arg1) (Cert.BlockSum.rowIdx j' q)) := by
  rw [acc2_range V c i j.val j.isLt _ h rfl]
  funext _
  have hr : Finset.range (j.val + 1) = (Finset.range 16).filter (fun n => n ≤ j.val) :=
    Finset.ext fun n => by
      have := j.isLt
      simp only [Finset.mem_filter, Finset.mem_range]
      omega
  rw [hr, Finset.sum_filter, Finset.sum_filter,
    ← Fin.sum_univ_eq_sum_range (fun n => if n ≤ j.val then tileAt2 V c i n else 0) 16]
  refine Finset.sum_congr rfl fun j' _ => ?_
  unfold tileAt2
  rw [dif_pos j'.isLt]

/-- The sum of e over the 512 rows of block i against all 8192 rows, block by block. -/
def rowSum2 (c : Dev nD) (i : Fin 16) : EReal :=
  ∑ j : Fin 16, ∑ p : Fin 512, ∑ q : Fin 512,
    Cert.Mmd.pairE (Cert.Mmd.row (V c main_arg0) (Cert.BlockSum.rowIdx i p)) (Cert.Mmd.row (V c main_arg1) (Cert.BlockSum.rowIdx j q))

/-- At the end of row i the accumulator holds the row's sixteen tiles added up. -/
theorem acc2_row (c : Dev nD) (i : Fin 16) (n : ℕ) (h : n < cfg2.N) (e : n = 16 * i.val + 15) :
    acc2 V c n h = fun _ => rowSum2 V c i := by
  rw [acc2_range V c i 15 (by omega) n h e]
  funext _
  unfold rowSum2
  rw [← Fin.sum_univ_eq_sum_range (fun j' => tileAt2 V c i j') 16]
  refine Finset.sum_congr rfl fun j _ => ?_
  unfold tileAt2
  rw [dif_pos j.isLt]

/-! ## The result array -/

/-- What the result array ends holding: entry (i, 0, 0) is the sum over the rows of block i against all rows. -/
abbrev res2 (c : Dev nD) : S16x1x1.Idx → EReal := fun y => rowSum2 V c ⟨(y 0).val, (y 0).isLt⟩

/-- What a point of the last column writes back is its block of that array: the accumulator at the end of row
    i = t / 16, and the block's one entry is entry (i, 0, 0). -/
theorem flushed2_eq (c : Dev nD) (t : Fin cfg2.N) (hf : (cfg2.win 2).flush t = true) :
    (dat2 V c).flushed 2 t = ((cfg2.win 2).blk t).view.read (Elt Ideal) (res2 V c) := by
  have h15 : t.val % 16 = 15 := (flush2_2 t).mp hf
  have hlt : t.val < 256 := lt2 t
  show (cfg2.win 2).cut (grid2.coords t) ((dat2 V c).after 2 t) = _
  rw [after2_2, acc2_row V c ⟨t.val / 16, by omega⟩ t.val t.isLt (show t.val = 16 * (t.val / 16) + 15 by omega)]
  funext y
  rw [View.read_apply]
  show rowSum2 V c _ = rowSum2 V c _
  congr 1
  apply Fin.ext
  show t.val / 16 = win2_2.index t (0 : Fin 3) * 1 + 1 * (y 0).val
  have hy : (y 0).val < 1 := (y 0).isLt
  rw [(idx2 t).2.2.2.2.1]
  omega

/-- An entry of the result array is in point t's block iff each coordinate is in the block's range on its axis. -/
theorem mem_blk2 (t : Fin cfg2.N) (i : S16x1x1.Idx) :
    i ∈ ((cfg2.win 2).blk t).view.set ↔ ∀ a : Fin 3, win2_2.index t a * S1x1x1.size a ≤ (i a).val ∧ (i a).val < win2_2.index t a * S1x1x1.size a + S1x1x1.size a := by
  show i ∈ ((View.whole main_v4).slice (win2_2.rect t)).set ↔ _
  rw [View.set_slice_whole, Rect.mem_set_unit]
  exact Iff.rfl

/-- Entry (i, 0, 0) is written back by the last point of row i, the point 16·i + 15. -/
theorem cover2 (i : S16x1x1.Idx) : ∃ t : Fin cfg2.N, (cfg2.win 2).flush t = true ∧ i ∈ ((cfg2.win 2).blk t).view.set := by
  have h0 : (i 0).val < 16 := (i 0).isLt
  have h1 : (i 1).val < 1 := (i 1).isLt
  have h2 : (i 2).val < 1 := (i 2).isLt
  have hN : 16 * (i 0).val + 15 < cfg2.N := lt_of_lt_of_eq (show 16 * (i 0).val + 15 < 256 by omega) N_2.symm
  refine ⟨⟨16 * (i 0).val + 15, hN⟩, (flush2_2 _).mpr (show (16 * (i 0).val + 15) % 16 = 15 by omega), ?_⟩
  rw [mem_blk2]
  obtain ⟨-, -, -, -, e0, e1, e2⟩ := idx2 ⟨16 * (i 0).val + 15, hN⟩
  have e0' : win2_2.index ⟨16 * (i 0).val + 15, hN⟩ (0 : Fin 3) = (i 0).val :=
    e0.trans (show (16 * (i 0).val + 15) / 16 = (i 0).val by omega)
  intro a
  match a with
  | ⟨0, _⟩ => show win2_2.index ⟨16 * (i 0).val + 15, hN⟩ (0 : Fin 3) * 1 ≤ (i 0).val ∧ (i 0).val < win2_2.index ⟨16 * (i 0).val + 15, hN⟩ (0 : Fin 3) * 1 + 1; rw [e0']; omega
  | ⟨1, _⟩ => show win2_2.index ⟨16 * (i 0).val + 15, hN⟩ (1 : Fin 3) * 1 ≤ (i 1).val ∧ (i 1).val < win2_2.index ⟨16 * (i 0).val + 15, hN⟩ (1 : Fin 3) * 1 + 1; rw [e1]; omega
  | ⟨2, _⟩ => show win2_2.index ⟨16 * (i 0).val + 15, hN⟩ (2 : Fin 3) * 1 ≤ (i 2).val ∧ (i 2).val < win2_2.index ⟨16 * (i 0).val + 15, hN⟩ (2 : Fin 3) * 1 + 1; rw [e2]; omega

/-- THE RESULT ARRAY of pallas_call 2: entry i is the sum of e over the 512 rows of block i against all 8192 rows
    Q, the rows Q taken block by block. -/
theorem out2_eq (c : Dev nD) :
    (dat2 V c).arrAt 2 cfg2.N = fun (y : S16x1x1.Idx) => ∑ j : Fin 16, ∑ p : Fin 512, ∑ q : Fin 512,
      Cert.Mmd.pairE (Cert.Mmd.row (V c main_arg0) (Cert.BlockSum.rowIdx (y 0) p)) (Cert.Mmd.row (V c main_arg1) (Cert.BlockSum.rowIdx j q)) :=
  (dat2 V c).arrAt_eq_of_cover 2 (res2 V c) (flushed2_eq V c) cover2

end Cert.KernelIdeal.Tile

end
-- ==== Proof.KernelIdeal.Result.lean ====
/-
  The kernel program's final value, on the extended reals.

  The program makes three pairwise-sum calls — the first argument against itself, the second against itself, the first
  against the second — each leaving sixteen partial sums: entry i is the sum of e over the 512 rows of block i of the
  call's first operand against all 8192 rows of its second, the rows taken block by block. After each call the host
  sums the sixteen entries from zero; after the third it divides the three sums by 2²⁶, adds the first two quotients
  and subtracts twice the third.

  Sixteen blocks of 512 rows are the 8192 rows, so the sixteen entries of one call add up to the sum of e over all
  pairs of rows of its two operands. No item of the program writes an argument array, so every call reads the arguments
  as launched. Hence the result buffer ends holding the statistic `Cert.Mmd.mmd` of the two arguments.
-/
import proofs.«105586_j19189913878688_1_alg».proof.Proof.KernelIdeal.Fold
import proofs.«105586_j19189913878688_1_alg».proof.Proof.KernelIdeal.RowSum0
import proofs.«105586_j19189913878688_1_alg».proof.Proof.KernelIdeal.RowSum1
import proofs.«105586_j19189913878688_1_alg».proof.Proof.KernelIdeal.RowSum2
import proofs.«105586_j19189913878688_1_alg».proof.Proof.LibBlockSum
import proofs.«105586_j19189913878688_1_alg».proof.Proof.Spec
import Idealize.ShloMosaic.Lib.StableHlo.Run
import Idealize.ShloMosaic.PureOps.Ideal.Laws
import Idealize.ShloMosaic.Lib.ValueIdx

set_option maxRecDepth 16384

noncomputable section

namespace Cert.KernelIdeal.Tile

open Cert.KernelIdeal Cert.KernelIdeal.Gen
open Idealize.ShloMosaic Idealize.ShloMosaic.TcCoe Idealize.ShloMosaic.ValueIdx Idealize.ShloMosaic.StableHlo

/-- The sixteen entries of a 16 × 1 × 1 array are numbered by their first coordinate. -/
def partEquiv : S16x1x1.Idx ≃ Fin 16 where
  toFun y := y 0
  invFun i := ix3 i (0 : Fin 1) (0 : Fin 1)
  left_inv y := by
    funext a
    match a with
    | ⟨0, _⟩ => rfl
    | ⟨1, _⟩ => exact Subsingleton.elim (α := Fin 1) _ _
    | ⟨2, _⟩ => exact Subsingleton.elim (α := Fin 1) _ _
  right_inv _ := rfl

/-- A sum over the entries of a 16 × 1 × 1 array of a function of the first coordinate is the sum over that coordinate. -/
theorem sum_parts (g : Fin 16 → EReal) : ∑ y : S16x1x1.Idx, g (y 0) = ∑ i : Fin 16, g i :=
  Fintype.sum_equiv partEquiv _ _ (fun _ => rfl)

/-- Sixteen partial sums add up to the sum over all pairs of rows. -/
theorem sum_partials (X Y : (⟨2, ![8192, 256]⟩ : Shape).Idx → EReal) :
    Host.reduceAdd (F := Ideal) (fun (y : S16x1x1.Idx) => ∑ j : Fin 16, ∑ p : Fin 512, ∑ q : Fin 512,
        Cert.Mmd.pairE (Cert.Mmd.row X (Cert.BlockSum.rowIdx (y 0) p)) (Cert.Mmd.row Y (Cert.BlockSum.rowIdx j q)))
      (constant S_ .f32 0x00000000#32) reducesTo_S16x1x1_S_d0_1_2 h_S_ = fun _ => Cert.Mmd.total X Y := by
  funext i
  simp only [Host.reduceAdd, Ideal.hostReduceAdd_def]
  refine (Ideal.hostReduceAdd_total reducesTo_S16x1x1_S_d0_1_2 (fun b => b.elim0) _ _ i).trans ?_
  have hs : (∑ y : S16x1x1.Idx, ∑ j : Fin 16, ∑ p : Fin 512, ∑ q : Fin 512,
      Cert.Mmd.pairE (Cert.Mmd.row X (Cert.BlockSum.rowIdx (y 0) p)) (Cert.Mmd.row Y (Cert.BlockSum.rowIdx j q)))
      = Cert.Mmd.total X Y :=
    (sum_parts (fun i => ∑ j : Fin 16, ∑ p : Fin 512, ∑ q : Fin 512,
      Cert.Mmd.pairE (Cert.Mmd.row X (Cert.BlockSum.rowIdx i p)) (Cert.Mmd.row Y (Cert.BlockSum.rowIdx j q)))).trans
      (Cert.BlockSum.sum_blocks (fun P Q => Cert.Mmd.pairE (Cert.Mmd.row X P) (Cert.Mmd.row Y Q)))
  show Ideal.ofBits .f32 0x00000000#32 + _ = _
  rw [Ideal.ofBits_zero_f32, zero_add]
  exact hs

/-- The sixteen partial sums a pairwise-sum call leaves, as a function of its two operand arrays: entry i is the sum
    of e over the 512 rows of block i of the first array against all rows of the second, block by block. -/
def parts (A B : (⟨2, ![8192, 256]⟩ : Shape).Idx → EReal) : S16x1x1.Idx → EReal :=
  fun y => ∑ j : Fin 16, ∑ p : Fin 512, ∑ q : Fin 512,
    Cert.Mmd.pairE (Cert.Mmd.row A (Cert.BlockSum.rowIdx (y 0) p)) (Cert.Mmd.row B (Cert.BlockSum.rowIdx j q))

/-- What the host operations make of the three arrays of partial sums: each summed from zero, each sum divided by 2²⁶,
    the first two quotients added, twice the third subtracted. -/
def tail (a b d : (⟨S16x1x1, .f32⟩ : BufTy).Contents (Elt Ideal)) : (⟨S_, .f32⟩ : BufTy).Contents (Elt Ideal) :=
  subf (F := Ideal)
    (addf (F := Ideal) (Host.divf (F := Ideal) (Host.reduceAdd (F := Ideal) a (constant (F := Ideal) S_ .f32 0x00000000#32) reducesTo_S16x1x1_S_d0_1_2 h_S_) (constant (F := Ideal) S_ .f32 0x4C800000#32))
      (Host.divf (F := Ideal) (Host.reduceAdd (F := Ideal) b (constant (F := Ideal) S_ .f32 0x00000000#32) reducesTo_S16x1x1_S_d0_1_2 h_S_) (constant (F := Ideal) S_ .f32 0x4C800000#32)))
    (mulf (F := Ideal) (constant (F := Ideal) S_ .f32 0x40000000#32)
      (Host.divf (F := Ideal) (Host.reduceAdd (F := Ideal) d (constant (F := Ideal) S_ .f32 0x00000000#32) reducesTo_S16x1x1_S_d0_1_2 h_S_) (constant (F := Ideal) S_ .f32 0x4C800000#32)))

/-- On the partial sums of (X, X), (Y, Y) and (X, Y) the host operations give the statistic of X and Y. -/
theorem tail_parts (X Y : (⟨2, ![8192, 256]⟩ : Shape).Idx → EReal) :
    tail (parts X X) (parts Y Y) (parts X Y) = fun _ => Cert.Mmd.mmd X Y := by
  unfold tail parts
  rw [sum_partials X X, sum_partials Y Y, sum_partials X Y]
  funext i
  unfold Cert.Mmd.mmd
  rfl

variable (m : (ℓ : Loc nD τ sig) → Buf (Elt Ideal) ℓ)

/-- After the first host stretch the first scalar holds the first call's partial sums summed from zero. -/
theorem W2_v1 (c : Dev nD) : W2 m c main_v1
    = Host.reduceAdd (F := Ideal) (sums0 m c) (constant (F := Ideal) S_ .f32 0x00000000#32) reducesTo_S16x1x1_S_d0_1_2 h_S_ := by
  show StableHlo.after hostOps1 _ (Proc.devRef .tc main_v1) = _
  after_results
  rw [W1_res]

/-- After the second host stretch the second scalar holds the second call's partial sums summed from zero. -/
theorem W4_v3 (c : Dev nD) : W4 m c main_v3
    = Host.reduceAdd (F := Ideal) (sums1 m c) (constant (F := Ideal) S_ .f32 0x00000000#32) reducesTo_S16x1x1_S_d0_1_2 h_S_ := by
  show StableHlo.after hostOps2 _ (Proc.devRef .tc main_v3) = _
  after_results
  rw [W3_res]

/-- The first scalar is not written again before the last stretch. -/
theorem W5_v1 (c : Dev nD) : W5 m c main_v1
    = Host.reduceAdd (F := Ideal) (sums0 m c) (constant (F := Ideal) S_ .f32 0x00000000#32) reducesTo_S16x1x1_S_d0_1_2 h_S_ :=
  (W5_of m c main_v1 (by decide)).trans ((W4_of m c main_v1 (by decide)).trans ((W3_of m c main_v1 (by decide)).trans (W2_v1 m c)))

/-- Nor is the second. -/
theorem W5_v3 (c : Dev nD) : W5 m c main_v3
    = Host.reduceAdd (F := Ideal) (sums1 m c) (constant (F := Ideal) S_ .f32 0x00000000#32) reducesTo_S16x1x1_S_d0_1_2 h_S_ :=
  (W5_of m c main_v3 (by decide)).trans (W4_v3 m c)

/-- At the return the result buffer holds the host operations' combination of the three calls' partial sums. -/
theorem W6_v11 (c : Dev nD) : W6 m c main_v11 = tail (sums0 m c) (sums1 m c) (sums2 m c) := by
  show StableHlo.after hostOps3 _ (Proc.devRef .tc main_v11) = _
  after_results
  rw [W5_v1, W5_v3, W5_res]
  rfl

/-- The first call's partial sums are those of the first argument against itself. -/
theorem sums0_eq (c : Dev nD) :
    sums0 m c = parts (m ((c.tc : Thread nD τ).loc main_arg0)) (m ((c.tc : Thread nD τ).loc main_arg0)) :=
  out0_eq (atRef (W0 m)) c

/-- The second call's partial sums are those of the second argument against itself: its region is entered with the
    arguments as launched. -/
theorem sums1_eq (c : Dev nD) :
    sums1 m c = parts (m ((c.tc : Thread nD τ).loc main_arg1)) (m ((c.tc : Thread nD τ).loc main_arg1)) :=
  (out1_eq (atRef (W2 m)) c).trans (congrArg (fun A => parts A A) (W2_arg1 m c))

/-- The third call's partial sums are those of the first argument against the second. -/
theorem sums2_eq (c : Dev nD) :
    sums2 m c = parts (m ((c.tc : Thread nD τ).loc main_arg0)) (m ((c.tc : Thread nD τ).loc main_arg1)) :=
  (out2_eq (atRef (W4 m)) c).trans (congrArg₂ parts (W4_arg0 m c) (W4_arg1 m c))

/-- THE KERNEL PROGRAM'S RESULT is the statistic of its two arguments. -/
theorem kernel_value (c : Dev nD) :
    W6 m c main_v11 = fun _ => Cert.Mmd.mmd (m ((c.tc : Thread nD τ).loc main_arg0)) (m ((c.tc : Thread nD τ).loc main_arg1)) := by
  rw [W6_v11, sums0_eq, sums1_eq, sums2_eq]
  exact tail_parts _ _

end Cert.KernelIdeal.Tile

end
-- ==== Proof.RefValue.lean ====
/-
  The reference program's value.

  The reference forms, for each of the three pairs of arrays (X, X), (Y, Y) and (X, Y), the 8192 × 8192 table whose entry
  (P, Q) is built from row P of the first array and row Q of the second: the two rows' sums of squares added, less twice
  the rows' inner product, clamped below at zero; a square root taken only where the clamped value is positive (and zero
  elsewhere); the product with −1; the exponential. It then sums each table over all its entries, divides by 2²⁶, and
  combines the three means as (first + second) − 2 · third.

  This module shows that the composed term of those operations is, at every index of its scalar result, the statistic
  `Cert.Mmd.mmd` of the two argument arrays: entry (P, Q) of a table is `Cert.Mmd.pairE` of the two rows, the sum over
  a table's index set is the double sum over P and Q, and the scalar tail is the statistic's own expression.
  The two tables of an array with itself are the cross table read at equal arguments, so one reading serves all three.
-/
import proofs.«105586_j19189913878688_1_alg».proof.Proof.Gen.ReferenceIdeal.Run
import proofs.«105586_j19189913878688_1_alg».proof.Proof.Gen.ReferenceIdeal.Read
import proofs.«105586_j19189913878688_1_alg».proof.Proof.Spec
import proofs.«105586_j19189913878688_1_alg».proof.Proof.LibMatmul
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx

/-- The word of zero is the additive identity: a sum started from it is the sum. -/
theorem zero_word_add (s : EReal) : Ideal.ofBits .f32 0x00000000#32 + s = s := by
  rw [Ideal.ofBits_zero_f32, zero_add]

/-- Entry (P, Q) of the clamped squared-distance table of X against Y is the clamped squared distance of row P of X and
    row Q of Y: each broadcast row sum is read back at its row, the product against the transpose is the rows' inner
    product, and the sums' initial zero drops. -/
theorem sqd_apply (X Y : (⟨S8192x256, .f32⟩ : BufTy).Contents (Elt Ideal)) (P Q : Fin 8192) :
    val_main_v61 (F := Ideal) X Y (ix2 P Q) = Cert.Mmd.sqd (Cert.Mmd.row X P) (Cert.Mmd.row Y Q) := by
  have h1 : ∀ k : Fin 256, idx_main_v47 (idx_main_v48 (idx_main_v52 (ix2 P Q))) k = ix2 P k := fun k => by
    funext a; match a with | ⟨0, _⟩ => rfl | ⟨1, _⟩ => rfl
  have h2 : ∀ k : Fin 256, idx_main_v50 (idx_main_v51 (idx_main_v53 (ix2 P Q))) k = ix2 Q k := fun k => by
    funext a; match a with | ⟨0, _⟩ => rfl | ⟨1, _⟩ => rfl
  have h3 : ∀ k : Fin 256, lidx_main_v56 (ix2 P Q) k = ix2 P k := fun k => by
    funext a; match a with | ⟨0, _⟩ => rfl | ⟨1, _⟩ => rfl
  have h4 : ∀ k : Fin 256, idx_main_v55 (ridx_main_v56 (ix2 P Q) k) = ix2 Q k := fun k => by
    funext a; match a with | ⟨0, _⟩ => rfl | ⟨1, _⟩ => rfl
  simp only [val_main_v61_apply, val_main_v59_apply, val_main_v54_apply, val_main_v58_apply, val_main_v60_apply,
    val_main_cst_18_apply, val_main_v57_apply, val_main_cst_17_apply, val_main_v56_apply, val_main_v55_apply,
    val_main_v52_apply, val_main_v48_apply, val_main_v47_apply, val_main_v46_apply, val_main_cst_15_apply,
    val_main_v53_apply, val_main_v51_apply, val_main_v50_apply, val_main_v49_apply, val_main_cst_16_apply,
    Ideal.ofBits_def, Ideal.addf_def, Ideal.subf_def, Ideal.mulf_def, Ideal.maximumf_def, h1, h2, h3, h4, zero_word_add]
  rfl

/-- Entry (P, Q) of the exponential table of X against Y is exp(−distance) of row P of X and row Q of Y, the distance
    through the guarded square root. -/
theorem pair_apply (X Y : (⟨S8192x256, .f32⟩ : BufTy).Contents (Elt Ideal)) (P Q : Fin 8192) :
    val_main_v77 (F := Ideal) X Y (ix2 P Q) = Cert.Mmd.pairE (Cert.Mmd.row X P) (Cert.Mmd.row Y Q) := by
  simp only [val_main_v77_apply, val_main_v76_apply, val_main_v75_apply, val_main_cst_25_apply, val_main_v68_apply,
    val_main_v66_apply, val_main_v65_apply, val_main_cst_21_apply, val_main_v67_apply, val_main_v64_apply,
    val_main_v63_apply, val_main_v62_apply, val_main_cst_19_apply, val_main_call4_v1_apply, val_main_call4_v0_apply,
    val_main_cst_20_apply, val_main_call5_v1_apply, val_main_call5_v0_apply, val_main_cst_22_apply, sqd_apply,
    Ideal.ofBits_def, Ideal.mulf_def, Ideal.cmpf_def, Ideal.hostUnary_sqrt_def, Ideal.hostUnary_exp_def]
  rfl

/-- The sum of the table of X against itself is the cross sum read at (X, X): the same operations in the same order. -/
theorem self0_eq (X : (⟨S8192x256, .f32⟩ : BufTy).Contents (Elt Ideal)) :
    val_main_v78 (F := Ideal) X = val_main_v83 (F := Ideal) X X := rfl

/-- The sum of the table of Y against itself is the cross sum read at (Y, Y). -/
theorem self1_eq (Y : (⟨S8192x256, .f32⟩ : BufTy).Contents (Elt Ideal)) :
    val_main_v80 (F := Ideal) Y = val_main_v83 (F := Ideal) Y Y := rfl

/-- The sum of the exponential table over its index set is the double sum over the rows of X and the rows of Y. -/
theorem sum_pairs (X Y : (⟨S8192x256, .f32⟩ : BufTy).Contents (Elt Ideal)) :
    ∑ j : S8192x8192.Idx, val_main_v77 (F := Ideal) X Y j = Cert.Mmd.total X Y := by
  have h : ∑ j : S8192x8192.Idx, val_main_v77 (F := Ideal) X Y j
      = ∑ P : Fin 8192, ∑ Q : Fin 8192, val_main_v77 (F := Ideal) X Y (ix2 P Q) :=
    sum_idx2 (n0 := 8192) (n1 := 8192) (val_main_v77 (F := Ideal) X Y)
  rw [h]
  unfold Cert.Mmd.total
  exact Finset.sum_congr rfl fun P _ => Finset.sum_congr rfl fun Q _ => pair_apply X Y P Q

/-- The reduction of the exponential table over both axes, started from zero, is the sum of e over all pairs of rows. -/
theorem total_apply (X Y : (⟨S8192x256, .f32⟩ : BufTy).Contents (Elt Ideal)) (i : S_.Idx) :
    val_main_v83 (F := Ideal) X Y i = Cert.Mmd.total X Y := by
  refine (val_main_v83_apply X Y i).trans ?_
  rw [val_main_cst_30_apply, Ideal.ofBits_def]
  exact (zero_word_add _).trans (sum_pairs X Y)

/-- The last stage, as a function of the two arrays, is the statistic at its one index: the three sums divided by 2²⁶,
    the two self means added, twice the cross mean subtracted. -/
theorem value_eq (X Y : (⟨S8192x256, .f32⟩ : BufTy).Contents (Elt Ideal)) :
    val_main_v86 (F := Ideal) X Y = fun _ => Cert.Mmd.mmd X Y := by
  funext i
  simp only [val_main_v86_apply, val_main_v85_apply, val_main_v84_apply, val_main_v82_apply,
    val_main_v81_apply, val_main_v79_apply, val_main_cst_27_apply, val_main_cst_29_apply, val_main_cst_31_apply,
    val_main_cst_32_apply, self0_eq, self1_eq, total_apply,
    Ideal.ofBits_def, Ideal.addf_def, Ideal.subf_def, Ideal.mulf_def, Ideal.hostDivf_def]
  unfold Cert.Mmd.mmd
  rfl

/-- The reference's result is the statistic of the two argument arrays. -/
theorem result_eq (m : (ℓ : Loc nD τ sig) → Buf (Elt Ideal) ℓ) (c : Dev nD) :
    Cert.ReferenceIdeal.Value.res_main_v86 (F := Ideal) m c
      = fun _ => Cert.Mmd.mmd (m ((c.tc : Thread nD τ).loc main_arg0)) (m ((c.tc : Thread nD τ).loc main_arg1)) :=
  (val_main_v86_eq (F := Ideal) m c).trans (value_eq _ _)

end Cert.ReferenceIdeal.RefValue

end
-- ==== Proof.lean ====
/-
  Maximum mean discrepancy with the kernel exp(−‖x − y‖), computed by three pairwise-sum calls, against its plain
  array formulation.

  For arrays X, Y of 8192 rows of 256 entries let e(x, y) = exp(−d(x, y)), where d² = max(Σx² + Σy² − 2·Σxy, 0) and
  d = sqrt(d²) guarded so that a zero argument gives zero, and S(X, Y) = Σ_P Σ_Q e(X_P, Y_Q). Both programs return
      S(X, X) / 2²⁶ + S(Y, Y) / 2²⁶ − 2 · (S(X, Y) / 2²⁶).
  The reference forms the three 8192 × 8192 matrices of e and sums each at once. The kernel program makes three calls
  of one Pallas kernel on a 16 × 16 grid: at point (i, j) it takes block i of the first operand and block j of the
  second (512 rows each), adds the tile's sum Σ_{p,q} e to an accumulator that it zeroes in column 0, and in column
  15 writes the accumulator — the sum over the 512 rows of block i against all 8192 rows — to entry i of a result of
  sixteen entries; the host adds the sixteen entries, divides, and combines. On the extended reals the two agree
  because addition is commutative and associative: a sum over pairs of rows is the sum over pairs of blocks of the
  sums inside the blocks. No finiteness of the inputs is used.

  The frames: each of the two kernel programs is run as its six items (call, host stretch, call, host stretch, call,
  host stretch) by the library's launch for several kernel regions; a call's invariant carries its accumulator cell,
  and a call handed one array through both input windows holds it half and half. The reference's run is the
  generated one. The ideal pass rewrote nothing, so `preserves` has no conjunct.
-/
import proofs.«105586_j19189913878688_1_alg».proof.Defs
import proofs.«105586_j19189913878688_1_alg».proof.Proof.Gen.Kernel
import proofs.«105586_j19189913878688_1_alg».proof.Proof.Gen.KernelIdeal
import proofs.«105586_j19189913878688_1_alg».proof.Proof.Gen.ReferenceIdeal
import proofs.«105586_j19189913878688_1_alg».proof.Proof.Gen.Pre_finite_inputs
import proofs.«105586_j19189913878688_1_alg».proof.Proof.Gen.ReferenceIdeal.Run
import proofs.«105586_j19189913878688_1_alg».proof.Proof.Kernel.Run
import proofs.«105586_j19189913878688_1_alg».proof.Proof.KernelIdeal.Run
import proofs.«105586_j19189913878688_1_alg».proof.Proof.KernelIdeal.Result
import proofs.«105586_j19189913878688_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to its end and leaves both arguments as launched. -/
theorem frame_k : Cert.frame_Kernel (hKernel := Cert.Kernel.Gen.facts) (hPre_finite_inputs := Cert.Pre_finite_inputs.Gen.facts) :=
  fun m ρ _ => (θ_run Cert.Kernel.defs _ _).mono (fun _ h c => ⟨(h c).2.1, (h c).2.2⟩) (Cert.Kernel.Tile.run_all (F := Bits) m ρ)

/-- So does its idealization. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => ⟨(h c).2.1, (h c).2.2⟩) (Cert.KernelIdeal.Tile.run_all (F := Ideal) m ρ)

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the statistic of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c _ => Cert.Mmd.mmd (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Tile.kernel_value m c), (h c).2.1, (h c).2.2⟩)
      (Cert.KernelIdeal.Tile.run_all (F := Ideal) m ρ)
  · refine (θ_run Cert.ReferenceIdeal.defs _ _).mono (fun _ h c => ⟨?_, (h c).2.1, (h c).2.2⟩)
      (Cert.ReferenceIdeal.Value.run (F := Ideal) m' ρ')
    rw [(h c).1, Cert.ReferenceIdeal.RefValue.result_eq, (hagree c).1, (hagree c).2]
    rfl

/-- The five claims. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
